-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x64 : Shape := ⟨2, ![2, 64]⟩
abbrev S64 : Shape := ⟨1, ![64]⟩
abbrev S64x32 : Shape := ⟨2, ![64, 32]⟩
abbrev S32 : Shape := ⟨1, ![32]⟩
abbrev S2x1600000 : Shape := ⟨2, ![2, 1600000]⟩
abbrev S100000 : Shape := ⟨1, ![100000]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x2 .f32) (main_arg1 : FVec F S2x64 .f32) (main_arg2 : FVec F S64 .f32) (main_arg3 : FVec F S64x32 .f32) (main_arg4 : FVec F S32 .f32) (main_arg5 : IVec S2x1600000 32) (main_arg6 : IVec S100000 32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S2x64 .f32 := Host.absf main_arg1
  let main_cst_0 : FVec F S_ .f32 := constant S_ .f32 0x7F800000#32
  let main_v5 : FVec F S2x64 .f32 := broadcastInDim S2x64 ![] bcast_S_S2x64 main_cst_0
  let main_v6 : IVec S2x64 1 := cmpf .olt main_v4 main_v5
  let main_c_1 : IVec S_ 1 := constantI S_ 1 1#1
  let main_v7 : IVec S_ 1 := (fun x v => Host.reduce IntOp.andi x v reducesTo_S2x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_v13 main_v16
-- ==== Kernel.lean ====
abbrev S100000x2 : Shape := ⟨2, ![100000, 2]⟩
abbrev S2x64 : Shape := ⟨2, ![2, 64]⟩
abbrev S64 : Shape := ⟨1, ![64]⟩
abbrev S64x32 : Shape := ⟨2, ![64, 32]⟩
abbrev S32 : Shape := ⟨1, ![32]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1x64 : Shape := ⟨2, ![1, 64]⟩
abbrev S1x32 : Shape := ⟨2, ![1, 32]⟩
abbrev S100000x64 : Shape := ⟨2, ![100000, 64]⟩
abbrev S4000x2 : Shape := ⟨2, ![4000, 2]⟩
abbrev S4000x1 : Shape := ⟨2, ![4000, 1]⟩
abbrev S4000x64 : Shape := ⟨2, ![4000, 64]⟩
abbrev S1600000x64 : Shape := ⟨2, ![1600000, 64]⟩
abbrev S100000x32 : Shape := ⟨2, ![100000, 32]⟩
abbrev S4000x32 : Shape := ⟨2, ![4000, 32]⟩
abbrev S1600000x32 : Shape := ⟨2, ![1600000, 32]⟩
abbrev S64x1 : Shape := ⟨2, ![64, 1]⟩

abbrev nBuf : Space → Nat
  | .hbm => 68
  | .vmem => 32
  | .smem => 0
  | _ => 0

abbrev bufTy : (tb : Table) → Fin (tcTables nBuf tb) → BufTy
  | .hbm, ⟨0, _⟩ => ⟨S100000x2, .f32⟩
  | .hbm, ⟨1, _⟩ => ⟨S2x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S1x64, .f32⟩
  | .hbm, ⟨23, _⟩ => ⟨S1x32, .f32⟩
  | .hbm, ⟨24, _⟩ => ⟨S100000x64, .f32⟩
  | .hbm, ⟨25, _⟩ => ⟨S100000x64, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x64, .f32⟩
  | .hbm, ⟨35, _⟩ => ⟨S_, .f32⟩
  | .hbm, ⟨36, _⟩ => ⟨S100000x64, .f32⟩
  | .hbm, ⟨37, _⟩ => ⟨S1600000x1, .i32⟩
  | .hbm, ⟨38, _⟩ => ⟨S100000x64, .f32⟩
  | .hbm, ⟨39, _⟩ => ⟨S100000x32, .f32⟩
  | .hbm, ⟨40, _⟩ => ⟨S100000x32, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x32, .f32⟩
  | .hbm, ⟨50, _⟩ => ⟨S_, .f32⟩
  | .hbm, ⟨51, _⟩ => ⟨S100000x32, .f32⟩
  | .hbm, ⟨52, _⟩ => ⟨S1600000x1, .i32⟩
  | .hbm, ⟨53, _⟩ => ⟨S100000x32, .f32⟩
  | .hbm, ⟨54, _⟩ => ⟨S100000x1, .i32⟩
  | .hbm, ⟨55, _⟩ => ⟨S64x32, .f32⟩
  | .hbm, ⟨56, _⟩ => ⟨S_, .f32⟩
  | .hbm, ⟨57, _⟩ => ⟨S100000, .f32⟩
  | .hbm, ⟨58, _⟩ => ⟨S_, .f32⟩
  | .hbm, ⟨59, _⟩ => ⟨S64, .f32⟩
  | .hbm, ⟨60, _⟩ => ⟨S100000x1, .i32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S64x1, .f32⟩
  | .hbm, ⟨66, _⟩ => ⟨S64x32, .f32⟩
  | .hbm, ⟨67, _⟩ => ⟨S64x32, .f32⟩
  | .local _ .vmem, ⟨0, _⟩ => ⟨S4000x2, .f32⟩
  | .local _ .vmem, ⟨1, _⟩ => ⟨S4000x2, .f32⟩
  | .local _ .vmem, ⟨2, _⟩ => ⟨S2x64, .f32⟩
  | .local _ .vmem, ⟨3, _⟩ => ⟨S4000x1, .f32⟩
  | .local _ .vmem, ⟨4, _⟩ => ⟨S4000x1, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x1, .f32⟩
  | .local _ .vmem, ⟨14, _⟩ => ⟨S4000x1, .f32⟩
  | .local _ .vmem, ⟨15, _⟩ => ⟨S1x64, .f32⟩
  | .local _ .vmem, ⟨16, _⟩ => ⟨S64x32, .f32⟩
  | .local _ .vmem, ⟨17, _⟩ => ⟨S4000x32, .f32⟩
  | .local _ .vmem, ⟨18, _⟩ => ⟨S4000x32, .f32⟩
  | .local _ .vmem, ⟨19, _⟩ => ⟨S4000x32, .f32⟩
  | .local _ .vmem, ⟨20, _⟩ => ⟨S4000x32, .f32⟩
  | .local _ .vmem, ⟨21, _⟩ => ⟨S4000x32, .f32⟩
  | .local _ .vmem, ⟨22, _⟩ => ⟨S4000x32, .f32⟩
  | .local _ .vmem, ⟨23, _⟩ => ⟨S4000x32, .f32⟩
  | .local _ .vmem, ⟨24, _⟩ => ⟨S4000x32, .f32⟩
  | .local _ .vmem, ⟨25, _⟩ => ⟨S4000x1, .f32⟩
  | .local _ .vmem, ⟨26, _⟩ => ⟨S4000x1, .f32⟩
  | .local _ .vmem, ⟨27, _⟩ => ⟨S1x32, .f32⟩
  | .local _ .vmem, ⟨28, _⟩ => ⟨S4000x1, .i32⟩
  | .local _ .vmem, ⟨29, _⟩ => ⟨S4000x1, .i32⟩
  | .local _ .vmem, ⟨30, _⟩ => ⟨S64x32, .f32⟩
  | .local _ .vmem, ⟨31, _⟩ => ⟨S64x32, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25_0 : Ref sig .tc := ⟨.hbm, 39, rfl⟩
abbrev main_v25_1 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem4_1 : DmaSem sig := 29
abbrev cc2_sem5_0 : DmaSem sig := 30

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v31 : BitVec 1 := Scalar.cmpi .eq arg0 c24_i32
  let v32 : BitVec 32 := Scalar.extui v31
  let c0_i32_14 : BitVec 32 := 0#32
  let v33 : BitVec 1 := Scalar.cmpi .ne v32 c0_i32_14
  v33

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x1 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S64x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  shapeCasts_S64_S1x64 : S64.ShapeCasts S1x64
  shapeCasts_S32_S1x32 : S32.ShapeCasts S1x32
  inb_S4000x2_S4000x2_0_0 : ∀ a, (![0, 0] : Fin 2 → Nat) a + S4000x2.size a ≤ S4000x2.size a
  h_S4000x2 : 0 < S4000x2.numel
  bitsLt_bf16_f32 : FTy.bits .bf16 < FTy.bits .f32
  inb_S2x64_S2x64_0_0 : ∀ a, (![0, 0] : Fin 2 → Nat) a + S2x64.size a ≤ S2x64.size a
  h_S2x64 : 0 < S2x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x32_S64x32_0_0 : ∀ a, (![0, 0] : Fin 2 → Nat) a + S64x32.size a ≤ S64x32.size a
  h_S64x32 : 0 < S64x32.numel
  broadcasts_S4000x1_S4000x32 : S4000x1.Broadcasts S4000x32
  inb_S4000x32_S4000x32_0_0 : ∀ a, (![0, 0] : Fin 2 → Nat) a + S4000x32.size a ≤ S4000x32.size a
  h_S4000x32 : 0 < S4000x32.numel
  bcast_S_S100000x32 : S_.BroadcastsInDim S100000x32 (![] : Fin 0 → Fin S100000x32.rank)
  shapeCasts_S100000_S100000x1 : S100000.ShapeCasts S100000x1
  shapeCasts_S64x32_S64x32 : S64x32.ShapeCasts S64x32
  shapeCasts_S4000x32_S4000x32 : S4000x32.ShapeCasts S4000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  iota_S4000x64_d1_w32 : S4000x64.Iotas .tc 32 [1]
  natLt_1_32 : 1 < 32
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  scatter_S100000_S1600000x1_S1600000_n_0_0_1_wf : ScatterDims.WF S100000 S1600000x1 S1600000 [] [0] [0] 1
  dot_S4000x2_S2x64_S4000x64_1_0_0_1_n_n_wf : DotDims.WF S4000x2 S2x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x32_S4000x32_1_0_0_1_n_n_wf : DotDims.WF S4000x64 S64x32 S4000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S4000x64_S4000x32_S64x32_0_0_1_1_n_n_wf : DotDims.WF S4000x64 S4000x32 S64x32 [0] [0] [1] [1] [] []
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x2.size a ≤ S100000x2.size a
  hwx0_0 : ∀ i : grid0.Coords, EltTy.bits .f32 = 32 ∨ (Rect.block (s := S100000x2) S4000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x64.size a ≤ S2x64.size a
  hwx0_1 : ∀ i : grid0.Coords, EltTy.bits .f32 = 32 ∨ (Rect.block (s := S2x64) S2x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x64.size a ≤ S100000x64.size a
  hwx0_4 : ∀ i : grid0.Coords, EltTy.bits .f32 = 32 ∨ (Rect.block (s := S100000x64) S4000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x32.size a ≤ S100000x32.size a
  hwx1_5 : ∀ i : grid1.Coords, EltTy.bits .f32 = 32 ∨ (Rect.block (s := S100000x32) S4000x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x32.size a ≤ S100000x32.size a
  hwx1_6 : ∀ i : grid1.Coords, EltTy.bits .f32 = 32 ∨ (Rect.block (s := S100000x32) S4000x32.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x32.size a ≤ S100000x32.size a
  hwx2_0 : ∀ i : grid2.Coords, EltTy.bits .f32 = 32 ∨ (Rect.block (s := S100000x32) S4000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x32.size a ≤ S100000x32.size a
  hwx2_1 : ∀ i : grid2.Coords, EltTy.bits .f32 = 32 ∨ (Rect.block (s := S100000x32) S4000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x1.size a ≤ S100000x1.size a
  hwx2_4 : ∀ i : grid2.Coords, EltTy.bits .i32 = 32 ∨ (Rect.block (s := S100000x1) S4000x1.size (cc2_transform_4 i) (hinb2_4 i)).WholeWords (EltTy.packing .i32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x32.size a ≤ S64x32.size a
  hwx2_5 : ∀ i : grid2.Coords, EltTy.bits .f32 = 32 ∨ (Rect.block (s := S64x32) S64x32.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x2_S2x64_S4000x64_1_0_0_1_n_n : DotDims S4000x2 S2x64 S4000x64 where
  lhsContracting := [1]
  rhsContracting := [0]
  lhsNonContracting := [0]
  rhsNonContracting := [1]
  lhsBatch := []
  rhsBatch := []
  wf := dot_S4000x2_S2x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S4000x64_S4000x32_S64x32_0_0_1_1_n_n : DotDims S4000x64 S4000x32 S64x32 where
  lhsContracting := [0]
  rhsContracting := [0]
  lhsNonContracting := [1]
  rhsNonContracting := [1]
  lhsBatch := []
  rhsBatch := []
  wf := dot_S4000x64_S4000x32_S64x32_0_0_1_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S4000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14_0) S4000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_1) S4000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v24) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14_1) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25_0) S4000x32.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v25_1) S4000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v35) S4000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25_1) S4000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S4000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v37) S64x32.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S100000x2 : Shape := ⟨2, ![100000, 2]⟩
abbrev S2x64 : Shape := ⟨2, ![2, 64]⟩
abbrev S64 : Shape := ⟨1, ![64]⟩
abbrev S64x32 : Shape := ⟨2, ![64, 32]⟩
abbrev S32 : Shape := ⟨1, ![32]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S100000x64 : Shape := ⟨2, ![100000, 64]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩
abbrev S100000x1 : Shape := ⟨2, ![100000, 1]⟩
abbrev S64x1 : Shape := ⟨2, ![64, 1]⟩

abbrev nBuf : Space → Nat
  | .hbm => 142
  | .vmem => 0
  | .smem => 0
  | _ => 0

abbrev hbmTy0_0 (i : Nat) : BufTy := match i % 128 with
  | 0 => ⟨S100000x2, .f32⟩
  | 1 => ⟨S2x64, .f32⟩
  | 2 => ⟨S64, .f32⟩
  | 3 => ⟨S64x32, .f32⟩
  | 4 => ⟨S32, .f32⟩
  | 5 => ⟨S2x1600000, .i32⟩
  | 6 => ⟨S100000, .i32⟩
  | 7 => ⟨S1x1600000, .i32⟩
  | 8 => ⟨S1600000, .i32⟩
  | 9 => ⟨S1x1600000, .i32⟩
  | 10 => ⟨S1600000, .i32⟩
  | 11 => ⟨S100000x64, .f32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x64, .f32⟩
  | 57 => ⟨S1700000x1, .f32⟩
  | 58 => ⟨S1700000x64, .f32⟩
  | 59 => ⟨S1700000x64, .f32⟩
  | 60 => ⟨S_, .f32⟩
  | 61 => ⟨S100000x64, .f32⟩
  | 62 => ⟨S1700000x1, .i32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x32, .f32⟩
  | 71 => ⟨S100000, .i32⟩
  | 72 => ⟨S1700000, .i32⟩
  | 73 => ⟨S1700000, .i32⟩
  | 74 => ⟨S_, .f32⟩
  | 75 => ⟨S1700000, .f32⟩
  | 76 => ⟨S_, .f32⟩
  | 77 => ⟨S100000, .f32⟩
  | 78 => ⟨S1700000x1, .i32⟩
  | 79 => ⟨S100000, .f32⟩
  | 80 => ⟨S_, .f32⟩
  | 81 => ⟨S100000, .f32⟩
  | 82 => ⟨S100000, .i1⟩
  | 83 => ⟨S100000, .f32⟩
  | 84 => ⟨S_, .f32⟩
  | 85 => ⟨S_, .f32⟩
  | 86 => ⟨S100000, .f32⟩
  | 87 => ⟨S100000, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S1700000, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000x32, .f32⟩
  | 116 => ⟨S1700000x1, .f32⟩
  | 117 => ⟨S1700000x32, .f32⟩
  | 118 => ⟨S1700000x32, .f32⟩
  | 119 => ⟨S_, .f32⟩
  | 120 => ⟨S100000x32, .f32⟩
  | 121 => ⟨S1700000x1, .i32⟩
  | 122 => ⟨S100000x32, .f32⟩
  | 123 => ⟨S1x32, .f32⟩
  | 124 => ⟨S100000x32, .f32⟩
  | 125 => ⟨S100000x32, .f32⟩
  | 126 => ⟨S_, .f32⟩
  | 127 => ⟨S64x32, .f32⟩
  | _ => ⟨S100000x2, .f32⟩

abbrev hbmTy0_1 (i : Nat) : BufTy := match i % 128 with
  | 0 => ⟨S100000x1, .i32⟩
  | 1 => ⟨S64x32, .f32⟩
  | 2 => ⟨S_, .f32⟩
  | 3 => ⟨S100000, .f32⟩
  | 4 => ⟨S_, .f32⟩
  | 5 => ⟨S64, .f32⟩
  | 6 => ⟨S100000x1, .i32⟩
  | 7 => ⟨S64, .f32⟩
  | 8 => ⟨S_, .f32⟩
  | 9 => ⟨S64, .f32⟩
  | 10 => ⟨S64, .f32⟩
  | 11 => ⟨S64x1, .f32⟩
  | 12 => ⟨S64x32, .f32⟩
  | 13 => ⟨S64x32, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_c_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_c_18 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_19 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_20 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_21 : Ref sig .tc := ⟨.hbm, 130, rfl⟩
abbrev main_v94 : Ref sig .tc := ⟨.hbm, 131, rfl⟩
abbrev main_cst_22 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_23 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S64x32 : S_.BroadcastsInDim S64x32 (![] : Fin 0 → Fin S64x32.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  dot_S100000x2_S2x64_S100000x64_1_0_0_1_n_n_wf : DotDims.WF S100000x2 S2x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  scatter_S64x32_S100000x1_S100000x32_1_0_0_1_wf : ScatterDims.WF S64x32 S100000x1 S100000x32 [1] [0] [0] 1
  scatter_S64_S100000x1_S100000_n_0_0_1_wf : ScatterDims.WF S64 S100000x1 S100000 [] [0] [0] 1

variable [Facts₀]

def dot_S100000x2_S2x64_S100000x64_1_0_0_1_n_n : DotDims S100000x2 S2x64 S100000x64 where
  lhsContracting := [1]
  rhsContracting := [0]
  lhsNonContracting := [0]
  rhsNonContracting := [1]
  lhsBatch := []
  rhsBatch := []
  wf := dot_S100000x2_S2x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def scatter_S64x32_S100000x1_S100000x32_1_0_0_1 : ScatterDims S64x32 S100000x1 S100000x32 where
  updateWindowDims := [1]
  insertedWindowDims := [0]
  scatterDimsToOperandDims := [0]
  indexVectorDim := 1
  wf := scatter_S64x32_S100000x1_S100000x32_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.K.Reg0.lean ====
import proofs.«419793_j38981123178585_3_alg».proof.Proof.Gen.Kernel.Launch
import proofs.«419793_j38981123178585_3_alg».proof.Proof.Gen.Kernel.Skeleton
import proofs.«419793_j38981123178585_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main (the first layer's kernel), at the buffer contents `V` it is entered with

The pipeline has five windows over a grid of 25 points. Window 0 is the 4000-row block of the node features
(`main_arg0`, 100000 × 2), window 1 the whole first-layer weight (`main_arg1`, 2 × 64; its block index never moves, so it
is fetched at the first point only), window 2 the 4000-row block of the degree normalisation (`main_v11`, 100000 × 1).
Windows 3 and 4 are the two outputs (`main_v14_0`, `main_v14_1`, 100000 × 64), written back a 4000-row block at a time.

At a point the body reads the three input blocks `x₀`, `x₁`, `x₂` whole and stores, whole,
`(x₀ · x₁) ⊙ x₂` into window 3 and `((x₀ · x₁) ⊙ x₂) ⊙ x₂` into window 4 (`x₂` broadcast along the 64 columns); it also
loads each output buffer once and never uses the value. So what it leaves in an output buffer is a function of the three
input blocks alone, and the input buffers are left as found. -/

-- membership in a rectangle of 4000 rows: the elaborator's structural look recurses once per coordinate of the long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is `V`'s
    (`hA`) and whose body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's buffer holds its block at every point, FETCHED THERE OR NOT: it is fetched at the first point only,
    and where it is not fetched its block index has not moved, so the block kept from the point before is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's buffer holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S4000x2 := Rect.unit (s := S4000x2) ![0, 0] S4000x2.size inb_S4000x2_S4000x2_0_0
abbrev r0_1 : Rect S2x64 := Rect.unit (s := S2x64) ![0, 0] S2x64.size inb_S2x64_S2x64_0_0
abbrev r0_2 : Rect S4000x1 := Rect.unit (s := S4000x1) ![0, 0] S4000x1.size inb_S4000x1_S4000x1_0_0
abbrev r0_3 : Rect S4000x64 := Rect.unit (s := S4000x64) ![0, 0] S4000x64.size inb_S4000x64_S4000x64_0_0

/-! ## What the body leaves in each output window's buffer -/

/-- Window 3's staging buffer after the body, from the input windows' blocks: its one whole store, of
    `(x₀ · x₁) ⊙ x₂` (the payload `k0_pay2` of the three loads). -/
def out0_3 (x0 : Vec F S4000x2 .f32) (x1 : Vec F S2x64 .f32) (x2 : Vec F S4000x1 .f32) : Vec F S4000x64 .f32 :=
  View.canon [⟨r0_3, k0_pay2 (View.ld x0 r0_0) (View.ld x1 r0_1) (View.ld x2 r0_2)⟩]

/-- Window 4's staging buffer after the body: its one whole store, of `((x₀ · x₁) ⊙ x₂) ⊙ x₂` (`k0_pay3`). -/
def out0_4 (x0 : Vec F S4000x2 .f32) (x1 : Vec F S2x64 .f32) (x2 : Vec F S4000x1 .f32) : Vec F S4000x64 .f32 :=
  View.canon [⟨r0_3, k0_pay3 (View.ld x0 r0_0) (View.ld x1 r0_1) (View.ld x2 r0_2)⟩]

/-- One whole store tiles the buffer, so it covers it. -/
theorem cover0_3 (p0 : Vec F S4000x64 .f32) (y : S4000x64.Idx) :
    ∃ pc ∈ ([⟨r0_3, p0⟩] : List (View.Piece (Elt F) S4000x64 .f32)), y ∈ pc.1.set :=
  View.cover_of_tiled [⟨r0_3, p0⟩] S4000x64.size (by rfl) y

/-! ## The body's triple -/

set_option maxHeartbeats 1000000 in
/-- The kernel body on whole staging memrefs, the inputs' at read contents `x₀ x₁ x₂` and the outputs' at anything, runs to
    the continuation holding the inputs' as they were and the outputs' at `out0_3`, `out0_4` of the inputs'. The load of
    an output buffer before its store reads whatever is there and the value goes nowhere. -/
theorem sound_kernel0 (c : Dev nD) (E : Set ℕ) (i : grid0.Coords)
    (arg1 : Memref sig .tc .vmem S4000x2 .f32) (harg1 : arg1.IsWhole) (arg2 : Memref sig .tc .vmem S2x64 .f32) (harg2 : arg2.IsWhole)
    (arg3 : Memref sig .tc .vmem S4000x1 .f32) (harg3 : arg3.IsWhole) (arg4 : Memref sig .tc .vmem S4000x64 .f32) (harg4 : arg4.IsWhole)
    (arg5 : Memref sig .tc .vmem S4000x64 .f32) (harg5 : arg5.IsWhole)
    (x0 : Vec F S4000x2 .f32) (x1 : Vec F S2x64 .f32) (x2 : Vec F S4000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__layer1_kernel i arg1 harg1 arg2 harg2 arg3 harg3 arg4 harg4 arg5 harg5) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_3 _)

/-! ## The pipeline's proof data -/

/-- The proof data of pipeline 0 on core `c`: the arrays as the region finds them (`V`); after the body at point `t` each
    input's buffer at its block and each output's at `out0_3`, `out0_4` of the three input blocks; the invariant the
    plain class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The proof data records every name at every point. -/
theorem rec0 (c : Dev nD) (t : Fin (cfg0.N + 1)) : (dat0 V c).recorded t = Set.univ := rfl

end Cert.Kernel.Fr

end
-- ==== Proof.K.Reg1.lean ====
/- Region 1 of @main (the second layer, `cc1__layer2_fused_kernel`, grid 25) at a parameter `V`: the TensorCore's
   buffer contents when the region is entered. Seven windows: 0 the aggregated features' block [4000,64], 1 the self
   features' block [4000,64], 2 the degree scale's block [4000,1], 3 the bias [1,64] whole, 4 the second weight
   [64,32] whole, 5 and 6 the two outputs' blocks [4000,32]. Each window's block at a point (`iblk1`), what the body
   leaves in each output's buffer from the input blocks (`out1_5`, `out1_6`: one whole store each), the body's triple
   (`sound_kernel1`), the pipeline's proof data (`dat1`) and the body obligation (`body_obligation1`). -/
import proofs.«419793_j38981123178585_3_alg».proof.Proof.Gen.Kernel.Launch
import proofs.«419793_j38981123178585_3_alg».proof.Proof.Gen.Kernel.Skeleton
import proofs.«419793_j38981123178585_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
-- of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 1 of @main: custom_call 1, `cc1__layer2_fused_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): unfetched, the block
    index has not moved since the point before, so the block found is still this point's; the window is uncut and
    never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof
    data whose array is `V`'s (`hA`) and whose body leaves the block in place (`hafter`): unfetched, the block
    index has not moved since the point before, so the block found is still this point's; the window is uncut and
    never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof
    data whose array is `V`'s (`hA`) and whose body leaves the block in place (`hafter`): unfetched, the block
    index has not moved since the point before, so the block found is still this point's; the window is uncut and
    never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for ANY proof
    data whose array is `V`'s (`hA`) and whose body leaves the block in place (`hafter`): unfetched, the block
    index has not moved since the point before, so the block found is still this point's; the window is uncut and
    never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for ANY proof
    data whose array is `V`'s (`hA`) and whose body leaves the block in place (`hafter`): unfetched, the block
    index has not moved since the point before, so the block found is still this point's; the window is uncut and
    never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S4000x1 := Rect.unit (s := S4000x1) ![0, 0] S4000x1.size inb_S4000x1_S4000x1_0_0
abbrev r1_1 : Rect S4000x64 := Rect.unit (s := S4000x64) ![0, 0] S4000x64.size inb_S4000x64_S4000x64_0_0
abbrev r1_2 : Rect S1x64 := Rect.unit (s := S1x64) ![0, 0] S1x64.size inb_S1x64_S1x64_0_0
abbrev r1_3 : Rect S64x32 := Rect.unit (s := S64x32) ![0, 0] S64x32.size inb_S64x32_S64x32_0_0
abbrev r1_4 : Rect S4000x32 := Rect.unit (s := S4000x32) ![0, 0] S4000x32.size inb_S4000x32_S4000x32_0_0

/-! ## What the body leaves in each output window's buffer -/

/-- Window 5's staging buffer after the body, from the input windows' blocks `x0 … x4` (window order): its one whole
    store. The payload reads the degree scale (window 2) first, then the aggregated and the self features (windows
    0, 1), the bias (window 3) and the weight (window 4). -/
def out1_5 (x0 : Vec F S4000x64 .f32) (x1 : Vec F S4000x64 .f32) (x2 : Vec F S4000x1 .f32) (x3 : Vec F S1x64 .f32) (x4 : Vec F S64x32 .f32) : Vec F S4000x32 .f32 :=
  View.canon [⟨r1_4, k1_pay2 (View.ld x2 r1_0) (View.ld x0 r1_1) (View.ld x1 r1_1) (View.ld x3 r1_2) (View.ld x4 r1_3)⟩]

/-- Window 6's staging buffer after the body: its one whole store, of the same reads. -/
def out1_6 (x0 : Vec F S4000x64 .f32) (x1 : Vec F S4000x64 .f32) (x2 : Vec F S4000x1 .f32) (x3 : Vec F S1x64 .f32) (x4 : Vec F S64x32 .f32) : Vec F S4000x32 .f32 :=
  View.canon [⟨r1_4, k1_pay3 (View.ld x2 r1_0) (View.ld x0 r1_1) (View.ld x1 r1_1) (View.ld x3 r1_2) (View.ld x4 r1_3)⟩]

/-- A whole store tiles the buffer (checked by evaluation), so it covers it. -/
theorem cover1_o (p0 : Vec F S4000x32 .f32) (y : S4000x32.Idx) :
    ∃ pc ∈ ([⟨r1_4, p0⟩] : List (View.Piece (Elt F) S4000x32 .f32)), y ∈ pc.1.set :=
  View.cover_of_tiled [⟨r1_4, p0⟩] S4000x32.size (by rfl) y

/-! ## The body's triple -/

set_option maxHeartbeats 1000000 in
/-- The kernel body on whole staging memrefs, the inputs' at read contents `xW` and the outputs' at anything, runs to
    the continuation holding the inputs' as they were and each output's at `out1_W` of the inputs': the printed
    function is its skeleton, whose loads read the inputs whole and whose two stores overwrite the outputs whole
    (each output is read once before its store; the value read is not used). -/
theorem sound_kernel1 (c : Dev nD) (E : Set ℕ) (i : grid1.Coords) (arg1 : Memref sig .tc .vmem S4000x64 .f32) (harg1 : arg1.IsWhole) (arg2 : Memref sig .tc .vmem S4000x64 .f32) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S4000x32 .f32) (harg6 : arg6.IsWhole) (arg7 : Memref sig .tc .vmem S4000x32 .f32) (harg7 : arg7.IsWhole)
    (x0 : Vec F S4000x64 .f32) (x1 : Vec F S4000x64 .f32) (x2 : Vec F S4000x1 .f32) (x3 : Vec F S1x64 .f32) (x4 : Vec F S64x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4) ∗ owns (c : Thread nD τ) arg7 fullShare (out1_6 x0 x1 x2 x3 x4)) -∗ K ⟨⟩))
      ⊢ wp frame (wpE (defs₀ (F := F)) Variants.none c none) E (cc1__layer2_fused_kernel i arg1 harg1 arg2 harg2 arg3 harg3 arg4 harg4 arg5 harg5 arg6 harg6 arg7 harg7) K := by
  simp only [cc1__layer2_fused_kernel_eq_skeleton]; unfold cc1__layer2_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_o _)
  iexists _; isplitr
  swap; · iexact H6
  ipureintro
  exact View.read_writes_eq_canon _ _ _ (cover1_o _)

/-! ## The pipeline's proof data -/

/-- The proof data of pipeline 1 on core `c`: the arrays as the region finds them (`V`); after the body at
    point `t` each input's buffer at its block and each output's at `out1_W` of the input blocks; the invariant the
    class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents (the proof data's definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The proof data records every name at every point. -/
theorem rec1 (c : Dev nD) (t : Fin (cfg1.N + 1)) : (dat1 V c).recorded t = Set.univ := rfl

end Cert.Kernel.Fr

end
-- ==== Proof.K.Reg2.lean ====
/- Region 2 of @main (the pooling kernel, `cc2__pool_fused_kernel`, grid 25) at a parameter `V`: the TensorCore's
   buffer contents when the region is entered. Six windows: 0 the aggregated features' block [4000,32], 1 the self
   features' block [4000,32], 2 the degree scale's block [4000,1], 3 the bias [1,32] whole (fetched at the first point
   only), 4 the graph ids' block [4000,1] of i32, 5 the output [64,32], one block, stored into and written back at the
   last point only and idle at every other. Beside the windows the kernel takes a scratch [64,32], a scoped buffer of
   its own that it carries from point to point: reset to zeros at the first point, then at every point overwritten
   whole with the accumulation of the point's blocks onto what it held, and at the last point copied whole into the
   output. Each window's block at a point (`iblk2`), what one point's accumulation leaves in the scratch (`pool2`), the
   body's triple in each of its three control cases (`sound_kernel2_first` / `_mid` / `_last`), the scratch after each
   point by recursion (`acc2`), the region invariant that tracks it (`Phi2`), the pipeline's proof data (`dat2`) and the
   body obligation (`body_obligation2`). -/
import proofs.«419793_j38981123178585_3_alg».proof.Proof.Gen.Kernel.Launch
import proofs.«419793_j38981123178585_3_alg».proof.Proof.Gen.Kernel.Skeleton
import proofs.«419793_j38981123178585_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 2 of @main: custom_call 2, `cc2__pool_fused_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s (`hA`) and whose body leaves the block in place (`hafter`): unfetched, the block index has
    not moved since the point before, so the block found is still this point's; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s (`hA`) and whose body leaves the block in place (`hafter`): unfetched, the block index has
    not moved since the point before, so the block found is still this point's; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is `V`'s (`hA`) and whose body leaves the block in place (`hafter`): unfetched, the block index has
    not moved since the point before, so the block found is still this point's; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is `V`'s (`hA`) and whose body leaves the block in place (`hafter`): unfetched, the block index has
    not moved since the point before, so the block found is still this point's; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is `V`'s (`hA`) and whose body leaves the block in place (`hafter`): unfetched, the block index has
    not moved since the point before, so the block found is still this point's; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_a : Rect S4000x1 := Rect.unit (s := S4000x1) ![0, 0] S4000x1.size inb_S4000x1_S4000x1_0_0
abbrev r2_b : Rect S4000x32 := Rect.unit (s := S4000x32) ![0, 0] S4000x32.size inb_S4000x32_S4000x32_0_0
abbrev r2_c : Rect S1x32 := Rect.unit (s := S1x32) ![0, 0] S1x32.size inb_S1x32_S1x32_0_0
abbrev r2_o : Rect S64x32 := Rect.unit (s := S64x32) ![0, 0] S64x32.size inb_S64x32_S64x32_0_0

/-- Every access of the body is through a whole-shape rectangle at offsets zero. -/
theorem hz2 : (![0, 0] : Fin 2 → Nat) = fun _ => 0 := funext fun a => by fin_cases a <;> rfl

/-- The scratch operand: a whole scoped buffer of the kernel's own, passed beside the windows. -/
abbrev scM2 : Memref sig .tc .vmem S64x32 .f32 := Memref.whole cc2_scratch0

/-! ## What one point leaves in the scratch -/

/-- What one point's accumulation leaves in the scratch, from the five input blocks `x0 … x4` (window order) and what
    the scratch held when the accumulation read it: the payload of the body's one whole store into it, of its whole
    loads. The payload reads the degree scale (window 2) first, then the aggregated and the self features (windows 0,
    1), the bias (window 3), the graph ids (window 4) and the scratch. -/
def pool2 (x0 : Vec F S4000x32 .f32) (x1 : Vec F S4000x32 .f32) (x2 : Vec F S4000x1 .f32) (x3 : Vec F S1x32 .f32) (x4 : Vec F S4000x1 .i32) (acc : Vec F S64x32 .f32) : Vec F S64x32 .f32 :=
  k2_pay2 x2 x0 x1 x3 x4 acc

/-- What the first point resets the scratch to before it accumulates: the payload of its whole store of zeros. -/
def zero2 : Vec F S64x32 .f32 := k2_pay1 (F := F)

/-- A whole store tiles the buffer (checked by evaluation), so it covers it. -/
theorem cover2_o (p0 : Vec F S64x32 .f32) (y : S64x32.Idx) :
    ∃ pc ∈ ([⟨r2_o, p0⟩] : List (View.Piece (Elt F) S64x32 .f32)), y ∈ pc.1.set :=
  View.cover_of_tiled [⟨r2_o, p0⟩] S64x32.size (by rfl) y

/-- Two whole stores cover it too (the later one already does). -/
theorem cover2_oo (p0 p1 : Vec F S64x32 .f32) (y : S64x32.Idx) :
    ∃ pc ∈ ([⟨r2_o, p0⟩, ⟨r2_o, p1⟩] : List (View.Piece (Elt F) S64x32 .f32)), y ∈ pc.1.set :=
  ⟨⟨r2_o, p0⟩, List.mem_cons_self, View.mem_set_unit_zero hz2 inb_S64x32_S64x32_0_0 y⟩

/-! ## The body's two branch conditions, in closed form over the grid -/

/-- The condition of the body's first `scf.if` (the reset), from the grid coordinate (the skeleton's scalar chain
    substituted). -/
abbrev cond2_0 (i : grid2.Coords) : Prop := (Scalar.cmpi .ne (Scalar.extui (Scalar.cmpi .eq (BitVec.ofNat 32 (i 0).val) 0#32)) 0#32) = 1#1
/-- It holds at the first point only: decided over the grid. -/
theorem hcond2_0 : ∀ t : Fin cfg2.N, cond2_0 (grid2.coords t) ↔ t.val = 0 :=
  (by decide +kernel : ∀ t : Fin grid2.N, cond2_0 (grid2.coords t) ↔ t.val = 0)
/-- The condition of the body's second `scf.if` (the output's store). -/
abbrev cond2_1 (i : grid2.Coords) : Prop := k2_cond2 i = 1#1
/-- It holds at the last point only: decided over the grid. -/
theorem hcond2_1 : ∀ t : Fin cfg2.N, cond2_1 (grid2.coords t) ↔ t.val = 24 :=
  (by decide +kernel : ∀ t : Fin grid2.N, cond2_1 (grid2.coords t) ↔ t.val = 24)

/-! ## The body's triple, one per control case -/

set_option maxHeartbeats 1000000 in
/-- THE FIRST POINT (reset taken, output's store not): on whole memrefs, the inputs' at read contents `xW`, the output's
    at `xi` and the scratch at anything, the body runs to the continuation holding the inputs' and the output's as they
    were and the scratch at the accumulation over the reset value: the reset's whole store covers the scratch, the
    accumulation's load reads it back, and its whole store covers the scratch again. -/
theorem sound_kernel2_first (c : Dev nD) (E : Set ℕ) (i : grid2.Coords) (hc0 : cond2_0 i) (hc1 : ¬cond2_1 i) (arg1 : Memref sig .tc .vmem S4000x32 .f32) (harg1 : arg1.IsWhole) (arg2 : Memref sig .tc .vmem S4000x32 .f32) (harg2 : arg2.IsWhole) (arg3 : Memref sig .tc .vmem S4000x1 .f32) (harg3 : arg3.IsWhole) (arg4 : Memref sig .tc .vmem S1x32 .f32) (harg4 : arg4.IsWhole) (arg5 : Memref sig .tc .vmem S4000x1 .i32) (harg5 : arg5.IsWhole) (arg6 : Memref sig .tc .vmem S64x32 .f32) (harg6 : arg6.IsWhole) (arg7 : Memref sig .tc .vmem S64x32 .f32) (harg7 : arg7.IsWhole)
    (x0 : Vec F S4000x32 .f32) (x1 : Vec F S4000x32 .f32) (x2 : Vec F S4000x1 .f32) (x3 : Vec F S1x32 .f32) (x4 : Vec F S4000x1 .i32) (xi : Vec F S64x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare xi ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare xi ∗ owns (c : Thread nD τ) arg7 fullShare (pool2 x0 x1 x2 x3 x4 zero2)) -∗ K ⟨⟩))
      ⊢ wp frame (wpE (defs₀ (F := F)) Variants.none c none) E (cc2__pool_fused_kernel i arg1 harg1 arg2 harg2 arg3 harg3 arg4 harg4 arg5 harg5 arg6 harg6 arg7 harg7) K := by
  simp only [cc2__pool_fused_kernel_eq_skeleton]; unfold cc2__pool_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  subst hf0 hf1 hf2 hf3 hf4 hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HS
  ipureintro
  sl_unfold_words
  rw [View.read_writes_eq_canon _ _ _ (cover2_oo _ _), View.canon_cons_unit_zero hz2]
  simp only [View.readAt_eq_ld, View.ld_unit_zero (S := S4000x1) hz2, View.ld_unit_zero (S := S4000x32) hz2, View.ld_unit_zero (S := S1x32) hz2, View.readCov_unit_zero (S := S64x32) _ hz2]
  rfl

set_option maxHeartbeats 1000000 in
/-- A MIDDLE POINT (neither branch taken): the inputs' and the output's memrefs are handed back as they were and the
    scratch, found at `xs`, is left at the accumulation over `xs`. -/
theorem sound_kernel2_mid (c : Dev nD) (E : Set ℕ) (i : grid2.Coords) (hc0 : ¬cond2_0 i) (hc1 : ¬cond2_1 i) (arg1 : Memref sig .tc .vmem S4000x32 .f32) (harg1 : arg1.IsWhole) (arg2 : Memref sig .tc .vmem S4000x32 .f32) (harg2 : arg2.IsWhole) (arg3 : Memref sig .tc .vmem S4000x1 .f32) (harg3 : arg3.IsWhole) (arg4 : Memref sig .tc .vmem S1x32 .f32) (harg4 : arg4.IsWhole) (arg5 : Memref sig .tc .vmem S4000x1 .i32) (harg5 : arg5.IsWhole) (arg6 : Memref sig .tc .vmem S64x32 .f32) (harg6 : arg6.IsWhole) (arg7 : Memref sig .tc .vmem S64x32 .f32) (harg7 : arg7.IsWhole)
    (x0 : Vec F S4000x32 .f32) (x1 : Vec F S4000x32 .f32) (x2 : Vec F S4000x1 .f32) (x3 : Vec F S1x32 .f32) (x4 : Vec F S4000x1 .i32) (xi : Vec F S64x32 .f32) (xs : Vec F S64x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare xi ∗ owns (c : Thread nD τ) arg7 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare xi ∗ owns (c : Thread nD τ) arg7 fullShare (pool2 x0 x1 x2 x3 x4 xs)) -∗ K ⟨⟩))
      ⊢ wp frame (wpE (defs₀ (F := F)) Variants.none c none) E (cc2__pool_fused_kernel i arg1 harg1 arg2 harg2 arg3 harg3 arg4 harg4 arg5 harg5 arg6 harg6 arg7 harg7) K := by
  simp only [cc2__pool_fused_kernel_eq_skeleton]; unfold cc2__pool_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  subst hf0 hf1 hf2 hf3 hf4 hf5 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HS
  ipureintro
  rw [View.read_writes_eq_canon _ _ _ (cover2_o _), View.canon_unit_zero hz2]
  simp only [View.readAt_eq_ld, View.ld_unit_zero (S := S4000x1) hz2, View.ld_unit_zero (S := S4000x32) hz2, View.ld_unit_zero (S := S1x32) hz2, View.ld_unit_zero (S := S64x32) hz2]
  rfl

set_option maxHeartbeats 1000000 in
/-- THE LAST POINT (reset not taken, output's store taken): the scratch, found at `xs`, is left at the accumulation over
    `xs`, and the output's memref, at anything before, holds the same: the body loads the scratch back whole and
    stores that whole into the output. -/
theorem sound_kernel2_last (c : Dev nD) (E : Set ℕ) (i : grid2.Coords) (hc0 : ¬cond2_0 i) (hc1 : cond2_1 i) (arg1 : Memref sig .tc .vmem S4000x32 .f32) (harg1 : arg1.IsWhole) (arg2 : Memref sig .tc .vmem S4000x32 .f32) (harg2 : arg2.IsWhole) (arg3 : Memref sig .tc .vmem S4000x1 .f32) (harg3 : arg3.IsWhole) (arg4 : Memref sig .tc .vmem S1x32 .f32) (harg4 : arg4.IsWhole) (arg5 : Memref sig .tc .vmem S4000x1 .i32) (harg5 : arg5.IsWhole) (arg6 : Memref sig .tc .vmem S64x32 .f32) (harg6 : arg6.IsWhole) (arg7 : Memref sig .tc .vmem S64x32 .f32) (harg7 : arg7.IsWhole)
    (x0 : Vec F S4000x32 .f32) (x1 : Vec F S4000x32 .f32) (x2 : Vec F S4000x1 .f32) (x3 : Vec F S1x32 .f32) (x4 : Vec F S4000x1 .i32) (xs : Vec F S64x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (pool2 x0 x1 x2 x3 x4 xs) ∗ owns (c : Thread nD τ) arg7 fullShare (pool2 x0 x1 x2 x3 x4 xs)) -∗ K ⟨⟩))
      ⊢ wp frame (wpE (defs₀ (F := F)) Variants.none c none) E (cc2__pool_fused_kernel i arg1 harg1 arg2 harg2 arg3 harg3 arg4 harg4 arg5 harg5 arg6 harg6 arg7 harg7) K := by
  simp only [cc2__pool_fused_kernel_eq_skeleton]; unfold cc2__pool_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  subst hf0 hf1 hf2 hf3 hf4 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [View.read_writes_eq_canon _ _ _ (cover2_o _), View.canon_unit_zero hz2, View.readCov_unit_zero (S := S64x32) _ hz2]
    simp only [View.readAt_eq_ld, View.ld_unit_zero (S := S4000x1) hz2, View.ld_unit_zero (S := S4000x32) hz2, View.ld_unit_zero (S := S1x32) hz2, View.ld_unit_zero (S := S64x32) hz2]
    rfl
  iexists _; isplitr
  swap; · iexact HS
  ipureintro
  sl_unfold_words
  rw [View.read_writes_eq_canon _ _ _ (cover2_o _), View.canon_unit_zero hz2]
  simp only [View.readAt_eq_ld, View.ld_unit_zero (S := S4000x1) hz2, View.ld_unit_zero (S := S4000x32) hz2, View.ld_unit_zero (S := S1x32) hz2, View.ld_unit_zero (S := S64x32) hz2]
  rfl

/-! ## Where the output window is idle (the printed configuration's table) -/

/-- At every point but the last the printed configuration calls the output window idle: the body stores nothing into it. -/
theorem idleAt2_5 : ∀ t : Fin cfg2.N, ¬cond2_1 (grid2.coords t) → cfg2.idle 5 (grid2.coords t) = true := by decide +kernel
/-- At those points the pipeline does not write the output's block back. -/
theorem noFlush2_5 : ∀ t : Fin cfg2.N, ¬cond2_1 (grid2.coords t) → (cfg2.win 5).flush t = false := by decide +kernel
/-- At the last point the window is live: the body stores into it. -/
theorem liveAt2_5 : ∀ t : Fin cfg2.N, cond2_1 (grid2.coords t) → cfg2.idle 5 (grid2.coords t) = false := by decide +kernel

/-! ## The scratch after each point -/

/-- THE ACCUMULATION. The scratch after point `n`: at point 0 the accumulation over the reset value, afterwards over
    what the point before left (the scratch is the kernel's own: nothing touches it between two points). -/
def acc2 (c : Dev nD) : (n : ℕ) → n < cfg2.N → Vec F S64x32 .f32
  | 0, h => pool2 (iblk2 V c 0 ⟨0, h⟩) (iblk2 V c 1 ⟨0, h⟩) (iblk2 V c 2 ⟨0, h⟩) (iblk2 V c 3 ⟨0, h⟩) (iblk2 V c 4 ⟨0, h⟩) zero2
  | n + 1, h => pool2 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (acc2 c n (Nat.lt_of_succ_lt h))

theorem acc2_zero (c : Dev nD) (h : 0 < cfg2.N) :
    acc2 V c 0 h = pool2 (iblk2 V c 0 ⟨0, h⟩) (iblk2 V c 1 ⟨0, h⟩) (iblk2 V c 2 ⟨0, h⟩) (iblk2 V c 3 ⟨0, h⟩) (iblk2 V c 4 ⟨0, h⟩) zero2 := rfl

theorem acc2_succ (c : Dev nD) (n : ℕ) (h : n + 1 < cfg2.N) :
    acc2 V c (n + 1) h = pool2 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (acc2 V c n (Nat.lt_of_succ_lt h)) := rfl

/-- `acc2` at the first point, stated at the point. -/
theorem acc2_first (c : Dev nD) (t : Fin cfg2.N) (h0 : t.val = 0) :
    acc2 V c t.val t.isLt = pool2 (iblk2 V c 0 t) (iblk2 V c 1 t) (iblk2 V c 2 t) (iblk2 V c 3 t) (iblk2 V c 4 t) zero2 := by
  obtain ⟨n, hn⟩ := t
  cases n with
  | zero => rfl
  | succ n => exact absurd h0 (Nat.succ_ne_zero n)

/-- `acc2` at a later point, stated at the point: over what the point before left. -/
theorem acc2_later (c : Dev nD) (t : Fin cfg2.N) (h0 : t.val ≠ 0) :
    acc2 V c t.val t.isLt = pool2 (iblk2 V c 0 t) (iblk2 V c 1 t) (iblk2 V c 2 t) (iblk2 V c 3 t) (iblk2 V c 4 t) (acc2 V c (t.val - 1) (Nat.lt_of_le_of_lt (Nat.sub_le _ _) t.isLt)) := by
  obtain ⟨n, hn⟩ := t
  cases n with
  | zero => exact absurd rfl h0
  | succ n => rfl

/-! ## The region invariant: the scratch tracked -/

/-- A scoped buffer of the core, whole at some contents. -/
abbrev anyBuf2 (c : Dev nD) (b : Ref sig .tc) : sProp 𝕄 :=
  iprop(∃ f : Buf (Elt F) ((c : Thread nD τ).loc b), ((c : Thread nD τ).loc b) ↦{fullShare} f)

/-- What the class's invariant holds beside the scratch: the other regions' staging buffers, each at some contents,
    and the generator register at some state. The body neither reads nor describes them. -/
def rest2 (c : Dev nD) : sProp 𝕄 :=
  iprop(anyBuf2 c cc0_stg0_0 ∗ anyBuf2 c cc0_stg0_1 ∗ anyBuf2 c cc0_stg1_0 ∗ anyBuf2 c cc0_stg2_0 ∗ anyBuf2 c cc0_stg2_1 ∗ anyBuf2 c cc0_stg3_0 ∗ anyBuf2 c cc0_stg3_1 ∗ anyBuf2 c cc0_stg4_0 ∗ anyBuf2 c cc0_stg4_1 ∗ anyBuf2 c cc1_stg0_0 ∗ anyBuf2 c cc1_stg0_1 ∗ anyBuf2 c cc1_stg1_0 ∗ anyBuf2 c cc1_stg1_1 ∗ anyBuf2 c cc1_stg2_0 ∗ anyBuf2 c cc1_stg2_1 ∗ anyBuf2 c cc1_stg3_0 ∗ anyBuf2 c cc1_stg4_0 ∗ anyBuf2 c cc1_stg5_0 ∗ anyBuf2 c cc1_stg5_1 ∗ anyBuf2 c cc1_stg6_0 ∗ anyBuf2 c cc1_stg6_1 ∗ (∃ r, prngReg c r))

/-- The class's invariant hands out the scratch at some contents beside the rest, -/
theorem PhiA2_open (c : Dev nD) :
    (Pipeline.ΦA spec2 c : sProp 𝕄) ⊢ iprop(rest2 (F := F) c ∗ (∃ d, owns (c : Thread nD τ) scM2 fullShare d)) := by
  unfold Pipeline.ΦA rest2; rw [scopedRest2_eq]; simp only [scM2, owns_whole]
  iintro ⟨⟨H1, H2, H3, H4, H5, H6, H7, H8, H9, H10, H11, H12, H13, H14, H15, H16, H17, H18, H19, H20, H21, HS⟩, Hg⟩
  isplitr [HS]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact Hg
  · iexact HS

/-- and takes it back at any contents. -/
theorem PhiA2_close (c : Dev nD) :
    iprop(rest2 (F := F) c ∗ (∃ d, owns (c : Thread nD τ) scM2 fullShare d)) ⊢ (Pipeline.ΦA spec2 c : sProp 𝕄) := by
  unfold Pipeline.ΦA rest2; rw [scopedRest2_eq]; simp only [scM2, owns_whole]
  iintro ⟨⟨H1, H2, H3, H4, H5, H6, H7, H8, H9, H10, H11, H12, H13, H14, H15, H16, H17, H18, H19, H20, H21, Hg⟩, HS⟩
  isplitr [Hg]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact HS
  · iexact Hg

/-- The region invariant before position `n`: before the first point the class's (the scratch at anything);
    afterwards the rest beside the scratch at what the point before left in it. -/
def Phi2 (c : Dev nD) : (n : ℕ) → n ≤ cfg2.N → sProp 𝕄
  | 0, _ => Pipeline.ΦA spec2 c
  | n + 1, hn => iprop(rest2 c ∗ owns (c : Thread nD τ) scM2 fullShare (acc2 V c n hn))

theorem Phi2_zero (c : Dev nD) (n : ℕ) (h : n ≤ cfg2.N) (hz : n = 0) : Phi2 V c n h = Pipeline.ΦA spec2 c := by
  subst hz; rfl

/-- After point `n` (before point `n + 1`): the scratch at that point's contents. -/
theorem Phi2_succ (c : Dev nD) (n : ℕ) (hn : n < cfg2.N) :
    Phi2 V c (n + 1) hn = iprop(rest2 c ∗ owns (c : Thread nD τ) scM2 fullShare (acc2 V c n hn)) := rfl

/-- Before a point that is not the first: the scratch at what the point before left. -/
theorem Phi2_pos (c : Dev nD) (n : ℕ) (h : n ≤ cfg2.N) (hz : n ≠ 0) :
    Phi2 V c n h = iprop(rest2 c ∗ owns (c : Thread nD τ) scM2 fullShare (acc2 V c (n - 1) (by omega))) := by
  cases n with
  | zero => exact absurd rfl hz
  | succ n => rfl

/-! ## The pipeline's proof data -/

/-- The proof data of pipeline 2 on core `c`: the arrays as the region finds them (`V`); after the body at point `t`
    each input's buffer at its block and the output's at the scratch's contents after `t` (consulted only at the last
    point, the one that stores into the output and writes it back); the invariant the scratch-tracking one; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => acc2 V c t.val t.isLt
  Φ t := Phi2 V c t.val (Nat.le_of_lt_succ t.isLt)
  q _ := fullShare
  owed _ := 0

/-- The proof data's arrays are the region-entry contents (the proof data's definition projected). -/
theorem A_eq2 (c : Dev nD) (w : Fin cfg2.W) : (dat2 V c).A w = V c (Pipeline.arrRef spec2 w) := by
  dsimp only [dat2]

/-- Full shares; nothing owed. -/
theorem q2 (c : Dev nD) (w : Fin cfg2.W) : (dat2 V c).q w = fullShare := by dsimp only [dat2]
theorem owed2 (c : Dev nD) (t) (g) : (dat2 V c).owed t g = 0 := by dsimp only [dat2]; rfl
/-- The bound on the recorded pairs is the structure's default: everything. -/
theorem rec2 (c : Dev nD) (t : Fin (cfg2.N + 1)) : (dat2 V c).recorded t = Set.univ := rfl

/-- The invariant at a point's start, restated at `t.val`. -/
theorem Phi2_castSucc (c : Dev nD) (t : Fin cfg2.N) :
    (dat2 V c).Φ t.castSucc = Phi2 V c t.val (Nat.le_of_lt t.isLt) := by
  dsimp only [dat2]; simp only [Fin.coe_castSucc]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = acc2 V c t.val t.isLt := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns: each input's buffer at what the body leaves, the output's at what it found where the window is
    idle and at what the body leaves where it is live (`Dat.leavesExact`). -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

/-- An input window is never idle: what the body leaves in its buffer is stated outright. -/
theorem leaves2_in (c : Dev nD) (t : Fin cfg2.N) :
    (dat2 V c).leavesExact 0 t = owns (c : Thread nD τ) (st2_0 t) fullShare (iblk2 V c 0 t)
    ∧ (dat2 V c).leavesExact 1 t = owns (c : Thread nD τ) (st2_1 t) fullShare (iblk2 V c 1 t)
    ∧ (dat2 V c).leavesExact 2 t = owns (c : Thread nD τ) (st2_2 t) fullShare (iblk2 V c 2 t)
    ∧ (dat2 V c).leavesExact 3 t = owns (c : Thread nD τ) (st2_3 t) fullShare (iblk2 V c 3 t)
    ∧ (dat2 V c).leavesExact 4 t = owns (c : Thread nD τ) (st2_4 t) fullShare (iblk2 V c 4 t) := by
  refine ⟨?_, ?_, ?_, ?_, ?_⟩
  · rw [← after2_0]
  · rw [← after2_1]
  · rw [← after2_2]
  · rw [← after2_3]
  · rw [← after2_4]

set_option maxHeartbeats 1600000 in
/-- The body at any point: the inputs' memrefs hold their blocks (`before2_W`); the closed forms say which case the point
    is in; the invariant hands the body the scratch at what the point before left (at anything at the first point) and
    takes it back at this point's contents; where the output window is idle its buffer goes back as found, at the last
    point it holds the scratch's final contents; the rest of the invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = Phi2 V c (t.val + 1) t.isLt from rfl, Phi2_succ]
  obtain ⟨l0, l1, l2, l3, l4⟩ := leaves2_in V c t
  rw [l0, l1, l2, l3, l4, Phi2_castSucc]
  have hN : t.val < 25 := lt_of_lt_of_eq t.isLt (show cfg2.N = 25 from N_2)
  by_cases h0 : t.val = 0
  · -- the first point
    have hc0 : cond2_0 (grid2.coords t) := (hcond2_0 t).mpr h0
    have hc1 : ¬cond2_1 (grid2.coords t) := fun h => by have := (hcond2_1 t).mp h; omega
    rw [Dat.leavesExact_idle (dat2 V c) 5 t (idleAt2_5 t hc1) (noFlush2_5 t hc1), acc2_first V c t h0, Phi2_zero V c _ _ h0]
    iintro ⟨HP, Ho, ⟨%d0, H0⟩, ⟨%d1, H1⟩, ⟨%d2, H2⟩, ⟨%d3, H3⟩, ⟨%d4, H4⟩, ⟨%d5, H5⟩⟩
    ihave ⟨HR, HS⟩ := (PhiA2_open (F := F) c) $$ HP
    iapply (sound_kernel2_first c Set.univ (grid2.coords t) hc0 hc1 _ _ _ _ _ _ _ _ _ _ _ _ _ _ (iblk2 V c 0 t) (iblk2 V c 1 t) (iblk2 V c 2 t) (iblk2 V c 3 t) (iblk2 V c 4 t) ((dat2 V c).before 5 t d5) _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HR HS]
    · isplitl [HR]; · iexact HR
      iexact HS
    isplitl [Ho]; · iexact Ho
    isplitl [H0]; · iexact H0
    isplitl [H1]; · iexact H1
    isplitl [H2]; · iexact H2
    isplitl [H3]; · iexact H3
    isplitl [H4]; · iexact H4
    iexists d5; iexact H5
  · by_cases h1 : t.val = 24
    · -- the last point
      have hc0 : ¬cond2_0 (grid2.coords t) := fun h => h0 ((hcond2_0 t).mp h)
      have hc1 : cond2_1 (grid2.coords t) := (hcond2_1 t).mpr h1
      rw [show (dat2 V c).leavesExact 5 t = owns (c : Thread nD τ) (st2_5 t) fullShare ((dat2 V c).after 5 t) from by
        unfold Dat.leavesExact; rw [liveAt2_5 t hc1], after2_5, acc2_later V c t h0, Phi2_pos V c _ _ h0]
      iintro ⟨⟨HR, HS⟩, Ho, ⟨%d0, H0⟩, ⟨%d1, H1⟩, ⟨%d2, H2⟩, ⟨%d3, H3⟩, ⟨%d4, H4⟩, ⟨%d5, H5⟩⟩
      iapply (sound_kernel2_last c Set.univ (grid2.coords t) hc0 hc1 _ _ _ _ _ _ _ _ _ _ _ _ _ _ (iblk2 V c 0 t) (iblk2 V c 1 t) (iblk2 V c 2 t) (iblk2 V c 3 t) (iblk2 V c 4 t) (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HR HS]
      · isplitl [HR]; · iexact HR
        iexact HS
      isplitl [Ho]; · iexact Ho
      isplitl [H0]; · iexact H0
      isplitl [H1]; · iexact H1
      isplitl [H2]; · iexact H2
      isplitl [H3]; · iexact H3
      isplitl [H4]; · iexact H4
      iexact H5
    · -- a middle point
      have hc0 : ¬cond2_0 (grid2.coords t) := fun h => h0 ((hcond2_0 t).mp h)
      have hc1 : ¬cond2_1 (grid2.coords t) := fun h => h1 ((hcond2_1 t).mp h)
      rw [Dat.leavesExact_idle (dat2 V c) 5 t (idleAt2_5 t hc1) (noFlush2_5 t hc1), acc2_later V c t h0, Phi2_pos V c _ _ h0]
      iintro ⟨⟨HR, HS⟩, Ho, ⟨%d0, H0⟩, ⟨%d1, H1⟩, ⟨%d2, H2⟩, ⟨%d3, H3⟩, ⟨%d4, H4⟩, ⟨%d5, H5⟩⟩
      iapply (sound_kernel2_mid c Set.univ (grid2.coords t) hc0 hc1 _ _ _ _ _ _ _ _ _ _ _ _ _ _ (iblk2 V c 0 t) (iblk2 V c 1 t) (iblk2 V c 2 t) (iblk2 V c 3 t) (iblk2 V c 4 t) ((dat2 V c).before 5 t d5) (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HR HS]
      · isplitl [HR]; · iexact HR
        iexact HS
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region (the class's invariant) is the invariant before the first point. -/
theorem hin2 (c : Dev nD) : Pipeline.ΦA spec2 c ⊢ ((dat2 V c).Φ 0 : sProp 𝕄) := by
  rw [show (dat2 V c).Φ 0 = Phi2 V c 0 (Nat.zero_le _) from rfl, Phi2_zero V c 0 _ rfl]
  try exact Idealize.SL.BI.Entails.refl _

/-- After any point but the first the invariant gives the class's back: the scratch's named contents are forgotten. -/
theorem Phi2_out (c : Dev nD) (t : Fin (cfg2.N + 1)) (ht : t.val ≠ 0) : ((dat2 V c).Φ t : sProp 𝕄) ⊢ Pipeline.ΦA spec2 c := by
  rw [show (dat2 V c).Φ t = Phi2 V c t.val (Nat.le_of_lt_succ t.isLt) from rfl, Phi2_pos V c _ _ ht]
  iintro ⟨HR, HS⟩
  iapply (PhiA2_close (F := F) c)
  isplitl [HR]; · iexact HR
  iexists _; iexact HS

/-- The same after the last point. -/
theorem hout2 (c : Dev nD) : ((dat2 V c).Φ (Fin.last cfg2.N) : sProp 𝕄) ⊢ Pipeline.ΦA spec2 c :=
  Phi2_out V c _ (by rw [Fin.val_last]; have : cfg2.N = 25 := N_2; omega)

end Cert.Kernel.Fr

end
-- ==== Proof.K.Run.lean ====
import proofs.«419793_j38981123178585_3_alg».proof.Proof.K.Reg0
import proofs.«419793_j38981123178585_3_alg».proof.Proof.K.Reg1
import proofs.«419793_j38981123178585_3_alg».proof.Proof.K.Reg2
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

/-! # The run of @main: seven segments from the launch to the return

@main is a stretch of host operations, the first layer's kernel region, a second stretch, the second layer's region, a
third stretch, the pooling region, and a last stretch. Each TensorCore's buffer contents are followed through the seven as
a fold from the launch memory: a host stretch takes contents `W` to `StableHlo.after ops W`; a region takes `W` to `W`
with the region's arrays replaced by what its pipeline leaves in them (the inputs as entered, each output with its
write-backs folded in) and every other buffer untouched. The thread state between two segments is "every unscoped buffer
whole at the boundary's contents, the generator register at some state, nothing owed"; a region splits its arrays out of
that state at entry and puts them back at exit.

The result `run_all`: every weakly fair execution of @main terminates without fault, and in every final state each
unscoped TensorCore buffer holds the last contents of the fold, `W7`. The seven arguments, which no segment writes, are
read back through the fold to their launch contents (`W7_main_argK`). -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The class-A regions' proof data: the class invariant, full shares, nothing owed -/

section
variable (V : (c : Dev nD) → (b : Ref sig .tc) → Buf (Elt F) ((c : Thread nD τ).loc b))
/-- Region 0's invariant is the class's at every point; its proof data hold every input array at the full share and owe
    nothing at any point. -/
theorem Phi0 (c : Dev nD) (t : Fin (cfg0.N + 1)) : (dat0 V c).Φ t = Pipeline.ΦA spec0 c := rfl
theorem q0 (c : Dev nD) (w : Fin cfg0.W) : (dat0 V c).q w = fullShare := rfl
theorem owed0 (c : Dev nD) (t : Fin (cfg0.N + 1)) (g : GSem nD τ sig) : (dat0 V c).owed t g = 0 := rfl
/-- Region 1's invariant is the class's at every point; its proof data hold every input array at the full share and owe
    nothing at any point. -/
theorem Phi1 (c : Dev nD) (t : Fin (cfg1.N + 1)) : (dat1 V c).Φ t = Pipeline.ΦA spec1 c := rfl
theorem q1 (c : Dev nD) (w : Fin cfg1.W) : (dat1 V c).q w = fullShare := rfl
theorem owed1 (c : Dev nD) (t : Fin (cfg1.N + 1)) (g : GSem nD τ sig) : (dat1 V c).owed t g = 0 := rfl
end

/-! ## What the host stretches write

Each stretch writes exactly the buffers of its operations' results; a reference outside that list keeps its contents
across the stretch. -/

/-- No operation of `hostOps0` allocates a buffer. -/
theorem hostOps0_fresh : (hostOps0 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
/-- No operation of `hostOps3` allocates a buffer. -/
theorem hostOps3_fresh : (hostOps3 : List (HloOp τ sig (Elt F))).Forall fun op => op.fresh = ∅ := by
  simp only [List.Forall]; repeat' constructor

/-- The references `hostOps0`'s operations write. -/
abbrev hostOps0_W : List (Ref sig .tc) := [main_v0, main_v1, main_v2, main_v3, main_cst, main_v4, main_cst_0, main_v5, main_v6, main_v7, main_cst_1, main_v8, main_v9, main_v10, main_v11, main_v12, main_v13]
/-- The references `hostOps1`'s operations write. -/
abbrev hostOps1_W : List (Ref sig .tc) := [main_c, main_v15, main_v16, main_c_2, main_v17, main_v18, main_v19, main_v20, main_v21, main_cst_3, main_v22, main_v23, main_v24]
/-- The references `hostOps2`'s operations write. -/
abbrev hostOps2_W : List (Ref sig .tc) := [main_c_4, main_v26, main_v27, main_c_5, main_v28, main_v29, main_v30, main_v31, main_v32, main_cst_6, main_v33, main_v34, main_v35, main_v36]
/-- The references `hostOps3`'s operations write. -/
abbrev hostOps3_W : List (Ref sig .tc) := [main_cst_7, main_v38, main_cst_8, main_v39, main_v40, main_v41, main_cst_9, main_v42, main_v43, main_v44, main_v45, main_v46]

theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-! ## The buffer contents at each segment boundary: a fold through @main -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
/-- A reference `hostOps0` does not write keeps its contents. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- The same read at the TensorCore's references (what region 0's proof data take). -/
abbrev V1 : (c : Dev nD) → (b : Ref sig .tc) → Buf (Elt F) ((c : Thread nD τ).loc b) := fun c b => W1 m ρ c b

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it held
    at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- The same read at the TensorCore's references (what region 1's proof data take). -/
abbrev V3 : (c : Dev nD) → (b : Ref sig .tc) → Buf (Elt F) ((c : Thread nD τ).loc b) := fun c b => W3 m ρ c b

/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it held
    at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
/-- The same read at the TensorCore's references (what region 2's proof data take). -/
abbrev V5 : (c : Dev nD) → (b : Ref sig .tc) → Buf (Elt F) ((c : Thread nD τ).loc b) := fun c b => W5 m ρ c b

/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it held
    at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (the return). -/
abbrev W7 : Dev nD → Valuation τ sig (Elt F) := fun c => StableHlo.after hostOps3 (W6 m ρ c)
/-- A reference `hostOps3` does not write keeps its contents. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

/-! ### The arguments end as launched

No host operation writes an argument, and a region either reads it through an input window (whose array the pipeline
leaves as entered) or bypasses it; so the fold at an argument's buffer walks back to the launch memory. -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_of m ρ c main_arg1 (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := (W4_arr m ρ c 4).trans (((dat1 (V3 m ρ) c).arrAt_in 4 rfl _).trans (A_eq1 (V3 m ρ) c 4))
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to those
    references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W7`, the generator
    register at some state. -/
abbrev Tₙ (c : Dev nD) : sProp 𝕄 := iprop(StableHlo.held (c : Thread nD τ) (Pipeline.ucRefs τ sig) (W7 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 over the thread state: entered from every unscoped buffer at `W1`, left at `W2` (what the next
    stretch is entered from). Its arrays are split out of the unscoped buffers at entry and put back at the exit
    contents; the generator register goes into the region invariant and comes back; nothing is owed; the
    kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => funext fun g => owed0 (V1 m ρ) c t g
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    have hO : ∀ t, (pdats m ρ 0 c).owed t = 0 := fun t => funext fun g => owed0 (V1 m ρ) c t g
    have hrec : (pdats m ρ 0 c).recorded 0 = Set.univ := rec0 (V1 m ρ) c 0
    rw [Pipeline.ownSems0_none]
    unfold Pipeline.Dat.owesAt Pipeline.owesWithin Pipeline.Dat.bound
    rw [hO, hrec]
    have hsplit := Pipeline.arrays_of_unscopedBufs (p := 0) (pcfgs (F := F)) adm (pdats m ρ) launch0.win launch0.arr_whole c
      ((pdats m ρ 0 c).share_full fun w => q0 (V1 m ρ) c w) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from Phi0 (V1 m ρ) c 0]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from Phi0 (V1 m ρ) c _]; unfold Pipeline.ΦA
    iintro ⟨Hr, Hp⟩
    isplitl [Hp]; · iexact Hp
    isplitr; · iempintro
    iexact Hr
  hexit c := by
    have hO : ∀ t, (pdats m ρ 0 c).owed t = 0 := fun t => funext fun g => owed0 (V1 m ρ) c t g
    unfold Pipeline.Dat.owesAt Pipeline.owesWithin
    rw [hO]
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => q0 (V1 m ρ) c w)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 over the thread state: entered from every unscoped buffer at `W3`, left at `W4` (what the next
    stretch is entered from). Its arrays are split out of the unscoped buffers at entry and put back at the exit
    contents; the generator register goes into the region invariant and comes back; nothing is owed; the
    kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun c t => funext fun g => owed1 (V3 m ρ) c t g
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    have hO : ∀ t, (pdats m ρ 1 c).owed t = 0 := fun t => funext fun g => owed1 (V3 m ρ) c t g
    have hrec : (pdats m ρ 1 c).recorded 0 = Set.univ := rec1 (V3 m ρ) c 0
    rw [Pipeline.ownSems0_none]
    unfold Pipeline.Dat.owesAt Pipeline.owesWithin Pipeline.Dat.bound
    rw [hO, hrec]
    have hsplit := Pipeline.arrays_of_unscopedBufs (p := 1) (pcfgs (F := F)) adm (pdats m ρ) launch1.win launch1.arr_whole c
      ((pdats m ρ 1 c).share_full fun w => q1 (V3 m ρ) c w) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from Phi1 (V3 m ρ) c 0]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from Phi1 (V3 m ρ) c _]; unfold Pipeline.ΦA
    iintro ⟨Hr, Hp⟩
    isplitl [Hp]; · iexact Hp
    isplitr; · iempintro
    iexact Hr
  hexit c := by
    have hO : ∀ t, (pdats m ρ 1 c).owed t = 0 := fun t => funext fun g => owed1 (V3 m ρ) c t g
    unfold Pipeline.Dat.owesAt Pipeline.owesWithin
    rw [hO]
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q1 (V3 m ρ) c w)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 over the thread state: entered from every unscoped buffer at `W5`, left at `W6` (what the next
    stretch is entered from). Its arrays are split out of the unscoped buffers at entry and put back at the exit
    contents; the generator register goes into the region invariant and comes back (the invariant at the first and the last point is the class's, by `hin2` and `hout2`; in between it carries the accumulator); nothing is owed; the
    kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun c t => funext fun g => owed2 (V5 m ρ) c t g
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    have hO : ∀ t, (pdats m ρ 2 c).owed t = 0 := fun t => funext fun g => owed2 (V5 m ρ) c t g
    have hrec : (pdats m ρ 2 c).recorded 0 = Set.univ := rec2 (V5 m ρ) c 0
    rw [Pipeline.ownSems0_none]
    unfold Pipeline.Dat.owesAt Pipeline.owesWithin Pipeline.Dat.bound
    rw [hO, hrec]
    have hsplit := Pipeline.arrays_of_unscopedBufs (p := 2) (pcfgs (F := F)) adm (pdats m ρ) launch2.win launch2.arr_whole c
      ((pdats m ρ 2 c).share_full fun w => q2 (V5 m ρ) c w) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitl [Hp]; · iexact Hp
    iexact Hrest
  hin c := by
    refine BIBase.Entails.trans ?_ (hin2 (V5 m ρ) c)
    unfold Pipeline.ΦA
    iintro ⟨Hp, -, Hr⟩
    isplitl [Hr]; · iexact Hr
    iexact Hp
  hout c := by
    refine BIBase.Entails.trans (hout2 (V5 m ρ) c) ?_
    rw [Pipeline.ownSems0_none]; unfold Pipeline.ΦA
    iintro ⟨Hr, Hp⟩
    isplitl [Hp]; · iexact Hp
    isplitr; · iempintro
    iexact Hr
  hexit c := by
    have hO : ∀ t, (pdats m ρ 2 c).owed t = 0 := fun t => funext fun g => owed2 (V5 m ρ) c t g
    unfold Pipeline.Dat.owesAt Pipeline.owesWithin
    rw [hO]
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun w => q2 (V5 m ρ) c w)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

/-! ## @main as segments, and the launch -/

/-- @main's 7 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main IS the run of the segments. -/
theorem main_run (c : Dev nD) : main (F := F) c = Pipeline.Seg.run (segs m ρ) :=
  main_segs adm (pdats m ρ) () 𝒱₀ L lv _ _ _ _ (reg0 m ρ) (reg1 m ρ) (reg2 m ρ) rfl rfl rfl rfl c

-- the launch theorem's implicit arguments are found by unifying its conclusion with this one, which takes unfolding
-- plain definitions in a metavariable's type
set_option backward.isDefEq.respectTransparency.types false in
/-- Every weakly fair execution of @main terminates, nothing faulting, and every final state holds every unscoped
    TensorCore buffer at the last contents of the fold: the launch over the seven segments, the last thread state read
    against the final state. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c =>
      show iprop(StableHlo.held (c : Thread nD τ) (Pipeline.ucRefs τ sig) (W7 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h => h)

/-- info: 'Cert.Kernel.Fr.run_all' depends on axioms: [propext, Classical.choice, Quot.sound] -/
#guard_msgs in #print axioms run_all

end Cert.Kernel.Fr

end
-- ==== Proof.KI.Reg0.lean ====
import proofs.«419793_j38981123178585_3_alg».proof.Proof.Gen.KernelIdeal.Launch
import proofs.«419793_j38981123178585_3_alg».proof.Proof.Gen.KernelIdeal.Skeleton
import proofs.«419793_j38981123178585_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main (the first layer's kernel), at the buffer contents `V` it is entered with

The pipeline has five windows over a grid of 25 points. Window 0 is the 4000-row block of the node features
(`main_arg0`, 100000 × 2), window 1 the whole first-layer weight (`main_arg1`, 2 × 64; its block index never moves, so it
is fetched at the first point only), window 2 the 4000-row block of the degree normalisation (`main_v11`, 100000 × 1).
Windows 3 and 4 are the two outputs (`main_v14_0`, `main_v14_1`, 100000 × 64), written back a 4000-row block at a time.

At a point the body reads the three input blocks `x₀`, `x₁`, `x₂` whole and stores, whole,
`(x₀ · x₁) ⊙ x₂` into window 3 and `((x₀ · x₁) ⊙ x₂) ⊙ x₂` into window 4 (`x₂` broadcast along the 64 columns); it also
loads each output buffer once and never uses the value. So what it leaves in an output buffer is a function of the three
input blocks alone, and the input buffers are left as found. -/

-- membership in a rectangle of 4000 rows: the elaborator's structural look recurses once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is `V`'s
    (`hA`) and whose body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's buffer holds its block at every point, FETCHED THERE OR NOT: it is fetched at the first point only,
    and where it is not fetched its block index has not moved, so the block kept from the point before is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's buffer holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S4000x2 := Rect.unit (s := S4000x2) ![0, 0] S4000x2.size inb_S4000x2_S4000x2_0_0
abbrev r0_1 : Rect S2x64 := Rect.unit (s := S2x64) ![0, 0] S2x64.size inb_S2x64_S2x64_0_0
abbrev r0_2 : Rect S4000x1 := Rect.unit (s := S4000x1) ![0, 0] S4000x1.size inb_S4000x1_S4000x1_0_0
abbrev r0_3 : Rect S4000x64 := Rect.unit (s := S4000x64) ![0, 0] S4000x64.size inb_S4000x64_S4000x64_0_0

/-! ## What the body leaves in each output window's buffer -/

/-- Window 3's staging buffer after the body, from the input windows' blocks: its one whole store, of
    `(x₀ · x₁) ⊙ x₂` (the payload `k0_pay2` of the three loads). -/
def out0_3 (x0 : Vec F S4000x2 .f32) (x1 : Vec F S2x64 .f32) (x2 : Vec F S4000x1 .f32) : Vec F S4000x64 .f32 :=
  View.canon [⟨r0_3, k0_pay2 (View.ld x0 r0_0) (View.ld x1 r0_1) (View.ld x2 r0_2)⟩]

/-- Window 4's staging buffer after the body: its one whole store, of `((x₀ · x₁) ⊙ x₂) ⊙ x₂` (`k0_pay3`). -/
def out0_4 (x0 : Vec F S4000x2 .f32) (x1 : Vec F S2x64 .f32) (x2 : Vec F S4000x1 .f32) : Vec F S4000x64 .f32 :=
  View.canon [⟨r0_3, k0_pay3 (View.ld x0 r0_0) (View.ld x1 r0_1) (View.ld x2 r0_2)⟩]

/-- One whole store tiles the buffer, so it covers it. -/
theorem cover0_3 (p0 : Vec F S4000x64 .f32) (y : S4000x64.Idx) :
    ∃ pc ∈ ([⟨r0_3, p0⟩] : List (View.Piece (Elt F) S4000x64 .f32)), y ∈ pc.1.set :=
  View.cover_of_tiled [⟨r0_3, p0⟩] S4000x64.size (by rfl) y

/-! ## The body's triple -/

set_option maxHeartbeats 1000000 in
/-- The kernel body on whole staging memrefs, the inputs' at read contents `x₀ x₁ x₂` and the outputs' at anything, runs to
    the continuation holding the inputs' as they were and the outputs' at `out0_3`, `out0_4` of the inputs'. The load of
    an output buffer before its store reads whatever is there and the value goes nowhere. -/
theorem sound_kernel0 (c : Dev nD) (E : Set ℕ) (i : grid0.Coords)
    (arg1 : Memref sig .tc .vmem S4000x2 .f32) (harg1 : arg1.IsWhole) (arg2 : Memref sig .tc .vmem S2x64 .f32) (harg2 : arg2.IsWhole)
    (arg3 : Memref sig .tc .vmem S4000x1 .f32) (harg3 : arg3.IsWhole) (arg4 : Memref sig .tc .vmem S4000x64 .f32) (harg4 : arg4.IsWhole)
    (arg5 : Memref sig .tc .vmem S4000x64 .f32) (harg5 : arg5.IsWhole)
    (x0 : Vec F S4000x2 .f32) (x1 : Vec F S2x64 .f32) (x2 : Vec F S4000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__layer1_kernel i arg1 harg1 arg2 harg2 arg3 harg3 arg4 harg4 arg5 harg5) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_3 _)

/-! ## The pipeline's proof data -/

/-- The proof data of pipeline 0 on core `c`: the arrays as the region finds them (`V`); after the body at point `t` each
    input's buffer at its block and each output's at `out0_3`, `out0_4` of the three input blocks; the invariant the
    plain class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The proof data records every name at every point. -/
theorem rec0 (c : Dev nD) (t : Fin (cfg0.N + 1)) : (dat0 V c).recorded t = Set.univ := rfl

end Cert.KernelIdeal.Fr

end
-- ==== Proof.KI.Reg1.lean ====
/- Region 1 of @main (the second layer, `cc1__layer2_fused_kernel`, grid 25) at a parameter `V`: the TensorCore's
   buffer contents when the region is entered. Seven windows: 0 the aggregated features' block [4000,64], 1 the self
   features' block [4000,64], 2 the degree scale's block [4000,1], 3 the bias [1,64] whole, 4 the second weight
   [64,32] whole, 5 and 6 the two outputs' blocks [4000,32]. Each window's block at a point (`iblk1`), what the body
   leaves in each output's buffer from the input blocks (`out1_5`, `out1_6`: one whole store each), the body's triple
   (`sound_kernel1`), the pipeline's proof data (`dat1`) and the body obligation (`body_obligation1`). -/
import proofs.«419793_j38981123178585_3_alg».proof.Proof.Gen.KernelIdeal.Launch
import proofs.«419793_j38981123178585_3_alg».proof.Proof.Gen.KernelIdeal.Skeleton
import proofs.«419793_j38981123178585_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
-- of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 1 of @main: custom_call 1, `cc1__layer2_fused_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): unfetched, the block
    index has not moved since the point before, so the block found is still this point's; the window is uncut and
    never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof
    data whose array is `V`'s (`hA`) and whose body leaves the block in place (`hafter`): unfetched, the block
    index has not moved since the point before, so the block found is still this point's; the window is uncut and
    never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof
    data whose array is `V`'s (`hA`) and whose body leaves the block in place (`hafter`): unfetched, the block
    index has not moved since the point before, so the block found is still this point's; the window is uncut and
    never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for ANY proof
    data whose array is `V`'s (`hA`) and whose body leaves the block in place (`hafter`): unfetched, the block
    index has not moved since the point before, so the block found is still this point's; the window is uncut and
    never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for ANY proof
    data whose array is `V`'s (`hA`) and whose body leaves the block in place (`hafter`): unfetched, the block
    index has not moved since the point before, so the block found is still this point's; the window is uncut and
    never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S4000x1 := Rect.unit (s := S4000x1) ![0, 0] S4000x1.size inb_S4000x1_S4000x1_0_0
abbrev r1_1 : Rect S4000x64 := Rect.unit (s := S4000x64) ![0, 0] S4000x64.size inb_S4000x64_S4000x64_0_0
abbrev r1_2 : Rect S1x64 := Rect.unit (s := S1x64) ![0, 0] S1x64.size inb_S1x64_S1x64_0_0
abbrev r1_3 : Rect S64x32 := Rect.unit (s := S64x32) ![0, 0] S64x32.size inb_S64x32_S64x32_0_0
abbrev r1_4 : Rect S4000x32 := Rect.unit (s := S4000x32) ![0, 0] S4000x32.size inb_S4000x32_S4000x32_0_0

/-! ## What the body leaves in each output window's buffer -/

/-- Window 5's staging buffer after the body, from the input windows' blocks `x0 … x4` (window order): its one whole
    store. The payload reads the degree scale (window 2) first, then the aggregated and the self features (windows
    0, 1), the bias (window 3) and the weight (window 4). -/
def out1_5 (x0 : Vec F S4000x64 .f32) (x1 : Vec F S4000x64 .f32) (x2 : Vec F S4000x1 .f32) (x3 : Vec F S1x64 .f32) (x4 : Vec F S64x32 .f32) : Vec F S4000x32 .f32 :=
  View.canon [⟨r1_4, k1_pay2 (View.ld x2 r1_0) (View.ld x0 r1_1) (View.ld x1 r1_1) (View.ld x3 r1_2) (View.ld x4 r1_3)⟩]

/-- Window 6's staging buffer after the body: its one whole store, of the same reads. -/
def out1_6 (x0 : Vec F S4000x64 .f32) (x1 : Vec F S4000x64 .f32) (x2 : Vec F S4000x1 .f32) (x3 : Vec F S1x64 .f32) (x4 : Vec F S64x32 .f32) : Vec F S4000x32 .f32 :=
  View.canon [⟨r1_4, k1_pay3 (View.ld x2 r1_0) (View.ld x0 r1_1) (View.ld x1 r1_1) (View.ld x3 r1_2) (View.ld x4 r1_3)⟩]

/-- A whole store tiles the buffer (checked by evaluation), so it covers it. -/
theorem cover1_o (p0 : Vec F S4000x32 .f32) (y : S4000x32.Idx) :
    ∃ pc ∈ ([⟨r1_4, p0⟩] : List (View.Piece (Elt F) S4000x32 .f32)), y ∈ pc.1.set :=
  View.cover_of_tiled [⟨r1_4, p0⟩] S4000x32.size (by rfl) y

/-! ## The body's triple -/

set_option maxHeartbeats 1000000 in
/-- The kernel body on whole staging memrefs, the inputs' at read contents `xW` and the outputs' at anything, runs to
    the continuation holding the inputs' as they were and each output's at `out1_W` of the inputs': the printed
    function is its skeleton, whose loads read the inputs whole and whose two stores overwrite the outputs whole
    (each output is read once before its store; the value read is not used). -/
theorem sound_kernel1 (c : Dev nD) (E : Set ℕ) (i : grid1.Coords) (arg1 : Memref sig .tc .vmem S4000x64 .f32) (harg1 : arg1.IsWhole) (arg2 : Memref sig .tc .vmem S4000x64 .f32) (harg2 : arg2.IsWhole) (arg3 : Memref sig .tc .vmem S4000x1 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S4000x32 .f32) (harg6 : arg6.IsWhole) (arg7 : Memref sig .tc .vmem S4000x32 .f32) (harg7 : arg7.IsWhole)
    (x0 : Vec F S4000x64 .f32) (x1 : Vec F S4000x64 .f32) (x2 : Vec F S4000x1 .f32) (x3 : Vec F S1x64 .f32) (x4 : Vec F S64x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4) ∗ owns (c : Thread nD τ) arg7 fullShare (out1_6 x0 x1 x2 x3 x4)) -∗ K ⟨⟩))
      ⊢ wp frame (wpE (defs₀ (F := F)) Variants.none c none) E (cc1__layer2_fused_kernel i arg1 harg1 arg2 harg2 arg3 harg3 arg4 harg4 arg5 harg5 arg6 harg6 arg7 harg7) K := by
  simp only [cc1__layer2_fused_kernel_eq_skeleton]; unfold cc1__layer2_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_o _)
  iexists _; isplitr
  swap; · iexact H6
  ipureintro
  exact View.read_writes_eq_canon _ _ _ (cover1_o _)

/-! ## The pipeline's proof data -/

/-- The proof data of pipeline 1 on core `c`: the arrays as the region finds them (`V`); after the body at
    point `t` each input's buffer at its block and each output's at `out1_W` of the input blocks; the invariant the
    class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents (the proof data's definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The proof data records every name at every point. -/
theorem rec1 (c : Dev nD) (t : Fin (cfg1.N + 1)) : (dat1 V c).recorded t = Set.univ := rfl

end Cert.KernelIdeal.Fr

end
-- ==== Proof.KI.Reg2.lean ====
/- Region 2 of @main (the pooling kernel, `cc2__pool_fused_kernel`, grid 25) at a parameter `V`: the TensorCore's
   buffer contents when the region is entered. Six windows: 0 the aggregated features' block [4000,32], 1 the self
   features' block [4000,32], 2 the degree scale's block [4000,1], 3 the bias [1,32] whole (fetched at the first point
   only), 4 the graph ids' block [4000,1] of i32, 5 the output [64,32], one block, stored into and written back at the
   last point only and idle at every other. Beside the windows the kernel takes a scratch [64,32], a scoped buffer of
   its own that it carries from point to point: reset to zeros at the first point, then at every point overwritten
   whole with the accumulation of the point's blocks onto what it held, and at the last point copied whole into the
   output. Each window's block at a point (`iblk2`), what one point's accumulation leaves in the scratch (`pool2`), the
   body's triple in each of its three control cases (`sound_kernel2_first` / `_mid` / `_last`), the scratch after each
   point by recursion (`acc2`), the region invariant that tracks it (`Phi2`), the pipeline's proof data (`dat2`) and the
   body obligation (`body_obligation2`). -/
import proofs.«419793_j38981123178585_3_alg».proof.Proof.Gen.KernelIdeal.Launch
import proofs.«419793_j38981123178585_3_alg».proof.Proof.Gen.KernelIdeal.Skeleton
import proofs.«419793_j38981123178585_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 2 of @main: custom_call 2, `cc2__pool_fused_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s (`hA`) and whose body leaves the block in place (`hafter`): unfetched, the block index has
    not moved since the point before, so the block found is still this point's; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s (`hA`) and whose body leaves the block in place (`hafter`): unfetched, the block index has
    not moved since the point before, so the block found is still this point's; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is `V`'s (`hA`) and whose body leaves the block in place (`hafter`): unfetched, the block index has
    not moved since the point before, so the block found is still this point's; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is `V`'s (`hA`) and whose body leaves the block in place (`hafter`): unfetched, the block index has
    not moved since the point before, so the block found is still this point's; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is `V`'s (`hA`) and whose body leaves the block in place (`hafter`): unfetched, the block index has
    not moved since the point before, so the block found is still this point's; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_a : Rect S4000x1 := Rect.unit (s := S4000x1) ![0, 0] S4000x1.size inb_S4000x1_S4000x1_0_0
abbrev r2_b : Rect S4000x32 := Rect.unit (s := S4000x32) ![0, 0] S4000x32.size inb_S4000x32_S4000x32_0_0
abbrev r2_c : Rect S1x32 := Rect.unit (s := S1x32) ![0, 0] S1x32.size inb_S1x32_S1x32_0_0
abbrev r2_o : Rect S64x32 := Rect.unit (s := S64x32) ![0, 0] S64x32.size inb_S64x32_S64x32_0_0

/-- Every access of the body is through a whole-shape rectangle at offsets zero. -/
theorem hz2 : (![0, 0] : Fin 2 → Nat) = fun _ => 0 := funext fun a => by fin_cases a <;> rfl

/-- The scratch operand: a whole scoped buffer of the kernel's own, passed beside the windows. -/
abbrev scM2 : Memref sig .tc .vmem S64x32 .f32 := Memref.whole cc2_scratch0

/-! ## What one point leaves in the scratch -/

/-- What one point's accumulation leaves in the scratch, from the five input blocks `x0 … x4` (window order) and what
    the scratch held when the accumulation read it: the payload of the body's one whole store into it, of its whole
    loads. The payload reads the degree scale (window 2) first, then the aggregated and the self features (windows 0,
    1), the bias (window 3), the graph ids (window 4) and the scratch. -/
def pool2 (x0 : Vec F S4000x32 .f32) (x1 : Vec F S4000x32 .f32) (x2 : Vec F S4000x1 .f32) (x3 : Vec F S1x32 .f32) (x4 : Vec F S4000x1 .i32) (acc : Vec F S64x32 .f32) : Vec F S64x32 .f32 :=
  k2_pay2 x2 x0 x1 x3 x4 acc

/-- What the first point resets the scratch to before it accumulates: the payload of its whole store of zeros. -/
def zero2 : Vec F S64x32 .f32 := k2_pay1 (F := F)

/-- A whole store tiles the buffer (checked by evaluation), so it covers it. -/
theorem cover2_o (p0 : Vec F S64x32 .f32) (y : S64x32.Idx) :
    ∃ pc ∈ ([⟨r2_o, p0⟩] : List (View.Piece (Elt F) S64x32 .f32)), y ∈ pc.1.set :=
  View.cover_of_tiled [⟨r2_o, p0⟩] S64x32.size (by rfl) y

/-- Two whole stores cover it too (the later one already does). -/
theorem cover2_oo (p0 p1 : Vec F S64x32 .f32) (y : S64x32.Idx) :
    ∃ pc ∈ ([⟨r2_o, p0⟩, ⟨r2_o, p1⟩] : List (View.Piece (Elt F) S64x32 .f32)), y ∈ pc.1.set :=
  ⟨⟨r2_o, p0⟩, List.mem_cons_self, View.mem_set_unit_zero hz2 inb_S64x32_S64x32_0_0 y⟩

/-! ## The body's two branch conditions, in closed form over the grid -/

/-- The condition of the body's first `scf.if` (the reset), from the grid coordinate (the skeleton's scalar chain
    substituted). -/
abbrev cond2_0 (i : grid2.Coords) : Prop := (Scalar.cmpi .ne (Scalar.extui (Scalar.cmpi .eq (BitVec.ofNat 32 (i 0).val) 0#32)) 0#32) = 1#1
/-- It holds at the first point only: decided over the grid. -/
theorem hcond2_0 : ∀ t : Fin cfg2.N, cond2_0 (grid2.coords t) ↔ t.val = 0 :=
  (by decide +kernel : ∀ t : Fin grid2.N, cond2_0 (grid2.coords t) ↔ t.val = 0)
/-- The condition of the body's second `scf.if` (the output's store). -/
abbrev cond2_1 (i : grid2.Coords) : Prop := k2_cond2 i = 1#1
/-- It holds at the last point only: decided over the grid. -/
theorem hcond2_1 : ∀ t : Fin cfg2.N, cond2_1 (grid2.coords t) ↔ t.val = 24 :=
  (by decide +kernel : ∀ t : Fin grid2.N, cond2_1 (grid2.coords t) ↔ t.val = 24)

/-! ## The body's triple, one per control case -/

set_option maxHeartbeats 1000000 in
/-- THE FIRST POINT (reset taken, output's store not): on whole memrefs, the inputs' at read contents `xW`, the output's
    at `xi` and the scratch at anything, the body runs to the continuation holding the inputs' and the output's as they
    were and the scratch at the accumulation over the reset value: the reset's whole store covers the scratch, the
    accumulation's load reads it back, and its whole store covers the scratch again. -/
theorem sound_kernel2_first (c : Dev nD) (E : Set ℕ) (i : grid2.Coords) (hc0 : cond2_0 i) (hc1 : ¬cond2_1 i) (arg1 : Memref sig .tc .vmem S4000x32 .f32) (harg1 : arg1.IsWhole) (arg2 : Memref sig .tc .vmem S4000x32 .f32) (harg2 : arg2.IsWhole) (arg3 : Memref sig .tc .vmem S4000x1 .f32) (harg3 : arg3.IsWhole) (arg4 : Memref sig .tc .vmem S1x32 .f32) (harg4 : arg4.IsWhole) (arg5 : Memref sig .tc .vmem S4000x1 .i32) (harg5 : arg5.IsWhole) (arg6 : Memref sig .tc .vmem S64x32 .f32) (harg6 : arg6.IsWhole) (arg7 : Memref sig .tc .vmem S64x32 .f32) (harg7 : arg7.IsWhole)
    (x0 : Vec F S4000x32 .f32) (x1 : Vec F S4000x32 .f32) (x2 : Vec F S4000x1 .f32) (x3 : Vec F S1x32 .f32) (x4 : Vec F S4000x1 .i32) (xi : Vec F S64x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare xi ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare xi ∗ owns (c : Thread nD τ) arg7 fullShare (pool2 x0 x1 x2 x3 x4 zero2)) -∗ K ⟨⟩))
      ⊢ wp frame (wpE (defs₀ (F := F)) Variants.none c none) E (cc2__pool_fused_kernel i arg1 harg1 arg2 harg2 arg3 harg3 arg4 harg4 arg5 harg5 arg6 harg6 arg7 harg7) K := by
  simp only [cc2__pool_fused_kernel_eq_skeleton]; unfold cc2__pool_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  subst hf0 hf1 hf2 hf3 hf4 hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HS
  ipureintro
  sl_unfold_words
  rw [View.read_writes_eq_canon _ _ _ (cover2_oo _ _), View.canon_cons_unit_zero hz2]
  simp only [View.readAt_eq_ld, View.ld_unit_zero (S := S4000x1) hz2, View.ld_unit_zero (S := S4000x32) hz2, View.ld_unit_zero (S := S1x32) hz2, View.readCov_unit_zero (S := S64x32) _ hz2]
  rfl

set_option maxHeartbeats 1000000 in
/-- A MIDDLE POINT (neither branch taken): the inputs' and the output's memrefs are handed back as they were and the
    scratch, found at `xs`, is left at the accumulation over `xs`. -/
theorem sound_kernel2_mid (c : Dev nD) (E : Set ℕ) (i : grid2.Coords) (hc0 : ¬cond2_0 i) (hc1 : ¬cond2_1 i) (arg1 : Memref sig .tc .vmem S4000x32 .f32) (harg1 : arg1.IsWhole) (arg2 : Memref sig .tc .vmem S4000x32 .f32) (harg2 : arg2.IsWhole) (arg3 : Memref sig .tc .vmem S4000x1 .f32) (harg3 : arg3.IsWhole) (arg4 : Memref sig .tc .vmem S1x32 .f32) (harg4 : arg4.IsWhole) (arg5 : Memref sig .tc .vmem S4000x1 .i32) (harg5 : arg5.IsWhole) (arg6 : Memref sig .tc .vmem S64x32 .f32) (harg6 : arg6.IsWhole) (arg7 : Memref sig .tc .vmem S64x32 .f32) (harg7 : arg7.IsWhole)
    (x0 : Vec F S4000x32 .f32) (x1 : Vec F S4000x32 .f32) (x2 : Vec F S4000x1 .f32) (x3 : Vec F S1x32 .f32) (x4 : Vec F S4000x1 .i32) (xi : Vec F S64x32 .f32) (xs : Vec F S64x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare xi ∗ owns (c : Thread nD τ) arg7 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare xi ∗ owns (c : Thread nD τ) arg7 fullShare (pool2 x0 x1 x2 x3 x4 xs)) -∗ K ⟨⟩))
      ⊢ wp frame (wpE (defs₀ (F := F)) Variants.none c none) E (cc2__pool_fused_kernel i arg1 harg1 arg2 harg2 arg3 harg3 arg4 harg4 arg5 harg5 arg6 harg6 arg7 harg7) K := by
  simp only [cc2__pool_fused_kernel_eq_skeleton]; unfold cc2__pool_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  subst hf0 hf1 hf2 hf3 hf4 hf5 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HS
  ipureintro
  rw [View.read_writes_eq_canon _ _ _ (cover2_o _), View.canon_unit_zero hz2]
  simp only [View.readAt_eq_ld, View.ld_unit_zero (S := S4000x1) hz2, View.ld_unit_zero (S := S4000x32) hz2, View.ld_unit_zero (S := S1x32) hz2, View.ld_unit_zero (S := S64x32) hz2]
  rfl

set_option maxHeartbeats 1000000 in
/-- THE LAST POINT (reset not taken, output's store taken): the scratch, found at `xs`, is left at the accumulation over
    `xs`, and the output's memref, at anything before, holds the same: the body loads the scratch back whole and
    stores that whole into the output. -/
theorem sound_kernel2_last (c : Dev nD) (E : Set ℕ) (i : grid2.Coords) (hc0 : ¬cond2_0 i) (hc1 : cond2_1 i) (arg1 : Memref sig .tc .vmem S4000x32 .f32) (harg1 : arg1.IsWhole) (arg2 : Memref sig .tc .vmem S4000x32 .f32) (harg2 : arg2.IsWhole) (arg3 : Memref sig .tc .vmem S4000x1 .f32) (harg3 : arg3.IsWhole) (arg4 : Memref sig .tc .vmem S1x32 .f32) (harg4 : arg4.IsWhole) (arg5 : Memref sig .tc .vmem S4000x1 .i32) (harg5 : arg5.IsWhole) (arg6 : Memref sig .tc .vmem S64x32 .f32) (harg6 : arg6.IsWhole) (arg7 : Memref sig .tc .vmem S64x32 .f32) (harg7 : arg7.IsWhole)
    (x0 : Vec F S4000x32 .f32) (x1 : Vec F S4000x32 .f32) (x2 : Vec F S4000x1 .f32) (x3 : Vec F S1x32 .f32) (x4 : Vec F S4000x1 .i32) (xs : Vec F S64x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (pool2 x0 x1 x2 x3 x4 xs) ∗ owns (c : Thread nD τ) arg7 fullShare (pool2 x0 x1 x2 x3 x4 xs)) -∗ K ⟨⟩))
      ⊢ wp frame (wpE (defs₀ (F := F)) Variants.none c none) E (cc2__pool_fused_kernel i arg1 harg1 arg2 harg2 arg3 harg3 arg4 harg4 arg5 harg5 arg6 harg6 arg7 harg7) K := by
  simp only [cc2__pool_fused_kernel_eq_skeleton]; unfold cc2__pool_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  subst hf0 hf1 hf2 hf3 hf4 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [View.read_writes_eq_canon _ _ _ (cover2_o _), View.canon_unit_zero hz2, View.readCov_unit_zero (S := S64x32) _ hz2]
    simp only [View.readAt_eq_ld, View.ld_unit_zero (S := S4000x1) hz2, View.ld_unit_zero (S := S4000x32) hz2, View.ld_unit_zero (S := S1x32) hz2, View.ld_unit_zero (S := S64x32) hz2]
    rfl
  iexists _; isplitr
  swap; · iexact HS
  ipureintro
  sl_unfold_words
  rw [View.read_writes_eq_canon _ _ _ (cover2_o _), View.canon_unit_zero hz2]
  simp only [View.readAt_eq_ld, View.ld_unit_zero (S := S4000x1) hz2, View.ld_unit_zero (S := S4000x32) hz2, View.ld_unit_zero (S := S1x32) hz2, View.ld_unit_zero (S := S64x32) hz2]
  rfl

/-! ## Where the output window is idle (the printed configuration's table) -/

/-- At every point but the last the printed configuration calls the output window idle: the body stores nothing into it. -/
theorem idleAt2_5 : ∀ t : Fin cfg2.N, ¬cond2_1 (grid2.coords t) → cfg2.idle 5 (grid2.coords t) = true := by decide +kernel
/-- At those points the pipeline does not write the output's block back. -/
theorem noFlush2_5 : ∀ t : Fin cfg2.N, ¬cond2_1 (grid2.coords t) → (cfg2.win 5).flush t = false := by decide +kernel
/-- At the last point the window is live: the body stores into it. -/
theorem liveAt2_5 : ∀ t : Fin cfg2.N, cond2_1 (grid2.coords t) → cfg2.idle 5 (grid2.coords t) = false := by decide +kernel

/-! ## The scratch after each point -/

/-- THE ACCUMULATION. The scratch after point `n`: at point 0 the accumulation over the reset value, afterwards over
    what the point before left (the scratch is the kernel's own: nothing touches it between two points). -/
def acc2 (c : Dev nD) : (n : ℕ) → n < cfg2.N → Vec F S64x32 .f32
  | 0, h => pool2 (iblk2 V c 0 ⟨0, h⟩) (iblk2 V c 1 ⟨0, h⟩) (iblk2 V c 2 ⟨0, h⟩) (iblk2 V c 3 ⟨0, h⟩) (iblk2 V c 4 ⟨0, h⟩) zero2
  | n + 1, h => pool2 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (acc2 c n (Nat.lt_of_succ_lt h))

theorem acc2_zero (c : Dev nD) (h : 0 < cfg2.N) :
    acc2 V c 0 h = pool2 (iblk2 V c 0 ⟨0, h⟩) (iblk2 V c 1 ⟨0, h⟩) (iblk2 V c 2 ⟨0, h⟩) (iblk2 V c 3 ⟨0, h⟩) (iblk2 V c 4 ⟨0, h⟩) zero2 := rfl

theorem acc2_succ (c : Dev nD) (n : ℕ) (h : n + 1 < cfg2.N) :
    acc2 V c (n + 1) h = pool2 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (acc2 V c n (Nat.lt_of_succ_lt h)) := rfl

/-- `acc2` at the first point, stated at the point. -/
theorem acc2_first (c : Dev nD) (t : Fin cfg2.N) (h0 : t.val = 0) :
    acc2 V c t.val t.isLt = pool2 (iblk2 V c 0 t) (iblk2 V c 1 t) (iblk2 V c 2 t) (iblk2 V c 3 t) (iblk2 V c 4 t) zero2 := by
  obtain ⟨n, hn⟩ := t
  cases n with
  | zero => rfl
  | succ n => exact absurd h0 (Nat.succ_ne_zero n)

/-- `acc2` at a later point, stated at the point: over what the point before left. -/
theorem acc2_later (c : Dev nD) (t : Fin cfg2.N) (h0 : t.val ≠ 0) :
    acc2 V c t.val t.isLt = pool2 (iblk2 V c 0 t) (iblk2 V c 1 t) (iblk2 V c 2 t) (iblk2 V c 3 t) (iblk2 V c 4 t) (acc2 V c (t.val - 1) (Nat.lt_of_le_of_lt (Nat.sub_le _ _) t.isLt)) := by
  obtain ⟨n, hn⟩ := t
  cases n with
  | zero => exact absurd rfl h0
  | succ n => rfl

/-! ## The region invariant: the scratch tracked -/

/-- A scoped buffer of the core, whole at some contents. -/
abbrev anyBuf2 (c : Dev nD) (b : Ref sig .tc) : sProp 𝕄 :=
  iprop(∃ f : Buf (Elt F) ((c : Thread nD τ).loc b), ((c : Thread nD τ).loc b) ↦{fullShare} f)

/-- What the class's invariant holds beside the scratch: the other regions' staging buffers, each at some contents,
    and the generator register at some state. The body neither reads nor describes them. -/
def rest2 (c : Dev nD) : sProp 𝕄 :=
  iprop(anyBuf2 c cc0_stg0_0 ∗ anyBuf2 c cc0_stg0_1 ∗ anyBuf2 c cc0_stg1_0 ∗ anyBuf2 c cc0_stg2_0 ∗ anyBuf2 c cc0_stg2_1 ∗ anyBuf2 c cc0_stg3_0 ∗ anyBuf2 c cc0_stg3_1 ∗ anyBuf2 c cc0_stg4_0 ∗ anyBuf2 c cc0_stg4_1 ∗ anyBuf2 c cc1_stg0_0 ∗ anyBuf2 c cc1_stg0_1 ∗ anyBuf2 c cc1_stg1_0 ∗ anyBuf2 c cc1_stg1_1 ∗ anyBuf2 c cc1_stg2_0 ∗ anyBuf2 c cc1_stg2_1 ∗ anyBuf2 c cc1_stg3_0 ∗ anyBuf2 c cc1_stg4_0 ∗ anyBuf2 c cc1_stg5_0 ∗ anyBuf2 c cc1_stg5_1 ∗ anyBuf2 c cc1_stg6_0 ∗ anyBuf2 c cc1_stg6_1 ∗ (∃ r, prngReg c r))

/-- The class's invariant hands out the scratch at some contents beside the rest, -/
theorem PhiA2_open (c : Dev nD) :
    (Pipeline.ΦA spec2 c : sProp 𝕄) ⊢ iprop(rest2 (F := F) c ∗ (∃ d, owns (c : Thread nD τ) scM2 fullShare d)) := by
  unfold Pipeline.ΦA rest2; rw [scopedRest2_eq]; simp only [scM2, owns_whole]
  iintro ⟨⟨H1, H2, H3, H4, H5, H6, H7, H8, H9, H10, H11, H12, H13, H14, H15, H16, H17, H18, H19, H20, H21, HS⟩, Hg⟩
  isplitr [HS]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact Hg
  · iexact HS

/-- and takes it back at any contents. -/
theorem PhiA2_close (c : Dev nD) :
    iprop(rest2 (F := F) c ∗ (∃ d, owns (c : Thread nD τ) scM2 fullShare d)) ⊢ (Pipeline.ΦA spec2 c : sProp 𝕄) := by
  unfold Pipeline.ΦA rest2; rw [scopedRest2_eq]; simp only [scM2, owns_whole]
  iintro ⟨⟨H1, H2, H3, H4, H5, H6, H7, H8, H9, H10, H11, H12, H13, H14, H15, H16, H17, H18, H19, H20, H21, Hg⟩, HS⟩
  isplitr [Hg]
  ·
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact HS
  · iexact Hg

/-- The region invariant before position `n`: before the first point the class's (the scratch at anything);
    afterwards the rest beside the scratch at what the point before left in it. -/
def Phi2 (c : Dev nD) : (n : ℕ) → n ≤ cfg2.N → sProp 𝕄
  | 0, _ => Pipeline.ΦA spec2 c
  | n + 1, hn => iprop(rest2 c ∗ owns (c : Thread nD τ) scM2 fullShare (acc2 V c n hn))

theorem Phi2_zero (c : Dev nD) (n : ℕ) (h : n ≤ cfg2.N) (hz : n = 0) : Phi2 V c n h = Pipeline.ΦA spec2 c := by
  subst hz; rfl

/-- After point `n` (before point `n + 1`): the scratch at that point's contents. -/
theorem Phi2_succ (c : Dev nD) (n : ℕ) (hn : n < cfg2.N) :
    Phi2 V c (n + 1) hn = iprop(rest2 c ∗ owns (c : Thread nD τ) scM2 fullShare (acc2 V c n hn)) := rfl

/-- Before a point that is not the first: the scratch at what the point before left. -/
theorem Phi2_pos (c : Dev nD) (n : ℕ) (h : n ≤ cfg2.N) (hz : n ≠ 0) :
    Phi2 V c n h = iprop(rest2 c ∗ owns (c : Thread nD τ) scM2 fullShare (acc2 V c (n - 1) (by omega))) := by
  cases n with
  | zero => exact absurd rfl hz
  | succ n => rfl

/-! ## The pipeline's proof data -/

/-- The proof data of pipeline 2 on core `c`: the arrays as the region finds them (`V`); after the body at point `t`
    each input's buffer at its block and the output's at the scratch's contents after `t` (consulted only at the last
    point, the one that stores into the output and writes it back); the invariant the scratch-tracking one; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => acc2 V c t.val t.isLt
  Φ t := Phi2 V c t.val (Nat.le_of_lt_succ t.isLt)
  q _ := fullShare
  owed _ := 0

/-- The proof data's arrays are the region-entry contents (the proof data's definition projected). -/
theorem A_eq2 (c : Dev nD) (w : Fin cfg2.W) : (dat2 V c).A w = V c (Pipeline.arrRef spec2 w) := by
  dsimp only [dat2]

/-- Full shares; nothing owed. -/
theorem q2 (c : Dev nD) (w : Fin cfg2.W) : (dat2 V c).q w = fullShare := by dsimp only [dat2]
theorem owed2 (c : Dev nD) (t) (g) : (dat2 V c).owed t g = 0 := by dsimp only [dat2]; rfl
/-- The bound on the recorded pairs is the structure's default: everything. -/
theorem rec2 (c : Dev nD) (t : Fin (cfg2.N + 1)) : (dat2 V c).recorded t = Set.univ := rfl

/-- The invariant at a point's start, restated at `t.val`. -/
theorem Phi2_castSucc (c : Dev nD) (t : Fin cfg2.N) :
    (dat2 V c).Φ t.castSucc = Phi2 V c t.val (Nat.le_of_lt t.isLt) := by
  dsimp only [dat2]; simp only [Fin.coe_castSucc]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = acc2 V c t.val t.isLt := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns: each input's buffer at what the body leaves, the output's at what it found where the window is
    idle and at what the body leaves where it is live (`Dat.leavesExact`). -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

/-- An input window is never idle: what the body leaves in its buffer is stated outright. -/
theorem leaves2_in (c : Dev nD) (t : Fin cfg2.N) :
    (dat2 V c).leavesExact 0 t = owns (c : Thread nD τ) (st2_0 t) fullShare (iblk2 V c 0 t)
    ∧ (dat2 V c).leavesExact 1 t = owns (c : Thread nD τ) (st2_1 t) fullShare (iblk2 V c 1 t)
    ∧ (dat2 V c).leavesExact 2 t = owns (c : Thread nD τ) (st2_2 t) fullShare (iblk2 V c 2 t)
    ∧ (dat2 V c).leavesExact 3 t = owns (c : Thread nD τ) (st2_3 t) fullShare (iblk2 V c 3 t)
    ∧ (dat2 V c).leavesExact 4 t = owns (c : Thread nD τ) (st2_4 t) fullShare (iblk2 V c 4 t) := by
  refine ⟨?_, ?_, ?_, ?_, ?_⟩
  · rw [← after2_0]
  · rw [← after2_1]
  · rw [← after2_2]
  · rw [← after2_3]
  · rw [← after2_4]

set_option maxHeartbeats 1600000 in
/-- The body at any point: the inputs' memrefs hold their blocks (`before2_W`); the closed forms say which case the point
    is in; the invariant hands the body the scratch at what the point before left (at anything at the first point) and
    takes it back at this point's contents; where the output window is idle its buffer goes back as found, at the last
    point it holds the scratch's final contents; the rest of the invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = Phi2 V c (t.val + 1) t.isLt from rfl, Phi2_succ]
  obtain ⟨l0, l1, l2, l3, l4⟩ := leaves2_in V c t
  rw [l0, l1, l2, l3, l4, Phi2_castSucc]
  have hN : t.val < 25 := lt_of_lt_of_eq t.isLt (show cfg2.N = 25 from N_2)
  by_cases h0 : t.val = 0
  · -- the first point
    have hc0 : cond2_0 (grid2.coords t) := (hcond2_0 t).mpr h0
    have hc1 : ¬cond2_1 (grid2.coords t) := fun h => by have := (hcond2_1 t).mp h; omega
    rw [Dat.leavesExact_idle (dat2 V c) 5 t (idleAt2_5 t hc1) (noFlush2_5 t hc1), acc2_first V c t h0, Phi2_zero V c _ _ h0]
    iintro ⟨HP, Ho, ⟨%d0, H0⟩, ⟨%d1, H1⟩, ⟨%d2, H2⟩, ⟨%d3, H3⟩, ⟨%d4, H4⟩, ⟨%d5, H5⟩⟩
    ihave ⟨HR, HS⟩ := (PhiA2_open (F := F) c) $$ HP
    iapply (sound_kernel2_first c Set.univ (grid2.coords t) hc0 hc1 _ _ _ _ _ _ _ _ _ _ _ _ _ _ (iblk2 V c 0 t) (iblk2 V c 1 t) (iblk2 V c 2 t) (iblk2 V c 3 t) (iblk2 V c 4 t) ((dat2 V c).before 5 t d5) _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HR HS]
    · isplitl [HR]; · iexact HR
      iexact HS
    isplitl [Ho]; · iexact Ho
    isplitl [H0]; · iexact H0
    isplitl [H1]; · iexact H1
    isplitl [H2]; · iexact H2
    isplitl [H3]; · iexact H3
    isplitl [H4]; · iexact H4
    iexists d5; iexact H5
  · by_cases h1 : t.val = 24
    · -- the last point
      have hc0 : ¬cond2_0 (grid2.coords t) := fun h => h0 ((hcond2_0 t).mp h)
      have hc1 : cond2_1 (grid2.coords t) := (hcond2_1 t).mpr h1
      rw [show (dat2 V c).leavesExact 5 t = owns (c : Thread nD τ) (st2_5 t) fullShare ((dat2 V c).after 5 t) from by
        unfold Dat.leavesExact; rw [liveAt2_5 t hc1], after2_5, acc2_later V c t h0, Phi2_pos V c _ _ h0]
      iintro ⟨⟨HR, HS⟩, Ho, ⟨%d0, H0⟩, ⟨%d1, H1⟩, ⟨%d2, H2⟩, ⟨%d3, H3⟩, ⟨%d4, H4⟩, ⟨%d5, H5⟩⟩
      iapply (sound_kernel2_last c Set.univ (grid2.coords t) hc0 hc1 _ _ _ _ _ _ _ _ _ _ _ _ _ _ (iblk2 V c 0 t) (iblk2 V c 1 t) (iblk2 V c 2 t) (iblk2 V c 3 t) (iblk2 V c 4 t) (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HR HS]
      · isplitl [HR]; · iexact HR
        iexact HS
      isplitl [Ho]; · iexact Ho
      isplitl [H0]; · iexact H0
      isplitl [H1]; · iexact H1
      isplitl [H2]; · iexact H2
      isplitl [H3]; · iexact H3
      isplitl [H4]; · iexact H4
      iexact H5
    · -- a middle point
      have hc0 : ¬cond2_0 (grid2.coords t) := fun h => h0 ((hcond2_0 t).mp h)
      have hc1 : ¬cond2_1 (grid2.coords t) := fun h => h1 ((hcond2_1 t).mp h)
      rw [Dat.leavesExact_idle (dat2 V c) 5 t (idleAt2_5 t hc1) (noFlush2_5 t hc1), acc2_later V c t h0, Phi2_pos V c _ _ h0]
      iintro ⟨⟨HR, HS⟩, Ho, ⟨%d0, H0⟩, ⟨%d1, H1⟩, ⟨%d2, H2⟩, ⟨%d3, H3⟩, ⟨%d4, H4⟩, ⟨%d5, H5⟩⟩
      iapply (sound_kernel2_mid c Set.univ (grid2.coords t) hc0 hc1 _ _ _ _ _ _ _ _ _ _ _ _ _ _ (iblk2 V c 0 t) (iblk2 V c 1 t) (iblk2 V c 2 t) (iblk2 V c 3 t) (iblk2 V c 4 t) ((dat2 V c).before 5 t d5) (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HR HS]
      · isplitl [HR]; · iexact HR
        iexact HS
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region (the class's invariant) is the invariant before the first point. -/
theorem hin2 (c : Dev nD) : Pipeline.ΦA spec2 c ⊢ ((dat2 V c).Φ 0 : sProp 𝕄) := by
  rw [show (dat2 V c).Φ 0 = Phi2 V c 0 (Nat.zero_le _) from rfl, Phi2_zero V c 0 _ rfl]
  try exact Idealize.SL.BI.Entails.refl _

/-- After any point but the first the invariant gives the class's back: the scratch's named contents are forgotten. -/
theorem Phi2_out (c : Dev nD) (t : Fin (cfg2.N + 1)) (ht : t.val ≠ 0) : ((dat2 V c).Φ t : sProp 𝕄) ⊢ Pipeline.ΦA spec2 c := by
  rw [show (dat2 V c).Φ t = Phi2 V c t.val (Nat.le_of_lt_succ t.isLt) from rfl, Phi2_pos V c _ _ ht]
  iintro ⟨HR, HS⟩
  iapply (PhiA2_close (F := F) c)
  isplitl [HR]; · iexact HR
  iexists _; iexact HS

/-- The same after the last point. -/
theorem hout2 (c : Dev nD) : ((dat2 V c).Φ (Fin.last cfg2.N) : sProp 𝕄) ⊢ Pipeline.ΦA spec2 c :=
  Phi2_out V c _ (by rw [Fin.val_last]; have : cfg2.N = 25 := N_2; omega)

end Cert.KernelIdeal.Fr

end
-- ==== Proof.KI.Run.lean ====
import proofs.«419793_j38981123178585_3_alg».proof.Proof.KI.Reg0
import proofs.«419793_j38981123178585_3_alg».proof.Proof.KI.Reg1
import proofs.«419793_j38981123178585_3_alg».proof.Proof.KI.Reg2
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Lib.Ring
import Idealize.ShloMosaic.Lib.Tactic

/-! # The run of @main: seven segments from the launch to the return

@main is a stretch of host operations, the first layer's kernel region, a second stretch, the second layer's region, a
third stretch, the pooling region, and a last stretch. Each TensorCore's buffer contents are followed through the seven as
a fold from the launch memory: a host stretch takes contents `W` to `StableHlo.after ops W`; a region takes `W` to `W`
with the region's arrays replaced by what its pipeline leaves in them (the inputs as entered, each output with its
write-backs folded in) and every other buffer untouched. The thread state between two segments is "every unscoped buffer
whole at the boundary's contents, the generator register at some state, nothing owed"; a region splits its arrays out of
that state at entry and puts them back at exit.

The result `run_all`: every weakly fair execution of @main terminates without fault, and in every final state each
unscoped TensorCore buffer holds the last contents of the fold, `W7`. The seven arguments, which no segment writes, are
read back through the fold to their launch contents (`W7_main_argK`). -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The class-A regions' proof data: the class invariant, full shares, nothing owed -/

section
variable (V : (c : Dev nD) → (b : Ref sig .tc) → Buf (Elt F) ((c : Thread nD τ).loc b))
/-- Region 0's invariant is the class's at every point; its proof data hold every input array at the full share and owe
    nothing at any point. -/
theorem Phi0 (c : Dev nD) (t : Fin (cfg0.N + 1)) : (dat0 V c).Φ t = Pipeline.ΦA spec0 c := rfl
theorem q0 (c : Dev nD) (w : Fin cfg0.W) : (dat0 V c).q w = fullShare := rfl
theorem owed0 (c : Dev nD) (t : Fin (cfg0.N + 1)) (g : GSem nD τ sig) : (dat0 V c).owed t g = 0 := rfl
/-- Region 1's invariant is the class's at every point; its proof data hold every input array at the full share and owe
    nothing at any point. -/
theorem Phi1 (c : Dev nD) (t : Fin (cfg1.N + 1)) : (dat1 V c).Φ t = Pipeline.ΦA spec1 c := rfl
theorem q1 (c : Dev nD) (w : Fin cfg1.W) : (dat1 V c).q w = fullShare := rfl
theorem owed1 (c : Dev nD) (t : Fin (cfg1.N + 1)) (g : GSem nD τ sig) : (dat1 V c).owed t g = 0 := rfl
end

/-! ## What the host stretches write

Each stretch writes exactly the buffers of its operations' results; a reference outside that list keeps its contents
across the stretch. -/

/-- No operation of `hostOps0` allocates a buffer. -/
theorem hostOps0_fresh : (hostOps0 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
/-- No operation of `hostOps3` allocates a buffer. -/
theorem hostOps3_fresh : (hostOps3 : List (HloOp τ sig (Elt F))).Forall fun op => op.fresh = ∅ := by
  simp only [List.Forall]; repeat' constructor

/-- The references `hostOps0`'s operations write. -/
abbrev hostOps0_W : List (Ref sig .tc) := [main_v0, main_v1, main_v2, main_v3, main_cst, main_v4, main_cst_0, main_v5, main_v6, main_v7, main_cst_1, main_v8, main_v9, main_v10, main_v11, main_v12, main_v13]
/-- The references `hostOps1`'s operations write. -/
abbrev hostOps1_W : List (Ref sig .tc) := [main_c, main_v15, main_v16, main_c_2, main_v17, main_v18, main_v19, main_v20, main_v21, main_cst_3, main_v22, main_v23, main_v24]
/-- The references `hostOps2`'s operations write. -/
abbrev hostOps2_W : List (Ref sig .tc) := [main_c_4, main_v26, main_v27, main_c_5, main_v28, main_v29, main_v30, main_v31, main_v32, main_cst_6, main_v33, main_v34, main_v35, main_v36]
/-- The references `hostOps3`'s operations write. -/
abbrev hostOps3_W : List (Ref sig .tc) := [main_cst_7, main_v38, main_cst_8, main_v39, main_v40, main_v41, main_cst_9, main_v42, main_v43, main_v44, main_v45, main_v46]

theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-! ## The buffer contents at each segment boundary: a fold through @main -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
/-- A reference `hostOps0` does not write keeps its contents. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- The same read at the TensorCore's references (what region 0's proof data take). -/
abbrev V1 : (c : Dev nD) → (b : Ref sig .tc) → Buf (Elt F) ((c : Thread nD τ).loc b) := fun c b => W1 m ρ c b

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it held
    at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- The same read at the TensorCore's references (what region 1's proof data take). -/
abbrev V3 : (c : Dev nD) → (b : Ref sig .tc) → Buf (Elt F) ((c : Thread nD τ).loc b) := fun c b => W3 m ρ c b

/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it held
    at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
/-- The same read at the TensorCore's references (what region 2's proof data take). -/
abbrev V5 : (c : Dev nD) → (b : Ref sig .tc) → Buf (Elt F) ((c : Thread nD τ).loc b) := fun c b => W5 m ρ c b

/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it held
    at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (the return). -/
abbrev W7 : Dev nD → Valuation τ sig (Elt F) := fun c => StableHlo.after hostOps3 (W6 m ρ c)
/-- A reference `hostOps3` does not write keeps its contents. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

/-! ### The arguments end as launched

No host operation writes an argument, and a region either reads it through an input window (whose array the pipeline
leaves as entered) or bypasses it; so the fold at an argument's buffer walks back to the launch memory. -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_of m ρ c main_arg1 (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := (W4_arr m ρ c 4).trans (((dat1 (V3 m ρ) c).arrAt_in 4 rfl _).trans (A_eq1 (V3 m ρ) c 4))
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of m ρ c main_arg5 (by decide)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to those
    references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W7`, the generator
    register at some state. -/
abbrev Tₙ (c : Dev nD) : sProp 𝕄 := iprop(StableHlo.held (c : Thread nD τ) (Pipeline.ucRefs τ sig) (W7 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 over the thread state: entered from every unscoped buffer at `W1`, left at `W2` (what the next
    stretch is entered from). Its arrays are split out of the unscoped buffers at entry and put back at the exit
    contents; the generator register goes into the region invariant and comes back; nothing is owed; the
    kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => funext fun g => owed0 (V1 m ρ) c t g
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    have hO : ∀ t, (pdats m ρ 0 c).owed t = 0 := fun t => funext fun g => owed0 (V1 m ρ) c t g
    have hrec : (pdats m ρ 0 c).recorded 0 = Set.univ := rec0 (V1 m ρ) c 0
    rw [Pipeline.ownSems0_none]
    unfold Pipeline.Dat.owesAt Pipeline.owesWithin Pipeline.Dat.bound
    rw [hO, hrec]
    have hsplit := Pipeline.arrays_of_unscopedBufs (p := 0) (pcfgs (F := F)) adm (pdats m ρ) launch0.win launch0.arr_whole c
      ((pdats m ρ 0 c).share_full fun w => q0 (V1 m ρ) c w) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from Phi0 (V1 m ρ) c 0]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from Phi0 (V1 m ρ) c _]; unfold Pipeline.ΦA
    iintro ⟨Hr, Hp⟩
    isplitl [Hp]; · iexact Hp
    isplitr; · iempintro
    iexact Hr
  hexit c := by
    have hO : ∀ t, (pdats m ρ 0 c).owed t = 0 := fun t => funext fun g => owed0 (V1 m ρ) c t g
    unfold Pipeline.Dat.owesAt Pipeline.owesWithin
    rw [hO]
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => q0 (V1 m ρ) c w)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 over the thread state: entered from every unscoped buffer at `W3`, left at `W4` (what the next
    stretch is entered from). Its arrays are split out of the unscoped buffers at entry and put back at the exit
    contents; the generator register goes into the region invariant and comes back; nothing is owed; the
    kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun c t => funext fun g => owed1 (V3 m ρ) c t g
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    have hO : ∀ t, (pdats m ρ 1 c).owed t = 0 := fun t => funext fun g => owed1 (V3 m ρ) c t g
    have hrec : (pdats m ρ 1 c).recorded 0 = Set.univ := rec1 (V3 m ρ) c 0
    rw [Pipeline.ownSems0_none]
    unfold Pipeline.Dat.owesAt Pipeline.owesWithin Pipeline.Dat.bound
    rw [hO, hrec]
    have hsplit := Pipeline.arrays_of_unscopedBufs (p := 1) (pcfgs (F := F)) adm (pdats m ρ) launch1.win launch1.arr_whole c
      ((pdats m ρ 1 c).share_full fun w => q1 (V3 m ρ) c w) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from Phi1 (V3 m ρ) c 0]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from Phi1 (V3 m ρ) c _]; unfold Pipeline.ΦA
    iintro ⟨Hr, Hp⟩
    isplitl [Hp]; · iexact Hp
    isplitr; · iempintro
    iexact Hr
  hexit c := by
    have hO : ∀ t, (pdats m ρ 1 c).owed t = 0 := fun t => funext fun g => owed1 (V3 m ρ) c t g
    unfold Pipeline.Dat.owesAt Pipeline.owesWithin
    rw [hO]
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q1 (V3 m ρ) c w)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 over the thread state: entered from every unscoped buffer at `W5`, left at `W6` (what the next
    stretch is entered from). Its arrays are split out of the unscoped buffers at entry and put back at the exit
    contents; the generator register goes into the region invariant and comes back (the invariant at the first and the last point is the class's, by `hin2` and `hout2`; in between it carries the accumulator); nothing is owed; the
    kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun c t => funext fun g => owed2 (V5 m ρ) c t g
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    have hO : ∀ t, (pdats m ρ 2 c).owed t = 0 := fun t => funext fun g => owed2 (V5 m ρ) c t g
    have hrec : (pdats m ρ 2 c).recorded 0 = Set.univ := rec2 (V5 m ρ) c 0
    rw [Pipeline.ownSems0_none]
    unfold Pipeline.Dat.owesAt Pipeline.owesWithin Pipeline.Dat.bound
    rw [hO, hrec]
    have hsplit := Pipeline.arrays_of_unscopedBufs (p := 2) (pcfgs (F := F)) adm (pdats m ρ) launch2.win launch2.arr_whole c
      ((pdats m ρ 2 c).share_full fun w => q2 (V5 m ρ) c w) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitl [Hp]; · iexact Hp
    iexact Hrest
  hin c := by
    refine BIBase.Entails.trans ?_ (hin2 (V5 m ρ) c)
    unfold Pipeline.ΦA
    iintro ⟨Hp, -, Hr⟩
    isplitl [Hr]; · iexact Hr
    iexact Hp
  hout c := by
    refine BIBase.Entails.trans (hout2 (V5 m ρ) c) ?_
    rw [Pipeline.ownSems0_none]; unfold Pipeline.ΦA
    iintro ⟨Hr, Hp⟩
    isplitl [Hp]; · iexact Hp
    isplitr; · iempintro
    iexact Hr
  hexit c := by
    have hO : ∀ t, (pdats m ρ 2 c).owed t = 0 := fun t => funext fun g => owed2 (V5 m ρ) c t g
    unfold Pipeline.Dat.owesAt Pipeline.owesWithin
    rw [hO]
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun w => q2 (V5 m ρ) c w)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

/-! ## @main as segments, and the launch -/

/-- @main's 7 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main IS the run of the segments. -/
theorem main_run (c : Dev nD) : main (F := F) c = Pipeline.Seg.run (segs m ρ) :=
  main_segs adm (pdats m ρ) () 𝒱₀ L lv _ _ _ _ (reg0 m ρ) (reg1 m ρ) (reg2 m ρ) rfl rfl rfl rfl c

-- the launch theorem's implicit arguments are found by unifying its conclusion with this one, which takes unfolding
-- plain definitions in a metavariable's type
set_option backward.isDefEq.respectTransparency.types false in
/-- Every weakly fair execution of @main terminates, nothing faulting, and every final state holds every unscoped
    TensorCore buffer at the last contents of the fold: the launch over the seven segments, the last thread state read
    against the final state. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c =>
      show iprop(StableHlo.held (c : Thread nD τ) (Pipeline.ucRefs τ sig) (W7 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h => h)

/-- info: 'Cert.KernelIdeal.Fr.run_all' depends on axioms: [propext, Classical.choice, Quot.sound] -/
#guard_msgs in #print axioms run_all

end Cert.KernelIdeal.Fr

end
-- ==== Proof.KI.Val0.lean ====
import proofs.«419793_j38981123178585_3_alg».proof.Proof.KI.Reg0
import Idealize.ShloMosaic.Lib.Pipeline.Value
import Idealize.ShloMosaic.Lib.ValueIdx
import Idealize.ShloMosaic.Lib.ValueLayout
import Idealize.ShloMosaic.PureOps.Ideal.Laws

/-! # What region 0 leaves in its two output arrays, index by index, at the ideal instance

Region 0 walks the 100000 rows of the node features in 25 blocks of 4000. At point `t` its body forms, of rows
`4000 t … 4000 t + 3999`, the product of the feature block (4000 × 2) with the whole first-layer weight (2 × 64), scales row
`p` of the product by the degree normalisation of that row (a 4000 × 1 column broadcast along the 64 columns), and writes
the result to block `t` of the first output; the second output is the first scaled by the same column once more. The format
changes inside the product are the identity on the extended reals and the accumulator is the zero splat, so at row `n`,
column `f`:

  first output  = (∑ k : Fin 2, X n k · W k f) · d n
  second output = ((∑ k : Fin 2, X n k · W k f) · d n) · d n

with `X`, `W`, `d` the three arrays as the region finds them. The 25 blocks tile the 100000 rows (row `r` is in block
`r / 4000`), so the arrays end holding exactly these functions. -/

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

/-! ## The body's matrix product at an index -/

theorem lhs_mm0_0 (i : S4000x64.Idx) (q : dot_S4000x2_S2x64_S4000x64_1_0_0_1_n_n.contr.Idx) :
    (dot_S4000x2_S2x64_S4000x64_1_0_0_1_n_n.lhsIdx i q 0).val = (i 0).val := by
  unfold DotDims.lhsIdx
  rw [dif_neg (show ¬(0 : Fin S4000x2.rank) ∈ dot_S4000x2_S2x64_S4000x64_1_0_0_1_n_n.lhsBatch by decide), dif_pos (show (0 : Fin S4000x2.rank) ∈ dot_S4000x2_S2x64_S4000x64_1_0_0_1_n_n.lhsNonContracting by decide)]
  rfl
theorem lhs_mm0_1 (i : S4000x64.Idx) (q : dot_S4000x2_S2x64_S4000x64_1_0_0_1_n_n.contr.Idx) :
    (dot_S4000x2_S2x64_S4000x64_1_0_0_1_n_n.lhsIdx i q 1).val = (q ⟨0, by decide⟩).val :=
  dot_S4000x2_S2x64_S4000x64_1_0_0_1_n_n.lhsIdx_val_of_single rfl i q
theorem rhs_mm0_0 (i : S4000x64.Idx) (q : dot_S4000x2_S2x64_S4000x64_1_0_0_1_n_n.contr.Idx) :
    (dot_S4000x2_S2x64_S4000x64_1_0_0_1_n_n.rhsIdx i q 0).val = (q ⟨0, by decide⟩).val :=
  dot_S4000x2_S2x64_S4000x64_1_0_0_1_n_n.rhsIdx_val_of_single rfl i q
theorem rhs_mm0_1 (i : S4000x64.Idx) (q : dot_S4000x2_S2x64_S4000x64_1_0_0_1_n_n.contr.Idx) :
    (dot_S4000x2_S2x64_S4000x64_1_0_0_1_n_n.rhsIdx i q 1).val = (i 1).val := by
  unfold DotDims.rhsIdx
  rw [dif_neg (show ¬(1 : Fin S2x64.rank) ∈ dot_S4000x2_S2x64_S4000x64_1_0_0_1_n_n.rhsBatch by decide), dif_pos (show (1 : Fin S2x64.rank) ∈ dot_S4000x2_S2x64_S4000x64_1_0_0_1_n_n.rhsNonContracting by decide)]
  rfl

/-- The product of a 4000 × 2 block with the 2 × 64 weight, into a zero accumulator, at `(p, q)`: the sum over the two
    contracted positions. -/
theorem matmul0_apply {φ₁ φ₂ : FTy} (a : FVec Ideal S4000x2 φ₁) (b : FVec Ideal S2x64 φ₂) (p : Fin 4000) (q : Fin 64) :
    FloatOps.matmul dot_S4000x2_S2x64_S4000x64_1_0_0_1_n_n none a b (constant (F := Ideal) S4000x64 .f32 0x00000000#32) (ix2 p q)
      = ∑ k : Fin 2, a (ix2 p k) * b (ix2 k q) := by
  rw [Ideal.matmul_constant_zero_apply, ← Equiv.sum_comp (contrEquiv1 dot_S4000x2_S2x64_S4000x64_1_0_0_1_n_n 2 rfl rfl).symm]
  refine Finset.sum_congr rfl fun k _ => ?_
  have hk := contrEquiv1_symm_val dot_S4000x2_S2x64_S4000x64_1_0_0_1_n_n 2 rfl rfl k
  have el : dot_S4000x2_S2x64_S4000x64_1_0_0_1_n_n.lhsIdx (ix2 p q) ((contrEquiv1 dot_S4000x2_S2x64_S4000x64_1_0_0_1_n_n 2 rfl rfl).symm k) = ix2 p k := funext fun ax => Fin.ext (by
    match ax with
    | ⟨0, _⟩ => exact lhs_mm0_0 _ _
    | ⟨1, _⟩ => exact (lhs_mm0_1 _ _).trans hk)
  have er : dot_S4000x2_S2x64_S4000x64_1_0_0_1_n_n.rhsIdx (ix2 p q) ((contrEquiv1 dot_S4000x2_S2x64_S4000x64_1_0_0_1_n_n 2 rfl rfl).symm k) = ix2 k q := funext fun ax => Fin.ext (by
    match ax with
    | ⟨0, _⟩ => exact (rhs_mm0_0 _ _).trans hk
    | ⟨1, _⟩ => exact rhs_mm0_1 _ _)
  rw [el, er]

/-! ## The column broadcast at an index -/

/-- A 4000 × 1 column broadcast along 64 columns reads, at `(p, q)`, the column at row `p`. -/
theorem bcast_col0_apply {α : Type} (x : S4000x1.Idx → α) (p : Fin 4000) (q : Fin 64) :
    broadcastTo S4000x64 x broadcasts_S4000x1_S4000x64 (ix2 p q) = x (ix2 p (0 : Fin 1)) := by
  refine broadcastTo_apply x broadcasts_S4000x1_S4000x64 (ix2 p q) (ix2 p (0 : Fin 1)) fun ax => ?_
  match ax with
  | ⟨0, _⟩ => rfl
  | ⟨1, _⟩ => rfl

/-! ## The two payloads at an index -/

theorem pay0_1_eq (x2 : Vec Ideal S4000x1 .f32) : k0_pay1 x2 = x2 := by
  unfold k0_pay1
  exact shapeCast_self _ _

/-- What the body stores into the first output, at `(p, q)`: row `p` of the feature block times column `q` of the weight,
    scaled by the normalisation of row `p`. -/
theorem pay0_2_apply (x0 : Vec Ideal S4000x2 .f32) (x1 : Vec Ideal S2x64 .f32) (x2 : Vec Ideal S4000x1 .f32) (p : Fin 4000) (q : Fin 64) :
    k0_pay2 x0 x1 x2 (ix2 p q) = (∑ k : Fin 2, x0 (ix2 p k) * x1 (ix2 k q)) * x2 (ix2 p (0 : Fin 1)) := by
  unfold k0_pay2
  rw [pay0_1_eq]
  refine (mulf_apply _ _ _).trans ?_
  rw [bcast_col0_apply]
  refine congrArg (· * x2 (ix2 p (0 : Fin 1))) ?_
  exact matmul0_apply _ _ p q

/-- What it stores into the second output: the first output's entry scaled once more. -/
theorem pay0_3_apply (x0 : Vec Ideal S4000x2 .f32) (x1 : Vec Ideal S2x64 .f32) (x2 : Vec Ideal S4000x1 .f32) (p : Fin 4000) (q : Fin 64) :
    k0_pay3 x0 x1 x2 (ix2 p q) = ((∑ k : Fin 2, x0 (ix2 p k) * x1 (ix2 k q)) * x2 (ix2 p (0 : Fin 1))) * x2 (ix2 p (0 : Fin 1)) := by
  unfold k0_pay3
  rw [pay0_1_eq]
  refine (mulf_apply _ _ _).trans ?_
  rw [bcast_col0_apply, pay0_2_apply]

/-! ## The specification: each output array as one function of the three arrays the region reads -/

/-- The first output at `(n, f)`: row `n` of the features times column `f` of the weight, scaled by row `n`'s normalisation. -/
abbrev G0_3 (a0 : S100000x2.Idx → Elt Ideal .f32) (a1 : S2x64.Idx → Elt Ideal .f32) (a2 : S100000x1.Idx → Elt Ideal .f32) :
    S100000x64.Idx → Elt Ideal .f32 :=
  fun i => (∑ k : Fin 2, a0 (ix2 (i 0) k) * a1 (ix2 k (i 1))) * a2 (ix2 (i 0) (0 : Fin 1))

/-- The second output: the first, scaled by the same normalisation once more. -/
abbrev G0_4 (a0 : S100000x2.Idx → Elt Ideal .f32) (a1 : S2x64.Idx → Elt Ideal .f32) (a2 : S100000x1.Idx → Elt Ideal .f32) :
    S100000x64.Idx → Elt Ideal .f32 :=
  fun i => ((∑ k : Fin 2, a0 (ix2 (i 0) k) * a1 (ix2 k (i 1))) * a2 (ix2 (i 0) (0 : Fin 1))) * a2 (ix2 (i 0) (0 : Fin 1))

/-! ## The index maps over the grid -/

theorem hz0 : (![0, 0] : Fin 2 → Nat) = fun _ => 0 := funext fun a => by fin_cases a <;> rfl

/-- At point `t` the row-blocked windows (features, normalisation, both outputs) are at block `(t, 0)`, the weight's at
    `(0, 0)`: decided over the 25 points. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-! ## The arrays the region reads and the blocks the body loads, named at their literal types

The entries are extended reals; naming each array and block at its literal vector type is what lets the arithmetic on the
entries be written (the element type of a window is otherwise a term that only reduces to `f32`). -/

/-- The node features as the region finds them, 100000 × 2. -/
abbrev X0 (c : Dev nD) : Vec Ideal S100000x2 .f32 := V c main_arg0
/-- The first-layer weight, 2 × 64. -/
abbrev Wt1 (c : Dev nD) : Vec Ideal S2x64 .f32 := V c main_arg1
/-- The degree normalisation, a 100000 × 1 column. -/
abbrev D11 (c : Dev nD) : Vec Ideal S100000x1 .f32 := V c main_v11
/-- The feature block at point `t`. -/
abbrev xb0_0 (c : Dev nD) (t : Fin cfg0.N) : Vec Ideal S4000x2 .f32 := Fr.iblk0 V c 0 t
/-- The weight's block at point `t`. -/
abbrev xb0_1 (c : Dev nD) (t : Fin cfg0.N) : Vec Ideal S2x64 .f32 := Fr.iblk0 V c 1 t
/-- The normalisation block at point `t`. -/
abbrev xb0_2 (c : Dev nD) (t : Fin cfg0.N) : Vec Ideal S4000x1 .f32 := Fr.iblk0 V c 2 t

/-! ## The input blocks as rows of their arrays -/

/-- The feature block at point `t` is rows `4000 t …` of the feature array. -/
theorem iblk0_0_apply (c : Dev nD) (t : Fin cfg0.N) (x : S4000x2.Idx) (k : S100000x2.Idx)
    (hk0 : (k 0).val = t.val * 4000 + (x 0).val) (hk1 : (k 1).val = (x 1).val) :
    xb0_0 V c t x = X0 V c k := by
  obtain ⟨e0, e1, -⟩ := idx_facts0 t
  show Fr.iblk0 V c 0 t x = _
  unfold Fr.iblk0
  rw [View.read_apply]
  show V c main_arg0 _ = V c main_arg0 _
  refine congrArg (V c main_arg0) (funext fun a => Fin.ext ?_)
  match a with
  | ⟨0, _⟩ => show win0_0.index t (0 : Fin 2) * 4000 + 1 * (x 0).val = (k 0).val; rw [e0, hk0]; omega
  | ⟨1, _⟩ => show win0_0.index t (1 : Fin 2) * 2 + 1 * (x 1).val = (k 1).val; rw [e1, hk1]; omega

/-- The weight's block at every point is the whole weight. -/
theorem iblk0_1_apply (c : Dev nD) (t : Fin cfg0.N) (x : S2x64.Idx) :
    xb0_1 V c t x = Wt1 V c x := by
  obtain ⟨-, -, e0, e1, -⟩ := idx_facts0 t
  show Fr.iblk0 V c 1 t x = _
  unfold Fr.iblk0
  rw [View.read_apply]
  show V c main_arg1 _ = V c main_arg1 _
  refine congrArg (V c main_arg1) (funext fun a => Fin.ext ?_)
  match a with
  | ⟨0, _⟩ => show win0_1.index t (0 : Fin 2) * 2 + 1 * (x 0).val = (x 0).val; rw [e0]; omega
  | ⟨1, _⟩ => show win0_1.index t (1 : Fin 2) * 64 + 1 * (x 1).val = (x 1).val; rw [e1]; omega

/-- The normalisation block at point `t` is rows `4000 t …` of the normalisation column. -/
theorem iblk0_2_apply (c : Dev nD) (t : Fin cfg0.N) (x : S4000x1.Idx) (k : S100000x1.Idx)
    (hk0 : (k 0).val = t.val * 4000 + (x 0).val) (hk1 : (k 1).val = (x 1).val) :
    xb0_2 V c t x = D11 V c k := by
  obtain ⟨-, -, -, -, e0, e1, -⟩ := idx_facts0 t
  show Fr.iblk0 V c 2 t x = _
  unfold Fr.iblk0
  rw [View.read_apply]
  show V c main_v11 _ = V c main_v11 _
  refine congrArg (V c main_v11) (funext fun a => Fin.ext ?_)
  match a with
  | ⟨0, _⟩ => show win0_2.index t (0 : Fin 2) * 4000 + 1 * (x 0).val = (k 0).val; rw [e0, hk0]; omega
  | ⟨1, _⟩ => show win0_2.index t (1 : Fin 2) * 1 + 1 * (x 1).val = (k 1).val; rw [e1, hk1]; omega

/-! ## What point `t` writes back is block `t` of the specification -/

theorem row0_lt (t : Fin cfg0.N) (p : Fin 4000) : t.val * 4000 + p.val < 100000 := by
  have ht : t.val < 25 := lt_of_lt_of_eq t.isLt N_0
  have hp := p.isLt
  omega

/-- The three blocks' entries that the payload reads at `(p, q)`, as entries of the arrays at row `4000 t + p`. -/
theorem sum_blocks0 (c : Dev nD) (t : Fin cfg0.N) (p : Fin 4000) (q : Fin 64) :
    (∑ k : Fin 2, xb0_0 V c t (ix2 p k) * xb0_1 V c t (ix2 k q))
      = ∑ k : Fin 2, X0 V c (ix2 (⟨t.val * 4000 + p.val, row0_lt t p⟩ : Fin 100000) k) * Wt1 V c (ix2 k q) :=
  Finset.sum_congr rfl fun k _ => by
    rw [iblk0_0_apply V c t (ix2 p k) (ix2 (⟨t.val * 4000 + p.val, row0_lt t p⟩ : Fin 100000) k) rfl rfl, iblk0_1_apply V c t (ix2 k q)]

theorem norm_block0 (c : Dev nD) (t : Fin cfg0.N) (p : Fin 4000) :
    xb0_2 V c t (ix2 p (0 : Fin 1)) = D11 V c (ix2 (⟨t.val * 4000 + p.val, row0_lt t p⟩ : Fin 100000) (0 : Fin 1)) :=
  iblk0_2_apply V c t (ix2 p (0 : Fin 1)) (ix2 (⟨t.val * 4000 + p.val, row0_lt t p⟩ : Fin 100000) (0 : Fin 1)) rfl rfl

/-- An entry `(p, q)` of output block `t` sits in the array at row `4000 t + p`, column `q`. -/
theorem emb0_3 (t : Fin cfg0.N) (p : Fin 4000) (q : Fin 64) :
    ((cfg0.win 3).blk t).view.emb (ix2 p q) = (ix2 (⟨t.val * 4000 + p.val, row0_lt t p⟩ : Fin 100000) q : S100000x64.Idx) := by
  obtain ⟨-, -, -, -, -, -, e0, e1, -⟩ := idx_facts0 t
  refine funext fun a => Fin.ext ?_
  match a with
  | ⟨0, _⟩ => show win0_3.index t (0 : Fin 2) * 4000 + 1 * p.val = t.val * 4000 + p.val; rw [e0]; omega
  | ⟨1, _⟩ => show win0_3.index t (1 : Fin 2) * 64 + 1 * q.val = q.val; rw [e1]; omega

theorem emb0_4 (t : Fin cfg0.N) (p : Fin 4000) (q : Fin 64) :
    ((cfg0.win 4).blk t).view.emb (ix2 p q) = (ix2 (⟨t.val * 4000 + p.val, row0_lt t p⟩ : Fin 100000) q : S100000x64.Idx) := by
  obtain ⟨-, -, -, -, -, -, -, -, e0, e1⟩ := idx_facts0 t
  refine funext fun a => Fin.ext ?_
  match a with
  | ⟨0, _⟩ => show win0_4.index t (0 : Fin 2) * 4000 + 1 * p.val = t.val * 4000 + p.val; rw [e0]; omega
  | ⟨1, _⟩ => show win0_4.index t (1 : Fin 2) * 64 + 1 * q.val = q.val; rw [e1]; omega

/-- The first payload of the blocks at `t`, at an entry of the block, is the specification at that entry's place in the array. -/
theorem block0_3 (c : Dev nD) (t : Fin cfg0.N) (j : S4000x64.Idx) :
    k0_pay2 (xb0_0 V c t) (xb0_1 V c t) (xb0_2 V c t) j
      = G0_3 (X0 V c) (Wt1 V c) (D11 V c) (((cfg0.win 3).blk t).view.emb j) := by
  obtain ⟨p, q, rfl⟩ : ∃ (p : Fin 4000) (q : Fin 64), j = ix2 p q := ⟨j 0, j 1, eq_ix2 j⟩
  refine (pay0_2_apply (xb0_0 V c t) (xb0_1 V c t) (xb0_2 V c t) p q).trans ?_
  rw [emb0_3 t p q, sum_blocks0 V c t p q, norm_block0 V c t p]

theorem block0_4 (c : Dev nD) (t : Fin cfg0.N) (j : S4000x64.Idx) :
    k0_pay3 (xb0_0 V c t) (xb0_1 V c t) (xb0_2 V c t) j
      = G0_4 (X0 V c) (Wt1 V c) (D11 V c) (((cfg0.win 4).blk t).view.emb j) := by
  obtain ⟨p, q, rfl⟩ : ∃ (p : Fin 4000) (q : Fin 64), j = ix2 p q := ⟨j 0, j 1, eq_ix2 j⟩
  refine (pay0_3_apply (xb0_0 V c t) (xb0_1 V c t) (xb0_2 V c t) p q).trans ?_
  rw [emb0_4 t p q, sum_blocks0 V c t p q, norm_block0 V c t p]

/-- What point `t` writes back to the first output is block `t` of `G0_3` of the arrays as the region finds them. -/
theorem flushed0_3_eq (c : Dev nD) (t : Fin cfg0.N) :
    (Fr.dat0 (F := Ideal) V c).flushed 3 t
      = ((cfg0.win 3).blk t).view.read (Elt Ideal) (G0_3 (X0 V c) (Wt1 V c) (D11 V c)) := by
  show (cfg0.win 3).cut (grid0.coords t) ((Fr.dat0 (F := Ideal) V c).after 3 t) = _
  rw [Fr.after0_3]
  unfold Fr.out0_3
  rw [View.canon_unit_zero hz0]
  simp only [View.ld_unit_zero (S := S4000x2) hz0, View.ld_unit_zero (S := S2x64) hz0, View.ld_unit_zero (S := S4000x1) hz0]
  funext j
  exact block0_3 V c t j

theorem flushed0_4_eq (c : Dev nD) (t : Fin cfg0.N) :
    (Fr.dat0 (F := Ideal) V c).flushed 4 t
      = ((cfg0.win 4).blk t).view.read (Elt Ideal) (G0_4 (X0 V c) (Wt1 V c) (D11 V c)) := by
  show (cfg0.win 4).cut (grid0.coords t) ((Fr.dat0 (F := Ideal) V c).after 4 t) = _
  rw [Fr.after0_4]
  unfold Fr.out0_4
  rw [View.canon_unit_zero hz0]
  simp only [View.ld_unit_zero (S := S4000x2) hz0, View.ld_unit_zero (S := S2x64) hz0, View.ld_unit_zero (S := S4000x1) hz0]
  funext j
  exact block0_4 V c t j

/-! ## The blocks tile the arrays -/

/-- An index of the array is in point `t`'s block iff each coordinate is in the block's range on its axis. -/
theorem mem_blk0_3 (t : Fin cfg0.N) (i : S100000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v14_0).slice (win0_3.rect t)).set ↔ _
  rw [View.set_slice_whole, Rect.mem_set_unit]
  exact Iff.rfl

theorem mem_blk0_4 (t : Fin cfg0.N) (i : S100000x64.Idx) :
    i ∈ ((cfg0.win 4).blk t).view.set ↔ ∀ a : Fin 2, win0_4.index t a * S4000x64.size a ≤ (i a).val ∧ (i a).val < win0_4.index t a * S4000x64.size a + S4000x64.size a := by
  show i ∈ ((View.whole main_v14_1).slice (win0_4.rect t)).set ↔ _
  rw [View.set_slice_whole, Rect.mem_set_unit]
  exact Iff.rfl

/-- The point whose block holds row `r`: `r / 4000`. -/
def ptOf0 (r : Fin 100000) : Fin cfg0.N := ⟨r.val / 4000, by rw [show cfg0.N = 25 from N_0]; have := r.isLt; omega⟩

/-- Every index of the first output is in the block of the point `row / 4000`, which writes back. -/
theorem cover0_3 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨-, -, -, -, -, -, e0, e1, -⟩ := idx_facts0 (ptOf0 (i 0))
  refine ⟨ptOf0 (i 0), flush0_3 _, ?_⟩
  rw [mem_blk0_3]
  intro a
  match a with
  | ⟨0, _⟩ =>
    show win0_3.index (ptOf0 (i 0)) (0 : Fin 2) * 4000 ≤ (i 0).val ∧ (i 0).val < win0_3.index (ptOf0 (i 0)) (0 : Fin 2) * 4000 + 4000
    rw [e0]; show (i 0).val / 4000 * 4000 ≤ (i 0).val ∧ (i 0).val < (i 0).val / 4000 * 4000 + 4000; omega
  | ⟨1, _⟩ =>
    show win0_3.index (ptOf0 (i 0)) (1 : Fin 2) * 64 ≤ (i 1).val ∧ (i 1).val < win0_3.index (ptOf0 (i 0)) (1 : Fin 2) * 64 + 64
    rw [e1]; omega

theorem cover0_4 (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  obtain ⟨-, -, -, -, -, -, -, -, e0, e1⟩ := idx_facts0 (ptOf0 (i 0))
  refine ⟨ptOf0 (i 0), flush0_4 _, ?_⟩
  rw [mem_blk0_4]
  intro a
  match a with
  | ⟨0, _⟩ =>
    show win0_4.index (ptOf0 (i 0)) (0 : Fin 2) * 4000 ≤ (i 0).val ∧ (i 0).val < win0_4.index (ptOf0 (i 0)) (0 : Fin 2) * 4000 + 4000
    rw [e0]; show (i 0).val / 4000 * 4000 ≤ (i 0).val ∧ (i 0).val < (i 0).val / 4000 * 4000 + 4000; omega
  | ⟨1, _⟩ =>
    show win0_4.index (ptOf0 (i 0)) (1 : Fin 2) * 64 ≤ (i 1).val ∧ (i 1).val < win0_4.index (ptOf0 (i 0)) (1 : Fin 2) * 64 + 64
    rw [e1]; omega

/-! ## The arrays after the region -/

/-- The first output array after the region's 25 write-backs is `G0_3` of the arrays the region reads. -/
theorem arr0_3 (c : Dev nD) :
    (Fr.dat0 (F := Ideal) V c).arrAt 3 cfg0.N = G0_3 (X0 V c) (Wt1 V c) (D11 V c) :=
  (Fr.dat0 (F := Ideal) V c).arrAt_eq_of_cover 3 (G0_3 (X0 V c) (Wt1 V c) (D11 V c)) (fun t _ => flushed0_3_eq V c t) cover0_3

/-- The second output array after the region is `G0_4` of them. -/
theorem arr0_4 (c : Dev nD) :
    (Fr.dat0 (F := Ideal) V c).arrAt 4 cfg0.N = G0_4 (X0 V c) (Wt1 V c) (D11 V c) :=
  (Fr.dat0 (F := Ideal) V c).arrAt_eq_of_cover 4 (G0_4 (X0 V c) (Wt1 V c) (D11 V c)) (fun t _ => flushed0_4_eq V c t) cover0_4

/-- The first output at row `n`, column `f`. -/
theorem arrAt0_3 (c : Dev nD) (n : Fin 100000) (f : Fin 64) :
    (Fr.dat0 (F := Ideal) V c).arrAt 3 cfg0.N (ix2 n f)
      = (∑ k : Fin 2, X0 V c (ix2 n k) * Wt1 V c (ix2 k f)) * D11 V c (ix2 n 0) :=
  congrFun (arr0_3 V c) (ix2 n f)

/-- The second output at row `n`, column `f`. -/
theorem arrAt0_4 (c : Dev nD) (n : Fin 100000) (f : Fin 64) :
    (Fr.dat0 (F := Ideal) V c).arrAt 4 cfg0.N (ix2 n f)
      = ((∑ k : Fin 2, X0 V c (ix2 n k) * Wt1 V c (ix2 k f)) * D11 V c (ix2 n 0)) * D11 V c (ix2 n 0) :=
  congrFun (arr0_4 V c) (ix2 n f)

end Cert.KernelIdeal.Val

end
-- ==== Proof.KI.Val1.lean ====
/- What region 1 (the second layer) leaves in its two output arrays, at the ideal values, index by index. With
   `h n f = max (dis n · agg n f + self n f + b f) 0` the relu of the first layer's output, output 0 at `(n, g)` is
   `(∑ f, h n f · W f g) · dis n` and output 1 is that times `dis n` once more. Each grid point `t` computes rows
   `4000 t … 4000 t + 3999` from the same rows of the three row-blocked inputs and the whole bias and weight; the 25
   blocks tile the 100000 rows. -/
import proofs.«419793_j38981123178585_3_alg».proof.Proof.KI.Reg1
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

theorem hz : (![0, 0] : Fin 2 → Nat) = fun _ => 0 := funext fun a => by fin_cases a <;> rfl

/-! ## The payload at an index -/

/-- A column [4000,1] broadcast along 64 lanes reads, at (p, f), the column at row p. -/
theorem bcast_col64 (v : FVec Ideal S4000x1 .f32) (p : Fin 4000) (f : Fin 64) :
    broadcastTo S4000x64 v broadcasts_S4000x1_S4000x64 (ix2 p f) = v (ix2 p (0 : Fin 1)) :=
  broadcastTo_apply v broadcasts_S4000x1_S4000x64 (ix2 p f) (ix2 p (0 : Fin 1)) fun a => by
    match a with
    | ⟨0, _⟩ => rfl
    | ⟨1, _⟩ => rfl

/-- The same column broadcast along 32 lanes. -/
theorem bcast_col32 (v : FVec Ideal S4000x1 .f32) (p : Fin 4000) (g : Fin 32) :
    broadcastTo S4000x32 v broadcasts_S4000x1_S4000x32 (ix2 p g) = v (ix2 p (0 : Fin 1)) :=
  broadcastTo_apply v broadcasts_S4000x1_S4000x32 (ix2 p g) (ix2 p (0 : Fin 1)) fun a => by
    match a with
    | ⟨0, _⟩ => rfl
    | ⟨1, _⟩ => rfl

/-- The bias row [1,64] broadcast over 4000 rows reads, at (p, f), the row at lane f. -/
theorem bcast_row64 (v : FVec Ideal S1x64 .f32) (p : Fin 4000) (f : Fin 64) :
    broadcastTo S4000x64 v broadcasts_S1x64_S4000x64 (ix2 p f) = v (ix2 (0 : Fin 1) f) :=
  broadcastTo_1b_ab_apply v broadcasts_S1x64_S4000x64 p f

/-! The product's operand indices, axis by axis: output (p, g) and contraction index k read the left operand at
    (p, k) and the right operand at (k, g). -/

theorem lhs_mm_0 (i : S4000x32.Idx) (q : dot_S4000x64_S64x32_S4000x32_1_0_0_1_n_n.contr.Idx) :
    (dot_S4000x64_S64x32_S4000x32_1_0_0_1_n_n.lhsIdx i q 0).val = (i 0).val := by
  unfold DotDims.lhsIdx
  rw [dif_neg (show ¬(0 : Fin S4000x64.rank) ∈ dot_S4000x64_S64x32_S4000x32_1_0_0_1_n_n.lhsBatch by decide), dif_pos (show (0 : Fin S4000x64.rank) ∈ dot_S4000x64_S64x32_S4000x32_1_0_0_1_n_n.lhsNonContracting by decide)]
  rfl
theorem lhs_mm_1 (i : S4000x32.Idx) (q : dot_S4000x64_S64x32_S4000x32_1_0_0_1_n_n.contr.Idx) :
    (dot_S4000x64_S64x32_S4000x32_1_0_0_1_n_n.lhsIdx i q 1).val = (q ⟨0, by decide⟩).val :=
  dot_S4000x64_S64x32_S4000x32_1_0_0_1_n_n.lhsIdx_val_of_single rfl i q
theorem rhs_mm_0 (i : S4000x32.Idx) (q : dot_S4000x64_S64x32_S4000x32_1_0_0_1_n_n.contr.Idx) :
    (dot_S4000x64_S64x32_S4000x32_1_0_0_1_n_n.rhsIdx i q 0).val = (q ⟨0, by decide⟩).val :=
  dot_S4000x64_S64x32_S4000x32_1_0_0_1_n_n.rhsIdx_val_of_single rfl i q
theorem rhs_mm_1 (i : S4000x32.Idx) (q : dot_S4000x64_S64x32_S4000x32_1_0_0_1_n_n.contr.Idx) :
    (dot_S4000x64_S64x32_S4000x32_1_0_0_1_n_n.rhsIdx i q 1).val = (i 1).val := by
  unfold DotDims.rhsIdx
  rw [dif_neg (show ¬(1 : Fin S64x32.rank) ∈ dot_S4000x64_S64x32_S4000x32_1_0_0_1_n_n.rhsBatch by decide), dif_pos (show (1 : Fin S64x32.rank) ∈ dot_S4000x64_S64x32_S4000x32_1_0_0_1_n_n.rhsNonContracting by decide)]
  rfl

/-- The block product into the zero accumulator, read at (p, g): the sum over the 64 hidden features of the
    operands' products. -/
theorem matmul_at (a : FVec Ideal S4000x64 .bf16) (b : FVec Ideal S64x32 .bf16) (p : Fin 4000) (g : Fin 32) :
    matmul dot_S4000x64_S64x32_S4000x32_1_0_0_1_n_n none a b (constant (F := Ideal) S4000x32 .f32 0x00000000#32) (ix2 p g)
      = ∑ f : Fin 64, a (ix2 p f) * b (ix2 f g) := by
  simp only [matmul]
  rw [Ideal.matmul_constant_zero_apply, ← Equiv.sum_comp (contrEquiv1 dot_S4000x64_S64x32_S4000x32_1_0_0_1_n_n 64 rfl rfl).symm]
  refine Finset.sum_congr rfl fun k _ => ?_
  have hk := contrEquiv1_symm_val dot_S4000x64_S64x32_S4000x32_1_0_0_1_n_n 64 rfl rfl k
  have el : dot_S4000x64_S64x32_S4000x32_1_0_0_1_n_n.lhsIdx (ix2 p g) ((contrEquiv1 dot_S4000x64_S64x32_S4000x32_1_0_0_1_n_n 64 rfl rfl).symm k) = ix2 p k := funext fun a => Fin.ext (by
    match a with
    | ⟨0, _⟩ => exact lhs_mm_0 _ _
    | ⟨1, _⟩ => exact (lhs_mm_1 _ _).trans hk)
  have er : dot_S4000x64_S64x32_S4000x32_1_0_0_1_n_n.rhsIdx (ix2 p g) ((contrEquiv1 dot_S4000x64_S64x32_S4000x32_1_0_0_1_n_n 64 rfl rfl).symm k) = ix2 k g := funext fun a => Fin.ext (by
    match a with
    | ⟨0, _⟩ => exact (rhs_mm_0 _ _).trans hk
    | ⟨1, _⟩ => exact rhs_mm_1 _ _)
  rw [el, er]

/-- The first output's payload at (p, g): the relu of the first layer's row p, times the second weight's column g,
    summed over the hidden features, scaled by the row's degree factor. -/
theorem pay2_apply (v0 : Vec Ideal S4000x1 .f32) (v2 v6 : Vec Ideal S4000x64 .f32) (v9 : Vec Ideal S1x64 .f32) (v16 : Vec Ideal S64x32 .f32)
    (p : Fin 4000) (g : Fin 32) :
    k1_pay2 v0 v2 v6 v9 v16 (ix2 p g)
      = (∑ f : Fin 64, max (v0 (ix2 p (0 : Fin 1)) * v2 (ix2 p f) + v6 (ix2 p f) + v9 (ix2 (0 : Fin 1) f)) 0 * v16 (ix2 f g)) * v0 (ix2 p (0 : Fin 1)) := by
  unfold k1_pay2 k1_pay1
  simp only [shapeCast_self]
  refine (mulf_apply _ _ _).trans ?_
  refine congrArg₂ (· * ·) ?_ (bcast_col32 v0 p g)
  refine (matmul_at _ _ p g).trans ?_
  refine Finset.sum_congr rfl fun f _ => ?_
  refine congrArg₂ (· * ·) ?_ rfl
  show max (broadcastTo S4000x64 v0 broadcasts_S4000x1_S4000x64 (ix2 p f) * v2 (ix2 p f) + v6 (ix2 p f) + broadcastTo S4000x64 v9 broadcasts_S1x64_S4000x64 (ix2 p f)) (Ideal.ofBits .f32 0x00000000#32) = _
  rw [bcast_col64, bcast_row64, Ideal.ofBits_zero_f32]

/-- The second output's payload at (p, g): the first's, scaled by the degree factor once more. -/
theorem pay3_apply (v0 : Vec Ideal S4000x1 .f32) (v2 v6 : Vec Ideal S4000x64 .f32) (v9 : Vec Ideal S1x64 .f32) (v16 : Vec Ideal S64x32 .f32)
    (p : Fin 4000) (g : Fin 32) :
    k1_pay3 v0 v2 v6 v9 v16 (ix2 p g)
      = ((∑ f : Fin 64, max (v0 (ix2 p (0 : Fin 1)) * v2 (ix2 p f) + v6 (ix2 p f) + v9 (ix2 (0 : Fin 1) f)) 0 * v16 (ix2 f g)) * v0 (ix2 p (0 : Fin 1))) * v0 (ix2 p (0 : Fin 1)) := by
  unfold k1_pay3 k1_pay1
  simp only [shapeCast_self]
  refine (mulf_apply _ _ _).trans ?_
  exact congrArg₂ (· * ·) (pay2_apply v0 v2 v6 v9 v16 p g) (bcast_col32 v0 p g)

/-! ## The output arrays as functions of the region-entry contents -/

variable (V : (c : Dev nD) → (b : Ref sig .tc) → Buf (Elt Ideal) ((c : Thread nD τ).loc b))

/-- The arrays the region reads, as it finds them, each at its literal type: the degree scale [100000,1], the
    aggregated and the self features [100000,64], the bias [1,64], the second weight [64,32]. -/
abbrev arrDis (c : Dev nD) : S100000x1.Idx → EReal := V c main_v11
abbrev arrAgg (c : Dev nD) : S100000x64.Idx → EReal := V c main_v24
abbrev arrSelf (c : Dev nD) : S100000x64.Idx → EReal := V c main_v14_1
abbrev arrBias (c : Dev nD) : S1x64.Idx → EReal := V c main_v12
abbrev arrWgt (c : Dev nD) : S64x32.Idx → EReal := V c main_arg3

/-- Output 0 at row `n`, column `g`. -/
def row5 (c : Dev nD) (n : Fin 100000) (g : Fin 32) : EReal :=
  (∑ f : Fin 64, max (arrDis V c (ix2 n 0) * arrAgg V c (ix2 n f) + arrSelf V c (ix2 n f) + arrBias V c (ix2 0 f)) 0 * arrWgt V c (ix2 f g)) * arrDis V c (ix2 n 0)

/-- Output 1 at row `n`, column `g`: output 0 scaled by the degree factor once more. -/
def row6 (c : Dev nD) (n : Fin 100000) (g : Fin 32) : EReal :=
  ((∑ f : Fin 64, max (arrDis V c (ix2 n 0) * arrAgg V c (ix2 n f) + arrSelf V c (ix2 n f) + arrBias V c (ix2 0 f)) 0 * arrWgt V c (ix2 f g)) * arrDis V c (ix2 n 0)) * arrDis V c (ix2 n 0)

/-- Output 0 as one function of the array index. -/
def G5 (c : Dev nD) : S100000x32.Idx → EReal := fun i => row5 V c ⟨(i 0).val, (i 0).isLt⟩ ⟨(i 1).val, (i 1).isLt⟩
/-- Output 1 as one function of the array index. -/
def G6 (c : Dev nD) : S100000x32.Idx → EReal := fun i => row6 V c ⟨(i 0).val, (i 0).isLt⟩ ⟨(i 1).val, (i 1).isLt⟩

theorem G5_at (c : Dev nD) (i : S100000x32.Idx) (n : Fin 100000) (g : Fin 32) (h0 : (i 0).val = n.val) (h1 : (i 1).val = g.val) :
    G5 V c i = row5 V c n g := by
  unfold G5
  rw [show (⟨(i 0).val, (i 0).isLt⟩ : Fin 100000) = n from Fin.ext h0, show (⟨(i 1).val, (i 1).isLt⟩ : Fin 32) = g from Fin.ext h1]
theorem G6_at (c : Dev nD) (i : S100000x32.Idx) (n : Fin 100000) (g : Fin 32) (h0 : (i 0).val = n.val) (h1 : (i 1).val = g.val) :
    G6 V c i = row6 V c n g := by
  unfold G6
  rw [show (⟨(i 0).val, (i 0).isLt⟩ : Fin 100000) = n from Fin.ext h0, show (⟨(i 1).val, (i 1).isLt⟩ : Fin 32) = g from Fin.ext h1]

/-! ## The windows' blocks as rows of the arrays -/

/-- The printed index maps, decided over the 25 grid points: the three row-blocked inputs and the two outputs are
    on block row `t`, the bias and the weight stay on their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Row `p` of the aggregated features' block at point `t` is row `4000 t + p` of the array. -/
theorem read_agg (c : Dev nD) (t : Fin cfg1.N) (p : Fin 4000) (f : Fin 64) (n : Fin 100000) (hn : n.val = t.val * 4000 + p.val) :
    (Fr.iblk1 V c 0 t : Vec Ideal S4000x64 .f32) (ix2 p f) = arrAgg V c (ix2 n f) := by
  have e := idx_facts1 t
  unfold Fr.iblk1
  rw [View.read_apply]
  show V c main_v24 _ = V c main_v24 _
  congr 1
  funext a
  apply Fin.ext
  match a with
  | ⟨0, _⟩ => show win1_0.index t (0 : Fin 2) * 4000 + 1 * p.val = n.val; rw [hn]; omega
  | ⟨1, _⟩ => show win1_0.index t (1 : Fin 2) * 64 + 1 * f.val = f.val; omega

/-- Row `p` of the self features' block at point `t` is row `4000 t + p` of the array. -/
theorem read_self (c : Dev nD) (t : Fin cfg1.N) (p : Fin 4000) (f : Fin 64) (n : Fin 100000) (hn : n.val = t.val * 4000 + p.val) :
    (Fr.iblk1 V c 1 t : Vec Ideal S4000x64 .f32) (ix2 p f) = arrSelf V c (ix2 n f) := by
  have e := idx_facts1 t
  unfold Fr.iblk1
  rw [View.read_apply]
  show V c main_v14_1 _ = V c main_v14_1 _
  congr 1
  funext a
  apply Fin.ext
  match a with
  | ⟨0, _⟩ => show win1_1.index t (0 : Fin 2) * 4000 + 1 * p.val = n.val; rw [hn]; omega
  | ⟨1, _⟩ => show win1_1.index t (1 : Fin 2) * 64 + 1 * f.val = f.val; omega

/-- Row `p` of the degree scale's block at point `t` is row `4000 t + p` of the array. -/
theorem read_dis (c : Dev nD) (t : Fin cfg1.N) (p : Fin 4000) (f : Fin 1) (n : Fin 100000) (hn : n.val = t.val * 4000 + p.val) :
    (Fr.iblk1 V c 2 t : Vec Ideal S4000x1 .f32) (ix2 p f) = arrDis V c (ix2 n f) := by
  have e := idx_facts1 t
  unfold Fr.iblk1
  rw [View.read_apply]
  show V c main_v11 _ = V c main_v11 _
  congr 1
  funext a
  apply Fin.ext
  match a with
  | ⟨0, _⟩ => show win1_2.index t (0 : Fin 2) * 4000 + 1 * p.val = n.val; rw [hn]; omega
  | ⟨1, _⟩ => show win1_2.index t (1 : Fin 2) * 1 + 1 * f.val = f.val; omega

/-- The bias window's block is the whole bias at every point. -/
theorem read_bias (c : Dev nD) (t : Fin cfg1.N) (a : Fin 1) (b : Fin 64) :
    (Fr.iblk1 V c 3 t : Vec Ideal S1x64 .f32) (ix2 a b) = arrBias V c (ix2 a b) := by
  have e := idx_facts1 t
  unfold Fr.iblk1
  rw [View.read_apply]
  show V c main_v12 _ = V c main_v12 _
  congr 1
  funext x
  apply Fin.ext
  match x with
  | ⟨0, _⟩ => show win1_3.index t (0 : Fin 2) * 1 + 1 * a.val = a.val; omega
  | ⟨1, _⟩ => show win1_3.index t (1 : Fin 2) * 64 + 1 * b.val = b.val; omega

/-- The weight window's block is the whole weight at every point. -/
theorem read_weight (c : Dev nD) (t : Fin cfg1.N) (a : Fin 64) (b : Fin 32) :
    (Fr.iblk1 V c 4 t : Vec Ideal S64x32 .f32) (ix2 a b) = arrWgt V c (ix2 a b) := by
  have e := idx_facts1 t
  unfold Fr.iblk1
  rw [View.read_apply]
  show V c main_arg3 _ = V c main_arg3 _
  congr 1
  funext x
  apply Fin.ext
  match x with
  | ⟨0, _⟩ => show win1_4.index t (0 : Fin 2) * 64 + 1 * a.val = a.val; omega
  | ⟨1, _⟩ => show win1_4.index t (1 : Fin 2) * 32 + 1 * b.val = b.val; omega

/-! ## Output window 5 -/

/-- An index of the output array is in point `t`'s block iff each coordinate is in the block's range on its axis. -/
theorem mem_blk5 (t : Fin cfg1.N) (i : S100000x32.Idx) :
    i ∈ ((cfg1.win 5).blk t).view.set ↔ ∀ a : Fin 2, win1_5.index t a * S4000x32.size a ≤ (i a).val ∧ (i a).val < win1_5.index t a * S4000x32.size a + S4000x32.size a := by
  show i ∈ ((View.whole main_v25_0).slice (win1_5.rect t)).set ↔ _
  rw [View.set_slice_whole, Rect.mem_set_unit]
  exact Iff.rfl

/-- What point `t` writes back to window 5's array is block `t` of `G5`: rows `4000 t … 4000 t + 3999`, each from
    the same rows of the degree scale, the aggregated and the self features, and from the whole bias and weight. -/
theorem flushed5_eq (c : Dev nD) (t : Fin cfg1.N) :
    (Fr.dat1 V c).flushed 5 t = ((cfg1.win 5).blk t).view.read (Elt Ideal) (G5 V c) := by
  show (cfg1.win 5).cut (grid1.coords t) ((Fr.dat1 V c).after 5 t) = _
  rw [Fr.after1_5]
  unfold Fr.out1_5
  rw [View.canon_unit_zero hz]
  simp only [View.ld_unit_zero (S := S4000x64) hz, View.ld_unit_zero (S := S4000x1) hz, View.ld_unit_zero (S := S1x64) hz, View.ld_unit_zero (S := S64x32) hz]
  funext j
  obtain ⟨p, g, rfl⟩ : ∃ (p : Fin 4000) (g : Fin 32), j = ix2 p g := ⟨j 0, j 1, eq_ix2 j⟩
  have e := idx_facts1 t
  have hN : cfg1.N = 25 := N_1
  have ht : t.val < 25 := hN ▸ t.isLt
  have hp : p.val < 4000 := p.isLt
  refine (pay2_apply (Fr.iblk1 V c 2 t) (Fr.iblk1 V c 0 t) (Fr.iblk1 V c 1 t) (Fr.iblk1 V c 3 t) (Fr.iblk1 V c 4 t) p g).trans ?_
  refine Eq.trans ?_ (G5_at V c (((cfg1.win 5).blk t).view.emb (ix2 p g)) ⟨t.val * 4000 + p.val, by omega⟩ g ?_ ?_).symm
  · unfold row5
    simp only [read_dis V c t p 0 ⟨t.val * 4000 + p.val, by omega⟩ rfl, read_agg V c t p _ ⟨t.val * 4000 + p.val, by omega⟩ rfl,
      read_self V c t p _ ⟨t.val * 4000 + p.val, by omega⟩ rfl, read_bias V c t, read_weight V c t]
  · show win1_5.index t (0 : Fin 2) * 4000 + 1 * p.val = t.val * 4000 + p.val; omega
  · show win1_5.index t (1 : Fin 2) * 32 + 1 * g.val = g.val; omega

/-- Every row of the output array is in the block of the point `row / 4000`. -/
theorem cover5 (i : S100000x32.Idx) : ∃ t : Fin cfg1.N, (cfg1.win 5).flush t = true ∧ i ∈ ((cfg1.win 5).blk t).view.set := by
  have hN : cfg1.N = 25 := N_1
  have hi0 : (i 0).val < 100000 := (i 0).isLt
  have hi1 : (i 1).val < 32 := (i 1).isLt
  obtain ⟨t, ht⟩ : ∃ t : Fin cfg1.N, t.val = (i 0).val / 4000 := ⟨⟨(i 0).val / 4000, by rw [hN]; omega⟩, rfl⟩
  have e := idx_facts1 t
  refine ⟨t, flush1_5 t, ?_⟩
  rw [mem_blk5]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 32 ≤ (i 1).val ∧ (i 1).val < win1_5.index t (1 : Fin 2) * 32 + 32; omega

/-- So window 5's array ends holding `G5`: the 25 blocks tile its 100000 rows. -/
theorem final5 (c : Dev nD) : (Fr.dat1 V c).arrAt 5 cfg1.N = G5 V c :=
  (Fr.dat1 V c).arrAt_eq_of_cover 5 (G5 V c) (fun t _ => flushed5_eq V c t) cover5

/-! ## Output window 6 -/

/-- An index of the output array is in point `t`'s block iff each coordinate is in the block's range on its axis. -/
theorem mem_blk6 (t : Fin cfg1.N) (i : S100000x32.Idx) :
    i ∈ ((cfg1.win 6).blk t).view.set ↔ ∀ a : Fin 2, win1_6.index t a * S4000x32.size a ≤ (i a).val ∧ (i a).val < win1_6.index t a * S4000x32.size a + S4000x32.size a := by
  show i ∈ ((View.whole main_v25_1).slice (win1_6.rect t)).set ↔ _
  rw [View.set_slice_whole, Rect.mem_set_unit]
  exact Iff.rfl

/-- What point `t` writes back to window 6's array is block `t` of `G6`: rows `4000 t … 4000 t + 3999`, each from
    the same rows of the degree scale, the aggregated and the self features, and from the whole bias and weight. -/
theorem flushed6_eq (c : Dev nD) (t : Fin cfg1.N) :
    (Fr.dat1 V c).flushed 6 t = ((cfg1.win 6).blk t).view.read (Elt Ideal) (G6 V c) := by
  show (cfg1.win 6).cut (grid1.coords t) ((Fr.dat1 V c).after 6 t) = _
  rw [Fr.after1_6]
  unfold Fr.out1_6
  rw [View.canon_unit_zero hz]
  simp only [View.ld_unit_zero (S := S4000x64) hz, View.ld_unit_zero (S := S4000x1) hz, View.ld_unit_zero (S := S1x64) hz, View.ld_unit_zero (S := S64x32) hz]
  funext j
  obtain ⟨p, g, rfl⟩ : ∃ (p : Fin 4000) (g : Fin 32), j = ix2 p g := ⟨j 0, j 1, eq_ix2 j⟩
  have e := idx_facts1 t
  have hN : cfg1.N = 25 := N_1
  have ht : t.val < 25 := hN ▸ t.isLt
  have hp : p.val < 4000 := p.isLt
  refine (pay3_apply (Fr.iblk1 V c 2 t) (Fr.iblk1 V c 0 t) (Fr.iblk1 V c 1 t) (Fr.iblk1 V c 3 t) (Fr.iblk1 V c 4 t) p g).trans ?_
  refine Eq.trans ?_ (G6_at V c (((cfg1.win 6).blk t).view.emb (ix2 p g)) ⟨t.val * 4000 + p.val, by omega⟩ g ?_ ?_).symm
  · unfold row6
    simp only [read_dis V c t p 0 ⟨t.val * 4000 + p.val, by omega⟩ rfl, read_agg V c t p _ ⟨t.val * 4000 + p.val, by omega⟩ rfl,
      read_self V c t p _ ⟨t.val * 4000 + p.val, by omega⟩ rfl, read_bias V c t, read_weight V c t]
  · show win1_6.index t (0 : Fin 2) * 4000 + 1 * p.val = t.val * 4000 + p.val; omega
  · show win1_6.index t (1 : Fin 2) * 32 + 1 * g.val = g.val; omega

/-- Every row of the output array is in the block of the point `row / 4000`. -/
theorem cover6 (i : S100000x32.Idx) : ∃ t : Fin cfg1.N, (cfg1.win 6).flush t = true ∧ i ∈ ((cfg1.win 6).blk t).view.set := by
  have hN : cfg1.N = 25 := N_1
  have hi0 : (i 0).val < 100000 := (i 0).isLt
  have hi1 : (i 1).val < 32 := (i 1).isLt
  obtain ⟨t, ht⟩ : ∃ t : Fin cfg1.N, t.val = (i 0).val / 4000 := ⟨⟨(i 0).val / 4000, by rw [hN]; omega⟩, rfl⟩
  have e := idx_facts1 t
  refine ⟨t, flush1_6 t, ?_⟩
  rw [mem_blk6]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 32 ≤ (i 1).val ∧ (i 1).val < win1_6.index t (1 : Fin 2) * 32 + 32; omega

/-- So window 6's array ends holding `G6`: the 25 blocks tile its 100000 rows. -/
theorem final6 (c : Dev nD) : (Fr.dat1 V c).arrAt 6 cfg1.N = G6 V c :=
  (Fr.dat1 V c).arrAt_eq_of_cover 6 (G6 V c) (fun t _ => flushed6_eq V c t) cover6

/-! ## The arrays after the region, index by index -/

theorem arrAt1_5 (c : Dev nD) (n : Fin 100000) (g : Fin 32) :
    (Fr.dat1 (F := Ideal) V c).arrAt 5 cfg1.N (ix2 n g)
      = (∑ f : Fin 64, max (arrDis V c (ix2 n 0) * arrAgg V c (ix2 n f) + arrSelf V c (ix2 n f) + arrBias V c (ix2 0 f)) 0 * arrWgt V c (ix2 f g)) * arrDis V c (ix2 n 0) := by
  rw [final5]
  exact G5_at V c (ix2 n g) n g rfl rfl

theorem arrAt1_6 (c : Dev nD) (n : Fin 100000) (g : Fin 32) :
    (Fr.dat1 (F := Ideal) V c).arrAt 6 cfg1.N (ix2 n g)
      = ((∑ f : Fin 64, max (arrDis V c (ix2 n 0) * arrAgg V c (ix2 n f) + arrSelf V c (ix2 n f) + arrBias V c (ix2 0 f)) 0 * arrWgt V c (ix2 f g)) * arrDis V c (ix2 n 0)) * arrDis V c (ix2 n 0) := by
  rw [final6]
  exact G6_at V c (ix2 n g) n g rfl rfl

end Cert.KernelIdeal.Val

end
-- ==== Proof.Spec.lean ====
/-
  The mathematics of the certificate, stated apart from both programs: a two-layer graph convolution with
  symmetric degree normalisation and self-loops, followed by a mean pool over graph ids, on the extended reals.

  Nodes are `Fin 100000`, edges `Fin 1600000`, graphs `Fin 64`. An edge carries two 32-bit index words. A word
  LANDS on a node when, read as a signed integer, it is that node's number (a scatter drops every other word);
  a row gather reads the node `gnode w`: the word with a negative value wrapped by the node count, then clamped
  into range. `outK` is the arrangement that scales each node's features by its own `deg^(-1/2)` once, sums the
  scaled rows over the incoming edges and scales the sum by the target's `deg^(-1/2)`, the self-loop added as a
  dense term; `outR` is the arrangement that lists the self-loops as extra edges `1600000 + n ↦ (n, n)` and
  weights every message by the product of the two endpoints' `deg^(-1/2)`.
-/
import Idealize.ShloMosaic.PureOps.Ideal
import Idealize.ShloMosaic.Lib.ValueIdx

noncomputable section

open scoped BigOperators

namespace Gcn

open Idealize.ShloMosaic Finset

/-- The index word `w`, read signed, is the number of `n`. -/
def lands {N : Nat} (w : BitVec 32) (n : Fin N) : Prop := w.toInt = (n.val : Int)

instance {N : Nat} (w : BitVec 32) (n : Fin N) : Decidable (lands w n) := by unfold lands; infer_instance

/-- A negative index word wrapped by the node count. -/
def wrap (w : BitVec 32) : BitVec 32 := Scalar.select (Scalar.cmpi .slt w 0#32) (w + 100000#32) w

/-- The node a row gather reads for the index word `w`: wrapped, read signed, clamped into `[0, 99999]`. -/
def gnode (w : BitVec 32) : Fin 100000 := ⟨min (wrap w).toInt.toNat 99999, by omega⟩

/-- The one-hot entry of graph `g` for the graph-id word `w`. -/
def oh (w : BitVec 32) (g : Fin 64) : EReal := if w = BitVec.ofNat 32 g.val then 1 else 0

section Forms

variable (x : Fin 100000 → Fin 2 → EReal) (w1 : Fin 2 → Fin 64 → EReal) (b1 : Fin 64 → EReal)
  (w2 : Fin 64 → Fin 32 → EReal) (b2 : Fin 32 → EReal)
  (sw dw : Fin 1600000 → BitVec 32) (bt : Fin 100000 → BitVec 32)

/-! ### The factored arrangement -/

/-- In-degree over the listed edges, plus one for the self-loop. -/
def degK (n : Fin 100000) : EReal := (0 + ∑ e ∈ univ.filter (fun e => lands (dw e) n), (1 : EReal)) + 1
def disK (n : Fin 100000) : EReal := Ideal.rsqrt (degK dw n)
def lin1 (n : Fin 100000) (f : Fin 64) : EReal := ∑ k : Fin 2, x n k * w1 k f
def scK1 (n : Fin 100000) (f : Fin 64) : EReal := lin1 x w1 n f * disK dw n
def sfK1 (n : Fin 100000) (f : Fin 64) : EReal := scK1 x w1 dw n f * disK dw n
def agK1 (n : Fin 100000) (f : Fin 64) : EReal :=
  0 + ∑ e ∈ univ.filter (fun e => lands (dw e) n), scK1 x w1 dw (gnode (sw e)) f
def hK (n : Fin 100000) (f : Fin 64) : EReal :=
  max (disK dw n * agK1 x w1 sw dw n f + sfK1 x w1 dw n f + b1 f) 0
def lin2K (n : Fin 100000) (g : Fin 32) : EReal := ∑ f : Fin 64, hK x w1 b1 sw dw n f * w2 f g
def scK2 (n : Fin 100000) (g : Fin 32) : EReal := lin2K x w1 b1 w2 sw dw n g * disK dw n
def sfK2 (n : Fin 100000) (g : Fin 32) : EReal := scK2 x w1 b1 w2 sw dw n g * disK dw n
def agK2 (n : Fin 100000) (g : Fin 32) : EReal :=
  0 + ∑ e ∈ univ.filter (fun e => lands (dw e) n), scK2 x w1 b1 w2 sw dw (gnode (sw e)) g
def zK (n : Fin 100000) (g : Fin 32) : EReal :=
  disK dw n * agK2 x w1 b1 w2 sw dw n g + sfK2 x w1 b1 w2 sw dw n g + b2 g
def sumsK (g : Fin 64) (d : Fin 32) : EReal := ∑ n : Fin 100000, oh (bt n) g * zK x w1 b1 w2 b2 sw dw n d
/-- Nodes per graph. -/
def cnt (g : Fin 64) : EReal := 0 + ∑ n ∈ univ.filter (fun n => lands (bt n) g), (1 : EReal)
def outK (g : Fin 64) (d : Fin 32) : EReal := Ideal.div (sumsK x w1 b1 w2 b2 sw dw bt g d) (max (cnt bt g) 1)

/-! ### The arrangement with the self-loops listed as edges -/

/-- The source word of the extended edge list: the listed edges, then node `n` for the self-loop `1600000 + n`. -/
def swf (j : Fin 1700000) : BitVec 32 := if h : j.val < 1600000 then sw ⟨j.val, h⟩ else BitVec.ofNat 32 (j.val - 1600000)
def dwf (j : Fin 1700000) : BitVec 32 := if h : j.val < 1600000 then dw ⟨j.val, h⟩ else BitVec.ofNat 32 (j.val - 1600000)
def degR (n : Fin 100000) : EReal := 0 + ∑ j ∈ univ.filter (fun j => lands (dwf dw j) n), (1 : EReal)
def disR (n : Fin 100000) : EReal := if 0 < degR dw n then Ideal.rsqrt (degR dw n) else 0
def normR (j : Fin 1700000) : EReal := disR dw (gnode (swf sw j)) * disR dw (gnode (dwf dw j))
def o1R (n : Fin 100000) (f : Fin 64) : EReal :=
  (0 + ∑ j ∈ univ.filter (fun j => lands (dwf dw j) n), lin1 x w1 (gnode (swf sw j)) f * normR sw dw j) + b1 f
def hR (n : Fin 100000) (f : Fin 64) : EReal := max (o1R x w1 b1 sw dw n f) 0
def lin2R (n : Fin 100000) (g : Fin 32) : EReal := ∑ f : Fin 64, hR x w1 b1 sw dw n f * w2 f g
def zR (n : Fin 100000) (g : Fin 32) : EReal :=
  (0 + ∑ j ∈ univ.filter (fun j => lands (dwf dw j) n), lin2R x w1 b1 w2 sw dw (gnode (swf sw j)) g * normR sw dw j) + b2 g
def sumsR (g : Fin 64) (d : Fin 32) : EReal := 0 + ∑ n ∈ univ.filter (fun n => lands (bt n) g), zR x w1 b1 w2 b2 sw dw n d
def outR (g : Fin 64) (d : Fin 32) : EReal := Ideal.div (sumsR x w1 b1 w2 b2 sw dw bt g d) (max (cnt bt g) 1)

end Forms

end Gcn

end
-- ==== Proof.KI.Val2.lean ====
import proofs.«419793_j38981123178585_3_alg».proof.Proof.KI.Reg2
import proofs.«419793_j38981123178585_3_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Data.Fintype.BigOperators
import Mathlib.Logic.Equiv.Fin.Basic

/-! # What region 2 leaves in its output array, index by index, at the ideal instance

Region 2 is the mean pool's numerator. It walks the 100000 nodes in 25 blocks of 4000 rows and keeps a 64 × 32 scratch
across the points. At a point the body forms, row by row of the block, the pooled value
`z = norm · aggregated + self term + bias` (a 4000 × 32 block) and the one-hot matrix of the rows' graph ids
(4000 × 64: entry `(r, g)` is `1` when row `r`'s id word is `g`'s number, `0` otherwise), contracts both along the 4000
rows, and adds the 64 × 32 product onto the scratch; the first point starts from the zero scratch, the last one copies the
scratch to the output window, which is written back there, once, whole. So with `n` ranging over all the nodes,

  output g d = ∑ n, onehot (id n) g · (norm n · aggregated n d + self n d + bias d)

— the sum over the 25 blocks of the 4000-row block sums, which is the sum over the 100000 rows. -/

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

/-! ## The pooling product at an index: both operands contracted along their 4000 rows -/

theorem lhs_mm2_0 (i : S64x32.Idx) (q : dot_S4000x64_S4000x32_S64x32_0_0_1_1_n_n.contr.Idx) :
    (dot_S4000x64_S4000x32_S64x32_0_0_1_1_n_n.lhsIdx i q 0).val = (q ⟨0, by decide⟩).val :=
  dot_S4000x64_S4000x32_S64x32_0_0_1_1_n_n.lhsIdx_val_of_single rfl i q
theorem lhs_mm2_1 (i : S64x32.Idx) (q : dot_S4000x64_S4000x32_S64x32_0_0_1_1_n_n.contr.Idx) :
    (dot_S4000x64_S4000x32_S64x32_0_0_1_1_n_n.lhsIdx i q 1).val = (i 0).val := by
  unfold DotDims.lhsIdx
  rw [dif_neg (show ¬(1 : Fin S4000x64.rank) ∈ dot_S4000x64_S4000x32_S64x32_0_0_1_1_n_n.lhsBatch by decide), dif_pos (show (1 : Fin S4000x64.rank) ∈ dot_S4000x64_S4000x32_S64x32_0_0_1_1_n_n.lhsNonContracting by decide)]
  rfl
theorem rhs_mm2_0 (i : S64x32.Idx) (q : dot_S4000x64_S4000x32_S64x32_0_0_1_1_n_n.contr.Idx) :
    (dot_S4000x64_S4000x32_S64x32_0_0_1_1_n_n.rhsIdx i q 0).val = (q ⟨0, by decide⟩).val :=
  dot_S4000x64_S4000x32_S64x32_0_0_1_1_n_n.rhsIdx_val_of_single rfl i q
theorem rhs_mm2_1 (i : S64x32.Idx) (q : dot_S4000x64_S4000x32_S64x32_0_0_1_1_n_n.contr.Idx) :
    (dot_S4000x64_S4000x32_S64x32_0_0_1_1_n_n.rhsIdx i q 1).val = (i 1).val := by
  unfold DotDims.rhsIdx
  rw [dif_neg (show ¬(1 : Fin S4000x32.rank) ∈ dot_S4000x64_S4000x32_S64x32_0_0_1_1_n_n.rhsBatch by decide), dif_pos (show (1 : Fin S4000x32.rank) ∈ dot_S4000x64_S4000x32_S64x32_0_0_1_1_n_n.rhsNonContracting by decide)]
  rfl

/-- The product of the transposed 4000 × 64 one-hot block with the 4000 × 32 block, into a zero accumulator, at graph `g`,
    feature `d`: the sum over the block's 4000 rows. -/
theorem matmul2_apply {φ₁ φ₂ : FTy} (a : FVec Ideal S4000x64 φ₁) (b : FVec Ideal S4000x32 φ₂) (g : Fin 64) (d : Fin 32) :
    FloatOps.matmul dot_S4000x64_S4000x32_S64x32_0_0_1_1_n_n none a b (constant (F := Ideal) S64x32 .f32 0x00000000#32) (ix2 g d)
      = ∑ r : Fin 4000, a (ix2 r g) * b (ix2 r d) := by
  rw [Ideal.matmul_constant_zero_apply, ← Equiv.sum_comp (contrEquiv1 dot_S4000x64_S4000x32_S64x32_0_0_1_1_n_n 4000 rfl rfl).symm]
  refine Finset.sum_congr rfl fun k _ => ?_
  have hk := contrEquiv1_symm_val dot_S4000x64_S4000x32_S64x32_0_0_1_1_n_n 4000 rfl rfl k
  have el : dot_S4000x64_S4000x32_S64x32_0_0_1_1_n_n.lhsIdx (ix2 g d) ((contrEquiv1 dot_S4000x64_S4000x32_S64x32_0_0_1_1_n_n 4000 rfl rfl).symm k) = ix2 k g := funext fun ax => Fin.ext (by
    match ax with
    | ⟨0, _⟩ => exact (lhs_mm2_0 _ _).trans hk
    | ⟨1, _⟩ => exact lhs_mm2_1 _ _)
  have er : dot_S4000x64_S4000x32_S64x32_0_0_1_1_n_n.rhsIdx (ix2 g d) ((contrEquiv1 dot_S4000x64_S4000x32_S64x32_0_0_1_1_n_n 4000 rfl rfl).symm k) = ix2 k d := funext fun ax => Fin.ext (by
    match ax with
    | ⟨0, _⟩ => exact (rhs_mm2_0 _ _).trans hk
    | ⟨1, _⟩ => exact rhs_mm2_1 _ _)
  rw [el, er]

/-! ## The broadcasts at an index -/

/-- A 4000 × 1 column broadcast along 32 columns reads, at `(r, d)`, the column at row `r`. -/
theorem bcast2_col32 {α : Type} (x : S4000x1.Idx → α) (r : Fin 4000) (d : Fin 32) :
    broadcastTo S4000x32 x broadcasts_S4000x1_S4000x32 (ix2 r d) = x (ix2 r (0 : Fin 1)) := by
  refine broadcastTo_apply x broadcasts_S4000x1_S4000x32 (ix2 r d) (ix2 r (0 : Fin 1)) fun ax => ?_
  match ax with
  | ⟨0, _⟩ => rfl
  | ⟨1, _⟩ => rfl

/-- A 4000 × 1 column broadcast along 64 columns reads, at `(r, g)`, the column at row `r`. -/
theorem bcast2_col64 {α : Type} (x : S4000x1.Idx → α) (r : Fin 4000) (g : Fin 64) :
    broadcastTo S4000x64 x broadcasts_S4000x1_S4000x64 (ix2 r g) = x (ix2 r (0 : Fin 1)) := by
  refine broadcastTo_apply x broadcasts_S4000x1_S4000x64 (ix2 r g) (ix2 r (0 : Fin 1)) fun ax => ?_
  match ax with
  | ⟨0, _⟩ => rfl
  | ⟨1, _⟩ => rfl

/-! ## The one-hot entry -/

/-- A one-bit word widened to 32 bits and read signed is `1` or `0`. -/
theorem bit2_toInt (b : Bool) : (((BitVec.ofBool b).setWidth 32).toInt : ℤ) = if b then 1 else 0 := by
  cases b <;> decide

/-- Row `r`'s graph-id word compared with the column number, widened and converted: `1` when the word is graph `g`'s number,
    `0` otherwise. -/
theorem onehot2_apply (ids : IVec S4000x1 32) (r : Fin 4000) (g : Fin 64) :
    (sitofp (F := Ideal) .f32
        (extui 32 (cmpi .eq (broadcastTo S4000x64 ids broadcasts_S4000x1_S4000x64)
          (iota .tc S4000x64 32 [1] iota_S4000x64_d1_w32)) natLt_1_32) : FVec Ideal S4000x64 .f32) (ix2 r g)
      = Gcn.oh (ids (ix2 r (0 : Fin 1))) g := by
  show (((((BitVec.ofBool (broadcastTo S4000x64 ids broadcasts_S4000x1_S4000x64 (ix2 r g)
      == iota .tc S4000x64 32 [1] iota_S4000x64_d1_w32 (ix2 r g))).setWidth 32).toInt : ℤ) : ℝ) : EReal) = _
  rw [bcast2_col64, iota_single_apply, bit2_toInt]
  show _ = if ids (ix2 r (0 : Fin 1)) = BitVec.ofNat 32 g.val then (1 : EReal) else 0
  by_cases h : ids (ix2 r (0 : Fin 1)) = BitVec.ofNat 32 g.val
  · rw [if_pos h, show (ids (ix2 r (0 : Fin 1)) == BitVec.ofNat 32 ((ix2 r g : S4000x64.Idx) 1).val) = true from beq_iff_eq.mpr h]
    simp
  · rw [if_neg h, show (ids (ix2 r (0 : Fin 1)) == BitVec.ofNat 32 ((ix2 r g : S4000x64.Idx) 1).val) = false from beq_eq_false_iff_ne.mpr h]
    simp

/-! ## The two payloads at an index -/

/-- The reset value is zero everywhere. -/
theorem pay1_2_apply (i : S64x32.Idx) : k2_pay1 (F := Ideal) i = 0 := by
  unfold k2_pay1
  rw [shapeCast_self]
  show Ideal.ofBits .f32 0x00000000#32 = 0
  exact Ideal.ofBits_zero_f32

/-- What one point adds to the scratch at graph `g`, feature `d`: over the block's 4000 rows, the one-hot entry of the row's
    graph id times the row's pooled value `norm · aggregated + self term + bias`. -/
theorem pay2_2_apply (x2 : Vec Ideal S4000x1 .f32) (x0 x1 : Vec Ideal S4000x32 .f32) (x3 : Vec Ideal S1x32 .f32)
    (x4 : Vec Ideal S4000x1 .i32) (acc : Vec Ideal S64x32 .f32) (g : Fin 64) (d : Fin 32) :
    k2_pay2 x2 x0 x1 x3 x4 acc (ix2 g d)
      = acc (ix2 g d) + ∑ r : Fin 4000, Gcn.oh (x4 (ix2 r (0 : Fin 1))) g
          * (x2 (ix2 r (0 : Fin 1)) * x0 (ix2 r d) + x1 (ix2 r d) + x3 (ix2 (0 : Fin 1) d)) := by
  unfold k2_pay2
  simp only [shapeCast_self]
  refine (addf_apply _ _ _).trans ?_
  refine congrArg (acc (ix2 g d) + ·) ?_
  refine (matmul2_apply _ _ g d).trans ?_
  refine Finset.sum_congr rfl fun r _ => ?_
  refine congr (congrArg HMul.hMul ?_) ?_
  · exact (truncf_apply (ψ := .bf16) _ bitsLt_bf16_f32 _).trans (onehot2_apply x4 r g)
  · show (broadcastTo S4000x32 x2 broadcasts_S4000x1_S4000x32 (ix2 r d) * x0 (ix2 r d) + x1 (ix2 r d))
        + broadcastTo S4000x32 x3 broadcasts_S1x32_S4000x32 (ix2 r d) = _
    rw [bcast2_col32, broadcastTo_1b_ab_apply]

/-! ## The 25 blocks of 4000 rows are the 100000 rows -/

/-- A function of the rows, read at a row number (zero past the last row). -/
def rowG2 (T : Fin 100000 → EReal) (m : ℕ) : EReal := if h : m < 100000 then T ⟨m, h⟩ else 0

theorem rowG2_of_lt (T : Fin 100000 → EReal) (m : ℕ) (h : m < 100000) : rowG2 T m = T ⟨m, h⟩ := dif_pos h

/-- Summing block by block, 4000 rows at a time over 25 blocks, sums every row once. -/
theorem sum_rows2 (T : Fin 100000 → EReal) :
    ∑ s ∈ Finset.range 25, ∑ r : Fin 4000, rowG2 T (s * 4000 + r.val) = ∑ n : Fin 100000, T n := by
  rw [Finset.sum_range (fun s => ∑ r : Fin 4000, rowG2 T (s * 4000 + r.val))]
  rw [← Fintype.sum_prod_type' (fun (s : Fin 25) (r : Fin 4000) => rowG2 T (s.val * 4000 + r.val))]
  rw [← Equiv.sum_comp (finProdFinEquiv (m := 25) (n := 4000)) T]
  refine Finset.sum_congr rfl fun p _ => ?_
  have hp : p.1.val * 4000 + p.2.val < 100000 := by have := p.1.isLt; have := p.2.isLt; omega
  rw [rowG2_of_lt T _ hp]
  refine congrArg T (Fin.ext ?_)
  show p.1.val * 4000 + p.2.val = p.2.val + 4000 * p.1.val
  omega

/-! ## The index maps over the grid -/

/-- At point `t` the row-blocked windows (aggregated, self term, normalisation, graph ids) are at block `(t, 0)`; the bias
    and the output window stay at `(0, 0)`: decided over the 25 points. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0 :=
  (by decide +kernel : ∀ t : Fin grid2.N, _)

variable (V : (c : Dev nD) → (b : Ref sig .tc) → Buf (Elt Ideal) ((c : Thread nD τ).loc b))

/-! ## The arrays the region reads and the blocks the body loads, named at their literal types -/

/-- The aggregated second-layer features as the region finds them, 100000 × 32. -/
abbrev A35 (c : Dev nD) : Vec Ideal S100000x32 .f32 := V c main_v35
/-- The second layer's self term, 100000 × 32. -/
abbrev S25 (c : Dev nD) : Vec Ideal S100000x32 .f32 := V c main_v25_1
/-- The degree normalisation, a 100000 × 1 column. -/
abbrev D11b (c : Dev nD) : Vec Ideal S100000x1 .f32 := V c main_v11
/-- The second layer's bias, a 1 × 32 row. -/
abbrev B13 (c : Dev nD) : Vec Ideal S1x32 .f32 := V c main_v13
/-- The graph-id words, a 100000 × 1 column. -/
abbrev I36 (c : Dev nD) : IVec S100000x1 32 := V c main_v36
/-- The five blocks at point `t`. -/
abbrev xb2_0 (c : Dev nD) (t : Fin cfg2.N) : Vec Ideal S4000x32 .f32 := Fr.iblk2 V c 0 t
abbrev xb2_1 (c : Dev nD) (t : Fin cfg2.N) : Vec Ideal S4000x32 .f32 := Fr.iblk2 V c 1 t
abbrev xb2_2 (c : Dev nD) (t : Fin cfg2.N) : Vec Ideal S4000x1 .f32 := Fr.iblk2 V c 2 t
abbrev xb2_3 (c : Dev nD) (t : Fin cfg2.N) : Vec Ideal S1x32 .f32 := Fr.iblk2 V c 3 t
abbrev xb2_4 (c : Dev nD) (t : Fin cfg2.N) : IVec S4000x1 32 := Fr.iblk2 V c 4 t

/-! ## The input blocks as rows of their arrays -/

theorem iblk2_0_apply (c : Dev nD) (t : Fin cfg2.N) (x : S4000x32.Idx) (k : S100000x32.Idx)
    (hk0 : (k 0).val = t.val * 4000 + (x 0).val) (hk1 : (k 1).val = (x 1).val) :
    xb2_0 V c t x = A35 V c k := by
  obtain ⟨e0, e1, -⟩ := idx_facts2 t
  show Fr.iblk2 V c 0 t x = _
  unfold Fr.iblk2
  rw [View.read_apply]
  show V c main_v35 _ = V c main_v35 _
  refine congrArg (V c main_v35) (funext fun a => Fin.ext ?_)
  match a with
  | ⟨0, _⟩ => show win2_0.index t (0 : Fin 2) * 4000 + 1 * (x 0).val = (k 0).val; rw [e0, hk0]; omega
  | ⟨1, _⟩ => show win2_0.index t (1 : Fin 2) * 32 + 1 * (x 1).val = (k 1).val; rw [e1, hk1]; omega

theorem iblk2_1_apply (c : Dev nD) (t : Fin cfg2.N) (x : S4000x32.Idx) (k : S100000x32.Idx)
    (hk0 : (k 0).val = t.val * 4000 + (x 0).val) (hk1 : (k 1).val = (x 1).val) :
    xb2_1 V c t x = S25 V c k := by
  obtain ⟨-, -, e0, e1, -⟩ := idx_facts2 t
  show Fr.iblk2 V c 1 t x = _
  unfold Fr.iblk2
  rw [View.read_apply]
  show V c main_v25_1 _ = V c main_v25_1 _
  refine congrArg (V c main_v25_1) (funext fun a => Fin.ext ?_)
  match a with
  | ⟨0, _⟩ => show win2_1.index t (0 : Fin 2) * 4000 + 1 * (x 0).val = (k 0).val; rw [e0, hk0]; omega
  | ⟨1, _⟩ => show win2_1.index t (1 : Fin 2) * 32 + 1 * (x 1).val = (k 1).val; rw [e1, hk1]; omega

theorem iblk2_2_apply (c : Dev nD) (t : Fin cfg2.N) (x : S4000x1.Idx) (k : S100000x1.Idx)
    (hk0 : (k 0).val = t.val * 4000 + (x 0).val) (hk1 : (k 1).val = (x 1).val) :
    xb2_2 V c t x = D11b V c k := by
  obtain ⟨-, -, -, -, e0, e1, -⟩ := idx_facts2 t
  show Fr.iblk2 V c 2 t x = _
  unfold Fr.iblk2
  rw [View.read_apply]
  show V c main_v11 _ = V c main_v11 _
  refine congrArg (V c main_v11) (funext fun a => Fin.ext ?_)
  match a with
  | ⟨0, _⟩ => show win2_2.index t (0 : Fin 2) * 4000 + 1 * (x 0).val = (k 0).val; rw [e0, hk0]; omega
  | ⟨1, _⟩ => show win2_2.index t (1 : Fin 2) * 1 + 1 * (x 1).val = (k 1).val; rw [e1, hk1]; omega

/-- The bias block at every point is the whole bias row. -/
theorem iblk2_3_apply (c : Dev nD) (t : Fin cfg2.N) (x : S1x32.Idx) :
    xb2_3 V c t x = B13 V c x := by
  obtain ⟨-, -, -, -, -, -, e0, e1, -⟩ := idx_facts2 t
  show Fr.iblk2 V c 3 t x = _
  unfold Fr.iblk2
  rw [View.read_apply]
  show V c main_v13 _ = V c main_v13 _
  refine congrArg (V c main_v13) (funext fun a => Fin.ext ?_)
  match a with
  | ⟨0, _⟩ => show win2_3.index t (0 : Fin 2) * 1 + 1 * (x 0).val = (x 0).val; rw [e0]; omega
  | ⟨1, _⟩ => show win2_3.index t (1 : Fin 2) * 32 + 1 * (x 1).val = (x 1).val; rw [e1]; omega

theorem iblk2_4_apply (c : Dev nD) (t : Fin cfg2.N) (x : S4000x1.Idx) (k : S100000x1.Idx)
    (hk0 : (k 0).val = t.val * 4000 + (x 0).val) (hk1 : (k 1).val = (x 1).val) :
    xb2_4 V c t x = I36 V c k := by
  obtain ⟨-, -, -, -, -, -, -, -, e0, e1, -⟩ := idx_facts2 t
  show Fr.iblk2 V c 4 t x = _
  unfold Fr.iblk2
  rw [View.read_apply]
  show V c main_v36 _ = V c main_v36 _
  refine congrArg (V c main_v36) (funext fun a => Fin.ext ?_)
  match a with
  | ⟨0, _⟩ => show win2_4.index t (0 : Fin 2) * 4000 + 1 * (x 0).val = (k 0).val; rw [e0, hk0]; omega
  | ⟨1, _⟩ => show win2_4.index t (1 : Fin 2) * 1 + 1 * (x 1).val = (k 1).val; rw [e1, hk1]; omega

/-! ## One point's accumulation, in rows of the arrays -/

/-- What node `n` contributes to graph `g`, feature `d`. -/
def term2 (c : Dev nD) (g : Fin 64) (d : Fin 32) (n : Fin 100000) : EReal :=
  Gcn.oh (I36 V c (ix2 n (0 : Fin 1))) g
    * (D11b V c (ix2 n (0 : Fin 1)) * A35 V c (ix2 n d) + S25 V c (ix2 n d) + B13 V c (ix2 (0 : Fin 1) d))

theorem row2_lt (t : Fin cfg2.N) (r : Fin 4000) : t.val * 4000 + r.val < 100000 := by
  have ht : t.val < 25 := lt_of_lt_of_eq t.isLt N_2
  have hr := r.isLt
  omega

/-- Row `r` of the blocks at point `t` contributes what node `4000 t + r` does. -/
theorem blockrow2 (c : Dev nD) (t : Fin cfg2.N) (g : Fin 64) (d : Fin 32) (r : Fin 4000) :
    Gcn.oh (xb2_4 V c t (ix2 r (0 : Fin 1))) g
        * (xb2_2 V c t (ix2 r (0 : Fin 1)) * xb2_0 V c t (ix2 r d) + xb2_1 V c t (ix2 r d) + xb2_3 V c t (ix2 (0 : Fin 1) d))
      = rowG2 (term2 V c g d) (t.val * 4000 + r.val) := by
  rw [rowG2_of_lt _ _ (row2_lt t r)]
  unfold term2
  rw [iblk2_4_apply V c t (ix2 r (0 : Fin 1)) (ix2 (⟨t.val * 4000 + r.val, row2_lt t r⟩ : Fin 100000) (0 : Fin 1)) rfl rfl,
    iblk2_2_apply V c t (ix2 r (0 : Fin 1)) (ix2 (⟨t.val * 4000 + r.val, row2_lt t r⟩ : Fin 100000) (0 : Fin 1)) rfl rfl,
    iblk2_0_apply V c t (ix2 r d) (ix2 (⟨t.val * 4000 + r.val, row2_lt t r⟩ : Fin 100000) d) rfl rfl,
    iblk2_1_apply V c t (ix2 r d) (ix2 (⟨t.val * 4000 + r.val, row2_lt t r⟩ : Fin 100000) d) rfl rfl,
    iblk2_3_apply V c t (ix2 (0 : Fin 1) d)]

/-- One point's accumulation at `(g, d)`: what the scratch held plus the block sum of the point's 4000 rows. -/
theorem point2 (c : Dev nD) (t : Fin cfg2.N) (acc : Vec Ideal S64x32 .f32) (g : Fin 64) (d : Fin 32) :
    Fr.pool2 (xb2_0 V c t) (xb2_1 V c t) (xb2_2 V c t) (xb2_3 V c t) (xb2_4 V c t) acc (ix2 g d)
      = acc (ix2 g d) + ∑ r : Fin 4000, rowG2 (term2 V c g d) (t.val * 4000 + r.val) := by
  unfold Fr.pool2
  refine (pay2_2_apply (xb2_2 V c t) (xb2_0 V c t) (xb2_1 V c t) (xb2_3 V c t) (xb2_4 V c t) acc g d).trans ?_
  exact congrArg (acc (ix2 g d) + ·) (Finset.sum_congr rfl fun r _ => blockrow2 V c t g d r)

/-! ## The scratch after each point: the block sums so far -/

theorem acc2_apply (c : Dev nD) (g : Fin 64) (d : Fin 32) : ∀ (n : ℕ) (h : n < cfg2.N),
    Fr.acc2 (F := Ideal) V c n h (ix2 g d)
      = ∑ s ∈ Finset.range (n + 1), ∑ r : Fin 4000, rowG2 (term2 V c g d) (s * 4000 + r.val)
  | 0, h => by
    rw [Fr.acc2_zero, Finset.sum_range_one]
    refine (point2 V c ⟨0, h⟩ Fr.zero2 g d).trans ?_
    rw [show (Fr.zero2 (F := Ideal)) (ix2 g d) = 0 from pay1_2_apply _, zero_add]
  | n + 1, h => by
    rw [Fr.acc2_succ, Finset.sum_range_succ]
    refine (point2 V c ⟨n + 1, h⟩ _ g d).trans ?_
    rw [acc2_apply c g d n (Nat.lt_of_succ_lt h)]

/-! ## The specification, and the scratch after the last point -/

/-- The output at `(g, d)`: every node's contribution, summed. -/
abbrev G2_5 (c : Dev nD) : S64x32.Idx → Elt Ideal .f32 := fun i => ∑ n : Fin 100000, term2 V c (i 0) (i 1) n

/-- After the last point the scratch holds the specification. -/
theorem acc2_last (c : Dev nD) (n : ℕ) (h : n < cfg2.N) (hn : n = 24) : Fr.acc2 (F := Ideal) V c n h = G2_5 V c := by
  subst hn
  funext i
  obtain ⟨g, d, rfl⟩ : ∃ (g : Fin 64) (d : Fin 32), i = ix2 g d := ⟨i 0, i 1, eq_ix2 i⟩
  rw [acc2_apply V c g d 24 h]
  exact sum_rows2 (term2 V c g d)

/-! ## The one write-back, and the array after the region -/

/-- The only point that writes the output window back is the last; what it writes is the specification, whole (the
    window's one block is the whole array). -/
theorem flushed2_5_eq (c : Dev nD) (t : Fin cfg2.N) (hf : (cfg2.win 5).flush t = true) :
    (Fr.dat2 (F := Ideal) V c).flushed 5 t = ((cfg2.win 5).blk t).view.read (Elt Ideal) (G2_5 V c) := by
  have h24 : t.val = 24 := by
    have h1 := (flush2_5 t).mp hf
    have h2 : t.val < 25 := lt_of_lt_of_eq t.isLt N_2
    omega
  obtain ⟨-, -, -, -, -, -, -, -, -, -, e0, e1⟩ := idx_facts2 t
  show (cfg2.win 5).cut (grid2.coords t) ((Fr.dat2 (F := Ideal) V c).after 5 t) = _
  rw [Fr.after2_5, acc2_last V c t.val t.isLt h24]
  have hz' : (fun a => win2_5.index t a * main_v37.ty.shape.size a) = fun _ => 0 := funext fun a => by
    match a with
    | ⟨0, _⟩ => show win2_5.index t (0 : Fin 2) * 64 = 0; rw [e0]
    | ⟨1, _⟩ => show win2_5.index t (1 : Fin 2) * 32 = 0; rw [e1]
  exact (Memref.read_access_unit_zero (Elt Ideal) main_v37 hz' (fun a => by rw [congrFun hz' a]; simp) (G2_5 V c)).symm

/-- An index of the output array is in point `t`'s block iff each coordinate is in the block's range on its axis. -/
theorem mem_blk2_5 (t : Fin cfg2.N) (i : S64x32.Idx) :
    i ∈ ((cfg2.win 5).blk t).view.set ↔ ∀ a : Fin 2, win2_5.index t a * S64x32.size a ≤ (i a).val ∧ (i a).val < win2_5.index t a * S64x32.size a + S64x32.size a := by
  show i ∈ ((View.whole main_v37).slice (win2_5.rect t)).set ↔ _
  rw [View.set_slice_whole, Rect.mem_set_unit]
  exact Iff.rfl

/-- The last point, which writes back, covers the whole output array. -/
theorem cover2_5 (i : S64x32.Idx) : ∃ t : Fin cfg2.N, (cfg2.win 5).flush t = true ∧ i ∈ ((cfg2.win 5).blk t).view.set := by
  have hi0 : (i 0).val < 64 := (i 0).isLt
  have hi1 : (i 1).val < 32 := (i 1).isLt
  have hL : 24 < cfg2.N := by rw [show cfg2.N = 25 from N_2]; decide
  obtain ⟨-, -, -, -, -, -, -, -, -, -, e0, e1⟩ := idx_facts2 ⟨24, hL⟩
  refine ⟨⟨24, hL⟩, (flush2_5 ⟨24, hL⟩).mpr rfl, ?_⟩
  rw [mem_blk2_5]
  intro a
  match a with
  | ⟨0, _⟩ =>
    show win2_5.index ⟨24, hL⟩ (0 : Fin 2) * 64 ≤ (i 0).val ∧ (i 0).val < win2_5.index ⟨24, hL⟩ (0 : Fin 2) * 64 + 64
    rw [e0]; omega
  | ⟨1, _⟩ =>
    show win2_5.index ⟨24, hL⟩ (1 : Fin 2) * 32 ≤ (i 1).val ∧ (i 1).val < win2_5.index ⟨24, hL⟩ (1 : Fin 2) * 32 + 32
    rw [e1]; omega

/-- The output array after the region is the specification. -/
theorem arr2_5 (c : Dev nD) : (Fr.dat2 (F := Ideal) V c).arrAt 5 cfg2.N = G2_5 V c :=
  (Fr.dat2 (F := Ideal) V c).arrAt_eq_of_cover 5 (G2_5 V c) (fun t hf => flushed2_5_eq V c t hf) cover2_5

/-- The output at graph `g`, feature `d`. -/
theorem arrAt2_5 (c : Dev nD) (g : Fin 64) (d : Fin 32) :
    (Fr.dat2 (F := Ideal) V c).arrAt 5 cfg2.N (ix2 g d)
      = ∑ n : Fin 100000, Gcn.oh (I36 V c (ix2 n 0)) g
          * (D11b V c (ix2 n 0) * A35 V c (ix2 n d) + S25 V c (ix2 n d) + B13 V c (ix2 0 d)) :=
  congrFun (arr2_5 V c) (ix2 g d)

end Cert.KernelIdeal.Val

end
-- ==== Proof.LibScatterGather.lean ====
/-
  THE HOST'S SCATTER-ADD, GATHER, CONCATENATION AND IOTA READ AT AN INDEX, for the dimension numbers an
  `x.at[idx].add(v)` / `x[idx]` of a vector or of the rows of a matrix at ONE COLUMN of indices lowers to.

  The operand is a vector `[N]` or a matrix `[N, D]`, the indices a column `[M, 1]` of 32-bit words (index_vector_dim 1),
  the updates / the result a vector `[M]` or a matrix `[M, D]`. Dimension numbers are an `abbrev` over the literal sizes
  with their well-formedness as a hypothesis (decided on a program's literal shapes), as Lib/ValueIdx.lean's `takeDims`.

  • scatter-add at element `n` (row `n`, column `f`): the operand's element plus the sum of the updates `e` whose index word,
    read SIGNED and NOT clamped, is `n` (an index outside `[0, N)` contributes nowhere);
  • gather at element `e` (row `e`, column `f`): the operand at the index word `e`, read signed and CLAMPED into `[0, N − 1]`;
  • two vectors joined along their one axis, at `j`: the first below its length, the second after;
  • the iota of a vector at `n`: the word `n`.
-/
import Idealize.ShloMosaic.PureOps.Ideal
import Idealize.ShloMosaic.PureOps.Ideal.Laws
import Idealize.ShloMosaic.Lib.ValueIdx
import Idealize.ShloMosaic.Lib.ValueIdxRank1
import Idealize.ShloMosaic.Lib.Pipeline.Value

noncomputable section

open scoped BigOperators

namespace IndexOps

open Idealize.ShloMosaic Idealize.ShloMosaic.ValueIdx Finset

/-- Of a matrix's two axes the second is not the first. -/
theorem fin2_one_ne_zero : (1 : Fin 2) ≠ 0 := by decide

/-! ## Where an update lands -/

/-- An update lands at operand index `i` exactly when, on every operand axis, its window's start (read signed, not
    clamped) plus its window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · next hh =>
      intro a
      have hv := congrArg Fin.val (congrFun (Option.some.inj h) a)
      have h0 := (hh a).1
      simp only at hv
      omega
    · exact absurd h (by simp)
  · intro h
    have hh : ∀ a, 0 ≤ d.start j idx a + (d.window j a : Int) ∧ d.start j idx a + (d.window j a : Int) < (s.size a : Int) :=
      fun a => by rw [h a]; exact ⟨Int.natCast_nonneg _, by exact_mod_cast (i a).isLt⟩
    rw [dif_pos hh]
    congr 1; funext a; apply Fin.ext
    show (d.start j idx a + (d.window j a : Int)).toNat = (i a).val
    rw [h a]; exact Int.toNat_natCast _

/-! ## Scatter-add -/

/-- scatter of scalars: operand [N], scatter indices [M,1], updates [M]; update_window_dims [], inserted_window_dims [0],
    scatter_dims_to_operand_dims [0], index_vector_dim 1 -/
abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- These dimension numbers field by field: what a program's record of them unfolds to. -/
theorem vecScatterDims_eq_mk (N M : Nat) (wf : ScatterDims.WF ⟨1, ![N]⟩ ⟨2, ![M, 1]⟩ ⟨1, ![M]⟩ [] [0] [0] 1) :
    vecScatterDims N M wf = ⟨[], [0], [0], 1, wf⟩ := rfl

/-- On the operand's one axis a scalar update's window starts at its index word, read signed … -/
theorem vecScatter_start {N M : Nat} (wf : ScatterDims.WF ⟨1, ![N]⟩ ⟨2, ![M, 1]⟩ ⟨1, ![M]⟩ [] [0] [0] 1)
    (idx : IVec ⟨2, ![M, 1]⟩ 32) (e : Fin M) :
    (vecScatterDims N M wf).start (ix1 e) idx 0 = (idx (ix2 e 0)).toInt := by
  unfold ScatterDims.start
  rw [dif_pos (show (0 : Fin 1) ∈ (vecScatterDims N M wf).scatterDimsToOperandDims from List.mem_singleton.mpr rfl)]
  have hsi : (vecScatterDims N M wf).siIdx (ix1 e) ⟨List.idxOf (0 : Fin 1) (vecScatterDims N M wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and has no extent there (the axis is an inserted one): the window coordinate is 0. -/
theorem vecScatter_window {N M : Nat} (wf : ScatterDims.WF ⟨1, ![N]⟩ ⟨2, ![M, 1]⟩ ⟨1, ![M]⟩ [] [0] [0] 1) (e : Fin M) :
    (vecScatterDims N M wf).window (ix1 e) 0 = 0 := by
  unfold ScatterDims.window
  rw [dif_neg]
  intro h
  have h2 : ¬ ((0 : Fin 1) ∈ [(0 : Fin 1)]) := of_decide_eq_true (List.mem_filter.1 h).2
  exact h2 (List.mem_singleton.mpr rfl)

/-- A scalar update `e` lands at element `n` exactly when its index word, read signed, is `n`. -/
theorem vecScatter_resultIdx?_iff {N M : Nat} (wf : ScatterDims.WF ⟨1, ![N]⟩ ⟨2, ![M, 1]⟩ ⟨1, ![M]⟩ [] [0] [0] 1)
    (idx : IVec ⟨2, ![M, 1]⟩ 32) (e : Fin M) (n : Fin N) :
    (vecScatterDims N M wf).resultIdx? (ix1 e) idx = some (ix1 n) ↔ (idx (ix2 e 0)).toInt = (n.val : Int) := by
  rw [resultIdx?_eq_some_iff]
  constructor
  · intro h
    have := h 0
    rw [vecScatter_start, vecScatter_window, Nat.cast_zero, add_zero] at this
    exact this
  · intro h a
    obtain rfl : a = 0 := Subsingleton.elim _ _
    rw [vecScatter_start, vecScatter_window, h, Nat.cast_zero, add_zero]
    rfl

/-- THE SCALAR SCATTER-ADD READ AT `n`: `x[n] + ∑ { upd[e] | idx[e, 0] = n }`, the index read signed, not clamped. -/
theorem vecScatterAdd_apply {N M : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ 32) (upd : (⟨1, ![M]⟩ : Shape).Idx → EReal) (n : Fin N) :
    Host.scatterAdd (F := Ideal) (φ := .f32) (vecScatterDims N M wf) x idx upd (ix1 n)
      = x (ix1 n) + ∑ e ∈ univ.filter (fun e : Fin M => (idx (ix2 e 0)).toInt = (n.val : Int)), upd (ix1 e) := by
  show Ideal.hostScatterAdd (vecScatterDims N M wf) x idx upd (ix1 n) = _
  unfold Ideal.hostScatterAdd
  congr 1
  rw [Finset.sum_filter, Finset.sum_filter]
  refine Fintype.sum_equiv idxEquiv1 _ _ (fun j => ?_)
  obtain ⟨e, rfl⟩ : ∃ e, j = ix1 e := ⟨j 0, eq_ix1 j⟩
  exact if_congr (vecScatter_resultIdx?_iff wf idx e n) rfl rfl

/-- scatter of rows: operand [N,D], scatter indices [M,1], updates [M,D]; update_window_dims [1], inserted_window_dims [0],
    scatter_dims_to_operand_dims [0], index_vector_dim 1 -/
abbrev rowScatterDims (N M D : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- These dimension numbers field by field: what a program's record of them unfolds to. -/
theorem rowScatterDims_eq_mk (N M D : Nat) (wf : ScatterDims.WF ⟨2, ![N, D]⟩ ⟨2, ![M, 1]⟩ ⟨2, ![M, D]⟩ [1] [0] [0] 1) :
    rowScatterDims N M D wf = ⟨[1], [0], [0], 1, wf⟩ := rfl

/-- On the operand's row axis a row update's window starts at its index word, read signed … -/
theorem rowScatter_start0 {N M D : Nat} (wf : ScatterDims.WF ⟨2, ![N, D]⟩ ⟨2, ![M, 1]⟩ ⟨2, ![M, D]⟩ [1] [0] [0] 1)
    (idx : IVec ⟨2, ![M, 1]⟩ 32) (e : Fin M) (f : Fin D) :
    (rowScatterDims N M D wf).start (ix2 e f) idx 0 = (idx (ix2 e 0)).toInt := by
  unfold ScatterDims.start
  rw [dif_pos (show (0 : Fin 2) ∈ (rowScatterDims N M D wf).scatterDimsToOperandDims from List.mem_singleton.mpr rfl)]
  have hsi : (rowScatterDims N M D wf).siIdx (ix2 e f) ⟨List.idxOf (0 : Fin 2) (rowScatterDims N M D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and at 0 on the column axis, which the index does not name. -/
theorem rowScatter_start1 {N M D : Nat} (wf : ScatterDims.WF ⟨2, ![N, D]⟩ ⟨2, ![M, 1]⟩ ⟨2, ![M, D]⟩ [1] [0] [0] 1)
    (idx : IVec ⟨2, ![M, 1]⟩ 32) (e : Fin M) (f : Fin D) :
    (rowScatterDims N M D wf).start (ix2 e f) idx 1 = 0 := by
  unfold ScatterDims.start
  rw [dif_neg]
  intro h
  exact absurd (List.mem_singleton.1 h) fin2_one_ne_zero

/-- The window has no extent on the row axis (an inserted one): its coordinate there is 0 … -/
theorem rowScatter_window0 {N M D : Nat} (wf : ScatterDims.WF ⟨2, ![N, D]⟩ ⟨2, ![M, 1]⟩ ⟨2, ![M, D]⟩ [1] [0] [0] 1)
    (e : Fin M) (f : Fin D) :
    (rowScatterDims N M D wf).window (ix2 e f) 0 = 0 := by
  unfold ScatterDims.window
  rw [dif_neg]
  intro h
  have h2 : ¬ ((0 : Fin 2) ∈ [(0 : Fin 2)]) := of_decide_eq_true (List.mem_filter.1 h).2
  exact h2 (List.mem_singleton.mpr rfl)

/-- … and on the column axis it is the update's column. -/
theorem rowScatter_window1 {N M D : Nat} (wf : ScatterDims.WF ⟨2, ![N, D]⟩ ⟨2, ![M, 1]⟩ ⟨2, ![M, D]⟩ [1] [0] [0] 1)
    (e : Fin M) (f : Fin D) :
    (rowScatterDims N M D wf).window (ix2 e f) 1 = f.val := by
  unfold ScatterDims.window
  rw [dif_pos (show (1 : Fin 2) ∈ (rowScatterDims N M D wf).sKept from
    List.mem_filter.2 ⟨List.mem_finRange _, decide_eq_true (fun h => absurd (List.mem_singleton.1 h) fin2_one_ne_zero)⟩)]
  rfl

/-- A row update `(e, f')` lands at `(n, f)` exactly when its row's index word, read signed, is `n` and its column is `f`. -/
theorem rowScatter_resultIdx?_iff {N M D : Nat} (wf : ScatterDims.WF ⟨2, ![N, D]⟩ ⟨2, ![M, 1]⟩ ⟨2, ![M, D]⟩ [1] [0] [0] 1)
    (idx : IVec ⟨2, ![M, 1]⟩ 32) (e : Fin M) (f' : Fin D) (n : Fin N) (f : Fin D) :
    (rowScatterDims N M D wf).resultIdx? (ix2 e f') idx = some (ix2 n f)
      ↔ (idx (ix2 e 0)).toInt = (n.val : Int) ∧ f' = f := by
  rw [resultIdx?_eq_some_iff]
  constructor
  · intro h
    have h0 := h 0
    have h1 := h 1
    rw [rowScatter_start0, rowScatter_window0, Nat.cast_zero, add_zero] at h0
    rw [rowScatter_start1, rowScatter_window1, zero_add] at h1
    exact ⟨h0, Fin.ext (Int.ofNat_inj.1 h1)⟩
  · rintro ⟨h, rfl⟩ a
    obtain rfl | rfl : a = 0 ∨ a = 1 := by
      match a with
      | ⟨0, _⟩ => exact Or.inl rfl
      | ⟨1, _⟩ => exact Or.inr rfl
    · rw [rowScatter_start0, rowScatter_window0, Nat.cast_zero, add_zero, h]; rfl
    · rw [rowScatter_start1, rowScatter_window1, zero_add]; rfl

/-- THE ROW SCATTER-ADD READ AT `(n, f)`: `x[n, f] + ∑ { upd[e, f] | idx[e, 0] = n }`, the index read signed, not clamped. -/
theorem rowScatterAdd_apply {N M D : Nat} (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ 32) (upd : (⟨2, ![M, D]⟩ : Shape).Idx → EReal)
    (n : Fin N) (f : Fin D) :
    Host.scatterAdd (F := Ideal) (φ := .f32) (rowScatterDims N M D wf) x idx upd (ix2 n f)
      = x (ix2 n f) + ∑ e ∈ univ.filter (fun e : Fin M => (idx (ix2 e 0)).toInt = (n.val : Int)), upd (ix2 e f) := by
  show Ideal.hostScatterAdd (rowScatterDims N M D wf) x idx upd (ix2 n f) = _
  unfold Ideal.hostScatterAdd
  congr 1
  rw [Finset.sum_filter, Finset.sum_filter, sum_idx2]
  refine Finset.sum_congr rfl (fun e _ => ?_)
  calc ∑ f' : Fin D, (if (rowScatterDims N M D wf).resultIdx? (ix2 e f') idx = some (ix2 n f) then upd (ix2 e f') else 0)
      = ∑ f' : Fin D, (if (idx (ix2 e 0)).toInt = (n.val : Int) ∧ f' = f then upd (ix2 e f') else 0) :=
        Finset.sum_congr rfl (fun f' _ => if_congr (rowScatter_resultIdx?_iff wf idx e f' n f) rfl rfl)
    _ = if (idx (ix2 e 0)).toInt = (n.val : Int) then upd (ix2 e f) else 0 := by
        by_cases h : (idx (ix2 e 0)).toInt = (n.val : Int)
        · simp only [h, true_and, if_true, Finset.sum_ite_eq', Finset.mem_univ]
        · simp only [h, false_and, if_false, Finset.sum_const_zero]

/-! ## Gather -/

/-- gather of rows: operand [N,D], start indices [M,1], result [M,D]; offset_dims [1], collapsed_slice_dims [0],
    start_index_map [0], index_vector_dim 1, slice_sizes [1,D]: row e of the result is the operand's row at the start
    index read signed and clamped into [0, N-1] -/
abbrev rowGatherDims (N M D : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- These dimension numbers field by field: what a program's record of them unfolds to. -/
theorem rowGatherDims_eq_mk (N M D : Nat)
    (wf : GatherDims.WF ⟨2, ![N, D]⟩ ⟨2, ![M, 1]⟩ ⟨2, ![M, D]⟩ [1] [0] [] [0] [] 1 ![1, D]) :
    rowGatherDims N M D wf = ⟨[1], [0], [], [], [0], 1, ![1, D], wf⟩ := rfl

/-- THE ROW GATHER READ AT `(e, f)`: `x[clamp idx[e, 0], f]`, the index read signed and clamped into `[0, N − 1]`. -/
theorem rowGather_apply {α : Type} {N M D : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ 32) (e : Fin M) (f : Fin D) :
    Host.gather (rowGatherDims N M D wf) x idx (ix2 e f)
      = x (ix2 ⟨min (idx (ix2 e 0)).toInt.toNat (N - 1), by omega⟩ f) := by
  unfold Host.gather
  congr 1
  funext a
  refine Fin.ext ?_
  obtain rfl | rfl : a = 0 ∨ a = 1 := by
    match a with
    | ⟨0, _⟩ => exact Or.inl rfl
    | ⟨1, _⟩ => exact Or.inr rfl
  · -- the row axis: the clamped start, no batching, collapsed
    show (rowGatherDims N M D wf).start (ix2 e f) idx 0 + (rowGatherDims N M D wf).batchCoord (ix2 e f) 0
      + (rowGatherDims N M D wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M D wf).startIndexMap from List.mem_singleton.mpr rfl)]
    have hsi : (rowGatherDims N M D wf).siIdx (ix2 e f) ⟨List.idxOf (0 : Fin 2) (rowGatherDims N M D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · -- the column axis: start 0 (the index does not name it), no batching, the result's column as the offset
    show (rowGatherDims N M D wf).start (ix2 e f) idx 1 + (rowGatherDims N M D wf).batchCoord (ix2 e f) 1
      + (rowGatherDims N M D wf).offCoord (ix2 e f) 1 = f.val
    have hs : (rowGatherDims N M D wf).start (ix2 e f) idx 1 = 0 := by
      unfold GatherDims.start
      rw [dif_neg]
      intro h
      exact absurd (List.mem_singleton.1 h) fin2_one_ne_zero
    have ho : (rowGatherDims N M D wf).offCoord (ix2 e f) 1 = f.val := by
      unfold GatherDims.offCoord
      rw [dif_pos ((GatherDims.mem_sKept _ _).2 ⟨fun h => absurd (List.mem_singleton.1 h) fin2_one_ne_zero, List.not_mem_nil⟩)]
      rfl
    rw [hs, ho, GatherDims.batchCoord_eq_zero _ _ _ List.not_mem_nil]
    omega

/-- gather of scalars: operand [N], start indices [M,1], result [M]; offset_dims [], collapsed_slice_dims [0],
    start_index_map [0], index_vector_dim 1, slice_sizes [1] -/
abbrev vecGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- These dimension numbers field by field: what a program's record of them unfolds to. -/
theorem vecGatherDims_eq_mk (N M : Nat) (wf : GatherDims.WF ⟨1, ![N]⟩ ⟨2, ![M, 1]⟩ ⟨1, ![M]⟩ [] [0] [] [0] [] 1 ![1]) :
    vecGatherDims N M wf = ⟨[], [0], [], [], [0], 1, ![1], wf⟩ := rfl

/-- THE SCALAR GATHER READ AT `e`: `x[clamp idx[e, 0]]`, the index read signed and clamped into `[0, N − 1]`. -/
theorem vecGather_apply {α : Type} {N M : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ 32) (e : Fin M) :
    Host.gather (vecGatherDims N M wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (vecGatherDims N M wf).start (ix1 e) idx 0 + (vecGatherDims N M wf).batchCoord (ix1 e) 0
    + (vecGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N M wf).startIndexMap from List.mem_singleton.mpr rfl)]
  have hsi : (vecGatherDims N M wf).siIdx (ix1 e) ⟨List.idxOf (0 : Fin 1) (vecGatherDims N M wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Concatenation and iota -/

/-- The lengths of two vectors joined along their one axis add up to the result's. -/
theorem concat2_len {A B C : Nat} (h : Shape.Concatenates [⟨1, ![A]⟩, ⟨1, ![B]⟩] ⟨1, ![C]⟩ 0) : A + B = C := by
  have e := h.2.2
  simpa using e

/-- two vectors joined along their one axis, read at an index: the first below its length, the second after -/
theorem concat2_apply {α : Type} {A B C : Nat} (a : (⟨1, ![A]⟩ : Shape).Idx → α) (b : (⟨1, ![B]⟩ : Shape).Idx → α)
    (h : Shape.Concatenates [⟨1, ![A]⟩, ⟨1, ![B]⟩] ⟨1, ![C]⟩ 0) (j : Fin C) :
    concatenate ⟨1, ![C]⟩ 0 [⟨⟨1, ![A]⟩, a⟩, ⟨⟨1, ![B]⟩, b⟩] h (ix1 j)
      = if hj : j.val < A then a (ix1 ⟨j.val, hj⟩)
        else b (ix1 ⟨j.val - A, by have := concat2_len h; have := j.isLt; omega⟩) := by
  have hAB := concat2_len h
  by_cases hj : j.val < A
  · rw [dif_pos hj]
    exact concatenate_pair_apply_left (t := ⟨1, ![C]⟩) (s₁ := ⟨1, ![A]⟩) (s₂ := ⟨1, ![B]⟩) 0 a b h (ix1 j) rfl
      (ix1 ⟨j.val, hj⟩) (fun c => by obtain rfl : c = 0 := Subsingleton.elim _ _; rfl)
  · rw [dif_neg hj]
    exact concatenate_pair_apply_right (t := ⟨1, ![C]⟩) (s₁ := ⟨1, ![A]⟩) (s₂ := ⟨1, ![B]⟩) 0 a b h (ix1 j) rfl rfl
      (ix1 ⟨j.val - A, by have := j.isLt; omega⟩) (fun c hc => absurd (Subsingleton.elim _ _) hc)
      (by show j.val - A + A = j.val; omega)

/-- the iota along the one axis of a vector, at an index, is the index's number as a word -/
theorem iota1_apply (N : Nat) (n : Fin N) : iotaInDim ⟨1, ![N]⟩ 32 0 (ix1 n) = BitVec.ofNat 32 n.val := rfl

end IndexOps

end
-- ==== Proof.KI.Host.lean ====
/-
  WHAT THE HOST STRETCHES OF THE KERNEL PROGRAM LEAVE IN THEIR BUFFERS, READ AT AN INDEX, on the extended reals.

  @main is four stretches of host operations around three kernel regions; these are the first two. From ANY contents
  `W` of the buffers at the start of a stretch, each buffer a later region reads is, entry by entry:

  • stretch 0: the two rows of the edge list as vectors (a row slice, then the unit axis dropped); `deg^(-1/2)` as a
    column, the degree of node `n` being `0` plus one for every edge whose target word, read signed, is `n` (a
    scatter-add of ones into zeros) plus one for the self-loop; the two biases as rows (a unit axis added);
  • stretch 1: for node `n` and column `f`, `0` plus the sum over the edges whose target word lands on `n` of the row
    of the first layer's scaled features at the source word wrapped by the node count when negative and clamped into
    range (a row gather at the wrapped words, scatter-added into zeros);

  and every buffer a stretch does not write keeps what it held.
-/
import proofs.«419793_j38981123178585_3_alg».proof.Proof.Gen.KernelIdeal.Regions
import proofs.«419793_j38981123178585_3_alg».proof.Proof.Spec
import proofs.«419793_j38981123178585_3_alg».proof.Proof.LibScatterGather
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

open scoped BigOperators

namespace Cert.KernelIdeal.Val

open Cert.KernelIdeal Cert.KernelIdeal.Gen
open Idealize.ShloMosaic Idealize.ShloMosaic.ValueIdx Idealize.ShloMosaic.StableHlo Finset

/-! ## What a stretch does not write -/

section Keep

variable {F : FTy → Type} [FloatOps F] (W : Valuation τ sig (Elt F))

theorem h0_keep (b : Ref sig .tc) (h : b ∉ hostOps0_W) :
    StableHlo.after hostOps0 W (Proc.devRef .tc b) = W (Proc.devRef .tc b) :=
  StableHlo.after_of_writes_sub hostOps0 W hostOps0_writes h

theorem h1_keep (b : Ref sig .tc) (h : b ∉ hostOps1_W) :
    StableHlo.after hostOps1 W (Proc.devRef .tc b) = W (Proc.devRef .tc b) :=
  StableHlo.after_of_writes_sub hostOps1 W hostOps1_writes h

end Keep

/-! ## Layout operations of the stretches, read at an index -/

section Layout

variable {α : Type}

/-- A vector made a column reads, at `(n, u)`, the vector at `n`. -/
private theorem bcast_col_apply {N : Nat} (h : (⟨1, ![N]⟩ : Shape).BroadcastsInDim ⟨2, ![N, 1]⟩ ![0])
    (x : (⟨1, ![N]⟩ : Shape).Idx → α) (n : Fin N) (u : Fin 1) :
    broadcastInDim ⟨2, ![N, 1]⟩ ![0] h x (ix2 n u) = x (ix1 n) :=
  broadcastInDim_apply _ h x _ _ (fun a => by
    match a with
    | ⟨0, _⟩ =>
      show n.val = if N = 1 then 0 else n.val
      split_ifs with h1
      · have := n.isLt; omega
      · rfl)

/-- Row `r` of a two-row array, cut out and its unit axis dropped: entry `e` is the array's `(r, e)`. -/
private theorem row_apply {M : Nat} (o : Nat) (X : (⟨2, ![2, M]⟩ : Shape).Idx → α)
    (hs : (⟨2, ![2, M]⟩ : Shape).Slices ![o, 0] ⟨2, ![1, M]⟩) (hc : (⟨2, ![1, M]⟩ : Shape).ShapeCasts ⟨1, ![M]⟩)
    (r : Fin 2) (hr : r.val = o) (e : Fin M) :
    shapeCast ⟨1, ![M]⟩ (extractStridedSlice ⟨2, ![1, M]⟩ ![o, 0] X hs) hc (ix1 e) = X (ix2 r e) :=
  (shapeCast_1a_a_apply _ hc e).trans (slice2_axis0_apply o X hs 0 e r (by rw [hr]; rfl))

/-- Row `r` of a two-row array made a column: entry `(e, u)` is the array's `(r, e)`. -/
private theorem col_row_apply {M : Nat} (o : Nat) (X : (⟨2, ![2, M]⟩ : Shape).Idx → α)
    (hs : (⟨2, ![2, M]⟩ : Shape).Slices ![o, 0] ⟨2, ![1, M]⟩) (hc : (⟨2, ![1, M]⟩ : Shape).ShapeCasts ⟨1, ![M]⟩)
    (hb : (⟨1, ![M]⟩ : Shape).BroadcastsInDim ⟨2, ![M, 1]⟩ ![0]) (r : Fin 2) (hr : r.val = o) (e : Fin M) (u : Fin 1) :
    broadcastInDim ⟨2, ![M, 1]⟩ ![0] hb (shapeCast ⟨1, ![M]⟩ (extractStridedSlice ⟨2, ![1, M]⟩ ![o, 0] X hs) hc) (ix2 e u)
      = X (ix2 r e) :=
  (bcast_col_apply hb _ e u).trans (row_apply o X hs hc r hr e)

/-- The host's reciprocal square root of the sum of two vectors, at an entry: `(a i + b i)^(-1/2)`. -/
private theorem rsqrt_add_apply {s : Shape} (a b : FVec Ideal s .f32) (i : s.Idx) :
    Host.rsqrt (addf a b) i = Ideal.rsqrt (a i + b i) := rfl

end Layout

variable (W : Valuation τ sig (Elt Ideal))

/-! ## Stretch 0: the edge words, `deg^(-1/2)`, the biases -/

/-- The source words: row 0 of the edge list. -/
theorem h0_src (e : Fin 1600000) :
    StableHlo.after hostOps0 W (Proc.devRef .tc main_v1) (ix1 e) = (W (Proc.devRef .tc main_arg5)) (ix2 0 e) := by
  show StableHlo.after hostOps0 W (Proc.devRef .tc main_v1) (ix1 e) = _
  after_results
  exact row_apply 0 _ _ _ 0 rfl e

/-- The target words: row 1 of the edge list. -/
theorem h0_dst (e : Fin 1600000) :
    StableHlo.after hostOps0 W (Proc.devRef .tc main_v3) (ix1 e) = (W (Proc.devRef .tc main_arg5)) (ix2 1 e) := by
  show StableHlo.after hostOps0 W (Proc.devRef .tc main_v3) (ix1 e) = _
  after_results
  exact row_apply 1 _ _ _ 1 rfl e

/-- `deg^(-1/2)` of node `n`, the degree counted over the target words. -/
theorem h0_dis (n : Fin 100000) :
    StableHlo.after hostOps0 W (Proc.devRef .tc main_v11) (ix2 n 0)
      = Gcn.disK (fun e => (W (Proc.devRef .tc main_arg5)) (ix2 1 e)) n := by
  show StableHlo.after hostOps0 W (Proc.devRef .tc main_v11) (ix2 n 0) = _
  after_results
  -- the column at (n, 0) is the vector at n
  refine (bcast_col_apply _ _ n 0).trans ?_
  -- the host's rsqrt is `Ideal.rsqrt` entry by entry, its sum the sum of the entries
  refine (rsqrt_add_apply _ _ _).trans ?_
  delta Gcn.disK Gcn.degK
  refine congrArg Ideal.rsqrt (congrArg₂ (· + ·) ?_ ?_)
  · -- ones scatter-added into zeros: one for every edge whose target word is n
    refine (IndexOps.vecScatterAdd_apply scatter_S100000_S1600000x1_S1600000_n_0_0_1_wf _ _ _ n).trans ?_
    refine congrArg₂ (· + ·) ?_ ?_
    · exact (broadcastInDim_scalar_apply _ _ _).trans Ideal.ofBits_zero_f32
    · refine Finset.sum_congr (Finset.filter_congr fun e _ => ?_) (fun e _ => ?_)
      · -- the index column at (e, 0) is row 1 of the edge list at e
        exact Iff.of_eq (congrArg (fun w : BitVec 32 => w.toInt = ((n : Fin 100000).val : Int))
          (col_row_apply 1 _ _ _ _ 1 rfl e 0))
      · exact (broadcastInDim_scalar_apply _ _ _).trans Ideal.ofBits_one_f32
  · exact (broadcastInDim_scalar_apply _ _ _).trans Ideal.ofBits_one_f32

/-- The first layer's bias as a row. -/
theorem h0_b1 (f : Fin 64) :
    StableHlo.after hostOps0 W (Proc.devRef .tc main_v12) (ix2 0 f) = (W (Proc.devRef .tc main_arg2)) (ix1 f) := by
  show StableHlo.after hostOps0 W (Proc.devRef .tc main_v12) (ix2 0 f) = _
  after_results
  exact shapeCast_a_1a_apply _ _ 0 f

/-- The second layer's bias as a row. -/
theorem h0_b2 (g : Fin 32) :
    StableHlo.after hostOps0 W (Proc.devRef .tc main_v13) (ix2 0 g) = (W (Proc.devRef .tc main_arg4)) (ix1 g) := by
  show StableHlo.after hostOps0 W (Proc.devRef .tc main_v13) (ix2 0 g) = _
  after_results
  exact shapeCast_a_1a_apply _ _ 0 g

/-! ## Stretch 1: the first layer's scaled rows summed over the incoming edges -/

theorem h1_agg (n : Fin 100000) (f : Fin 64) :
    StableHlo.after hostOps1 W (Proc.devRef .tc main_v24) (ix2 n f)
      = 0 + (∑ e ∈ Finset.univ.filter (fun e : Fin 1600000 => Gcn.lands ((W (Proc.devRef .tc main_v3)) (ix1 e)) n),
          (W (Proc.devRef .tc main_v14_0)) (ix2 (Gcn.gnode ((W (Proc.devRef .tc main_v1)) (ix1 e))) f) : EReal) := by
  show StableHlo.after hostOps1 W (Proc.devRef .tc main_v24) (ix2 n f) = _
  after_results
  -- the gathered rows scatter-added into zeros
  refine (IndexOps.rowScatterAdd_apply scatter_S100000x64_S1600000x1_S1600000x64_1_0_0_1_wf _ _ _ n f).trans ?_
  refine congrArg₂ (· + ·) ?_ ?_
  · exact (broadcastInDim_scalar_apply _ _ _).trans Ideal.ofBits_zero_f32
  · refine Finset.sum_congr (Finset.filter_congr fun e _ => ?_) (fun e _ => ?_)
    · -- the index column at (e, 0) is the target word e
      rw [bcast_col_apply]
      exact Iff.rfl
    · -- row e of the gather is the row of the operand at the wrapped, clamped source word
      refine (IndexOps.rowGather_apply (by decide) gather_S100000x64_S1600000x1_S1600000x64_1_0_n_n_0_1_164_wf _ _ e f).trans ?_
      refine congrArg (fun k : Fin 100000 => (W (Proc.devRef .tc main_v14_0) : S100000x64.Idx → EReal) (ix2 k f)) ?_
      apply Fin.ext
      show min (_ : BitVec 32).toInt.toNat (100000 - 1) = min (Gcn.wrap (W (Proc.devRef .tc main_v1) (ix1 e))).toInt.toNat 99999
      rw [bcast_col_apply]
      rfl

end Cert.KernelIdeal.Val

end
-- ==== Proof.KI.HostB.lean ====
/-
  WHAT THE LAST TWO HOST STRETCHES OF THE KERNEL PROGRAM LEAVE IN THEIR BUFFERS, READ AT AN INDEX, on the extended reals.

  From ANY contents `W` of the buffers at the start of the stretch:

  • stretch 2: for node `n` and column `g`, `0` plus the sum over the edges whose target word lands on `n` of the
    row of the second layer's scaled features at the source word wrapped by the node count when negative and clamped
    into range (a row gather at the wrapped words, scatter-added into zeros); and the graph ids as a column (a unit
    axis added);
  • stretch 3: the pooled sums divided by the node count of the graph, the count at least one (a scatter-add of ones
    into zeros over the graph ids, a maximum with one, broadcast along the columns, a quotient);

  and every buffer a stretch does not write keeps what it held.
-/
import proofs.«419793_j38981123178585_3_alg».proof.Proof.Gen.KernelIdeal.Regions
import proofs.«419793_j38981123178585_3_alg».proof.Proof.Spec
import proofs.«419793_j38981123178585_3_alg».proof.Proof.LibScatterGather
import Idealize.ShloMosaic.Lib.StableHlo.Run
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.KernelIdeal.Val

open Cert.KernelIdeal Cert.KernelIdeal.Gen
open Idealize.ShloMosaic Idealize.ShloMosaic.ValueIdx Idealize.ShloMosaic.StableHlo Finset

/-! ## What a stretch does not write -/

section Keep

variable {F : FTy → Type} [FloatOps F] (W : Valuation τ sig (Elt F))

theorem h2_keep (b : Ref sig .tc) (h : b ∉ hostOps2_W) :
    StableHlo.after hostOps2 W (Proc.devRef .tc b) = W (Proc.devRef .tc b) :=
  StableHlo.after_of_writes_sub hostOps2 W hostOps2_writes h

theorem h3_keep (b : Ref sig .tc) (h : b ∉ hostOps3_W) :
    StableHlo.after hostOps3 W (Proc.devRef .tc b) = W (Proc.devRef .tc b) :=
  StableHlo.after_of_writes_sub hostOps3 W hostOps3_writes h

end Keep

/-! ## The stretches' composed terms read at an index, over any arrays -/

/-- a vector of words as a column reads, at `(e, 0)`, the vector at `e` -/
private theorem col_apply (v : (⟨S1600000, .i32⟩ : BufTy).Contents (Elt Ideal)) (e : Fin 1600000) :
    broadcastInDim S1600000x1 ![0] bcast_S1600000_S1600000x1_0 v (ix2 e 0) = v (ix1 e) :=
  broadcastInDim_apply _ bcast_S1600000_S1600000x1_0 v (ix2 e 0) (ix1 e) (fun a => match a with
    | ⟨0, _⟩ => by show e.val = if (1600000 : Nat) = 1 then 0 else e.val; rw [if_neg (by decide)])

/-- the printed wrap of a negative word by the node count, at an index, is the specification's -/
private theorem wrap_apply (v1 : (⟨S1600000, .i32⟩ : BufTy).Contents (Elt Ideal)) (e : Fin 1600000) :
    (select
      (cmpi CmpIPredicate.slt v1 (broadcastInDim S1600000 ![] bcast_S_S1600000 (constantI S_ 32 0#32)))
      (addi v1 (broadcastInDim S1600000 ![] bcast_S_S1600000 (constantI S_ 32 100000#32)))
      v1 : (⟨S1600000, .i32⟩ : BufTy).Contents (Elt Ideal)) (ix1 e) = Gcn.wrap (v1 (ix1 e)) := rfl

private theorem agg2_read (x25 : (⟨S100000x32, .f32⟩ : BufTy).Contents (Elt Ideal))
    (v1 v3 : (⟨S1600000, .i32⟩ : BufTy).Contents (Elt Ideal)) (n : Fin 100000) (g : Fin 32) :
    Host.scatterAdd (F := Ideal) scatter_S100000x32_S1600000x1_S1600000x32_1_0_0_1
      (broadcastInDim S100000x32 ![] bcast_S_S100000x32 (constant (F := Ideal) S_ FTy.f32 0#32))
      (broadcastInDim S1600000x1 ![0] bcast_S1600000_S1600000x1_0 v3)
      (Host.gather gather_S100000x32_S1600000x1_S1600000x32_1_0_n_n_0_1_132 x25
        (broadcastInDim S1600000x1 ![0] bcast_S1600000_S1600000x1_0
          (select
            (cmpi CmpIPredicate.slt v1 (broadcastInDim S1600000 ![] bcast_S_S1600000 (constantI S_ 32 0#32)))
            (addi v1 (broadcastInDim S1600000 ![] bcast_S_S1600000 (constantI S_ 32 100000#32)))
            v1)))
      (ix2 n g)
    = 0 + (∑ e ∈ Finset.univ.filter (fun e : Fin 1600000 => Gcn.lands (v3 (ix1 e)) n),
        x25 (ix2 (Gcn.gnode (v1 (ix1 e))) g) : EReal) := by
  refine (IndexOps.rowScatterAdd_apply _ _ _ _ n g).trans ?_
  refine congrArg₂ (· + ·) ?_ (Finset.sum_congr (Finset.filter_congr fun e _ => ?_) fun e _ => ?_)
  · -- the zeros the sums are added into
    exact (broadcastInDim_scalar_apply bcast_S_S100000x32 _ (ix2 n g)).trans Ideal.ofBits_zero_f32
  · -- an edge is summed when its target word, read signed, is n
    rw [col_apply]
    exact Iff.rfl
  · -- the row gathered for edge e is the row of the node its source word reads
    refine (IndexOps.rowGather_apply (by decide) _ x25 _ e g).trans ?_
    refine congrArg (fun k : Fin 100000 => x25 (ix2 k g)) (Fin.ext ?_)
    dsimp only
    rw [col_apply, wrap_apply]
    rfl

/-- the graph-id words as a column read, at `(n, 0)`, the word of node `n` -/
private theorem idcol_apply (bt : (⟨S100000, .i32⟩ : BufTy).Contents (Elt Ideal)) (n : Fin 100000) :
    broadcastInDim S100000x1 ![0] bcast_S100000_S100000x1_0 bt (ix2 n 0) = bt (ix1 n) :=
  broadcastInDim_apply _ bcast_S100000_S100000x1_0 bt (ix2 n 0) (ix1 n) (fun a => match a with
    | ⟨0, _⟩ => by show n.val = if (100000 : Nat) = 1 then 0 else n.val; rw [if_neg (by decide)])

/-- the word `0x3F800000` broadcast is the real one everywhere -/
private theorem ones_apply {T : Shape} (h : S_.BroadcastsInDim T ![]) (j : T.Idx) :
    broadcastInDim T ![] h (constant (F := Ideal) S_ FTy.f32 0x3F800000#32) j = (1 : EReal) :=
  (broadcastInDim_scalar_apply h _ j).trans Ideal.ofBits_one_f32

/-- the word `0` broadcast is the real zero everywhere -/
private theorem zeros_apply {T : Shape} (h : S_.BroadcastsInDim T ![]) (j : T.Idx) :
    broadcastInDim T ![] h (constant (F := Ideal) S_ FTy.f32 0#32) j = (0 : EReal) :=
  (broadcastInDim_scalar_apply h _ j).trans Ideal.ofBits_zero_f32

private theorem out3_read (x37 : (⟨S64x32, .f32⟩ : BufTy).Contents (Elt Ideal))
    (bt : (⟨S100000, .i32⟩ : BufTy).Contents (Elt Ideal)) (g : Fin 64) (d : Fin 32) :
    Host.divf x37
      (broadcastInDim S64x32 ![0, 1] bcast_S64x1_S64x32_0_1
        (broadcastInDim S64x1 ![0] bcast_S64_S64x1_0
          (maximumf
            (Host.scatterAdd (F := Ideal) scatter_S64_S100000x1_S100000_n_0_0_1
              (broadcastInDim S64 ![] bcast_S_S64 (constant (F := Ideal) S_ FTy.f32 0#32))
              (broadcastInDim S100000x1 ![0] bcast_S100000_S100000x1_0 bt)
              (broadcastInDim S100000 ![] bcast_S_S100000 (constant (F := Ideal) S_ FTy.f32 0x3F800000#32)))
            (broadcastInDim S64 ![] bcast_S_S64 (constant (F := Ideal) S_ FTy.f32 0x3F800000#32)))))
      (ix2 g d)
    = Ideal.div (x37 (ix2 g d)) (max (Gcn.cnt (fun n => bt (ix1 n)) g) 1) := by
  rw [hostDivf_apply]
  refine congrArg (Ideal.div (x37 (ix2 g d))) ?_
  -- the divisor does not depend on the column: column d of row g is the one entry of row g
  refine (broadcastInDim_apply _ bcast_S64x1_S64x32_0_1 _ (ix2 g d) (ix2 g 0) (fun a => match a with
    | ⟨0, _⟩ => by show g.val = if (64 : Nat) = 1 then 0 else g.val; rw [if_neg (by decide)]
    | ⟨1, _⟩ => by show 0 = if (1 : Nat) = 1 then 0 else d.val; rw [if_pos rfl])).trans ?_
  refine (broadcastInDim_apply _ bcast_S64_S64x1_0 _ (ix2 g 0) (ix1 g) (fun a => match a with
    | ⟨0, _⟩ => by show g.val = if (64 : Nat) = 1 then 0 else g.val; rw [if_neg (by decide)])).trans ?_
  rw [maximumf_apply, ones_apply]
  refine congrArg (fun c : EReal => max c 1) ?_
  -- the count: ones scatter-added into zeros over the graph-id words
  refine (IndexOps.vecScatterAdd_apply _ _ _ _ g).trans ?_
  unfold Gcn.cnt
  refine congrArg₂ (· + ·) (zeros_apply _ _) (Finset.sum_congr (Finset.filter_congr fun n _ => ?_) fun n _ => ?_)
  · rw [idcol_apply]
    exact Iff.rfl
  · exact ones_apply _ _

variable (W : Valuation τ sig (Elt Ideal))

/-! ## Stretch 2: the second layer's scaled rows summed over the incoming edges; the graph ids as a column -/

theorem h2_agg (n : Fin 100000) (g : Fin 32) :
    StableHlo.after hostOps2 W (Proc.devRef .tc main_v35) (ix2 n g)
      = 0 + (∑ e ∈ Finset.univ.filter (fun e : Fin 1600000 => Gcn.lands ((W (Proc.devRef .tc main_v3)) (ix1 e)) n),
          (W (Proc.devRef .tc main_v25_0)) (ix2 (Gcn.gnode ((W (Proc.devRef .tc main_v1)) (ix1 e))) g) : EReal) := by
  after_results
  exact agg2_read _ _ _ n g

theorem h2_ids (n : Fin 100000) :
    StableHlo.after hostOps2 W (Proc.devRef .tc main_v36) (ix2 n 0) = (W (Proc.devRef .tc main_arg6)) (ix1 n) := by
  have hA : StableHlo.after hostOps2 W (Proc.devRef .tc main_v36)
      = shapeCast S100000x1 (W (Proc.devRef .tc main_arg6)) shapeCasts_S100000_S100000x1 := by
    after_results
    rfl
  rw [hA]
  exact shapeCast_apply _ shapeCasts_S100000_S100000x1 (ix2 n 0) (ix1 n) (by
    rw [Shape.rowMajor_val_two, Shape.rowMajor_val_one]
    show n.val = n.val * 1 + 0
    omega)

/-! ## Stretch 3: the mean over each graph's nodes -/

theorem h3_out (g : Fin 64) (d : Fin 32) :
    StableHlo.after hostOps3 W (Proc.devRef .tc main_v46) (ix2 g d)
      = Ideal.div ((W (Proc.devRef .tc main_v37)) (ix2 g d))
          (max (Gcn.cnt (fun n => (W (Proc.devRef .tc main_arg6)) (ix1 n)) g) 1) := by
  after_results
  exact out3_read _ _ g d

end Cert.KernelIdeal.Val

end
-- ==== Proof.KI.KVal.lean ====
/-
  The kernel program's result as the closed form `Gcn.outK`, on the extended reals.

  @main is four stretches of host operations around three kernel regions; the contents of a TensorCore's buffers are
  followed through the seven segments from the launch memory `m`. Boundary by boundary, each buffer a later segment
  reads is identified, entry by entry, with a term of the factored arrangement:

  • after stretch 0: the arguments as launched; the edge words (row 0 the sources, row 1 the targets);
    `deg^(-1/2)` as a column; the two biases as rows;
  • after region 0: the first layer's rows scaled once (`scK1`) and twice (`sfK1`) by `deg^(-1/2)`;
  • after stretch 1: the scaled rows summed over the incoming edges (`agK1`);
  • after region 1: the second layer's rows `(Σ_f h n f · w2 f g)` scaled once (`scK2`) and twice (`sfK2`), where
    `h n f = max (dis n · agK1 n f + sfK1 n f + b1 f) 0`;
  • after stretch 2: those summed over the incoming edges (`agK2`); the graph ids as a column;
  • after region 2: the one-hot weighted sums over the nodes of `dis n · agK2 n d + sfK2 n d + b2 d` (`sumsK`);
  • after stretch 3: the sums divided by the node count of the graph, the count at least one (`outK`).

  A buffer a stretch does not write keeps its contents across the stretch; a buffer that is no array of a region keeps
  its contents across the region; an input array of a region leaves it as entered.
-/
import proofs.«419793_j38981123178585_3_alg».proof.Proof.KI.Run
import proofs.«419793_j38981123178585_3_alg».proof.Proof.KI.Val0
import proofs.«419793_j38981123178585_3_alg».proof.Proof.KI.Val1
import proofs.«419793_j38981123178585_3_alg».proof.Proof.KI.Val2
import proofs.«419793_j38981123178585_3_alg».proof.Proof.KI.Host
import proofs.«419793_j38981123178585_3_alg».proof.Proof.KI.HostB
import proofs.«419793_j38981123178585_3_alg».proof.Proof.Spec

set_option maxRecDepth 16384

noncomputable section

namespace Cert.KernelIdeal.Val

open Cert.KernelIdeal Cert.KernelIdeal.Gen Cert.KernelIdeal.Fr Idealize.ShloMosaic Idealize.ShloMosaic.ValueIdx
open Idealize.ShloMosaic.TcCoe
open scoped BigOperators

variable (m : (ℓ : Loc nD τ sig) → Buf (Elt Ideal) ℓ) (ρ : Dev nD → PrngReg) (c : Dev nD)

/-! ## The launch contents of the arguments, read at an index -/

/-- the node features -/
abbrev xK : Fin 100000 → Fin 2 → EReal := fun n k => m ((c.tc : Thread nD τ).loc main_arg0) (ix2 n k)
/-- the first layer's weight -/
abbrev w1K : Fin 2 → Fin 64 → EReal := fun k f => m ((c.tc : Thread nD τ).loc main_arg1) (ix2 k f)
/-- the first layer's bias -/
abbrev b1K : Fin 64 → EReal := fun f => m ((c.tc : Thread nD τ).loc main_arg2) (ix1 f)
/-- the second layer's weight -/
abbrev w2K : Fin 64 → Fin 32 → EReal := fun f g => m ((c.tc : Thread nD τ).loc main_arg3) (ix2 f g)
/-- the second layer's bias -/
abbrev b2K : Fin 32 → EReal := fun g => m ((c.tc : Thread nD τ).loc main_arg4) (ix1 g)
/-- the edges' source words: row 0 of the edge list -/
abbrev swK : Fin 1600000 → BitVec 32 := fun e => m ((c.tc : Thread nD τ).loc main_arg5) (ix2 (0 : Fin 2) e)
/-- the edges' target words: row 1 of the edge list -/
abbrev dwK : Fin 1600000 → BitVec 32 := fun e => m ((c.tc : Thread nD τ).loc main_arg5) (ix2 (1 : Fin 2) e)
/-- the nodes' graph-id words -/
abbrev btK : Fin 100000 → BitVec 32 := fun n => m ((c.tc : Thread nD τ).loc main_arg6) (ix1 n)

/-- an entry of a buffer of extended reals, at its literal type -/
abbrev asR (x : EReal) : EReal := x

/-! ## After stretch 0 -/

theorem W1_arg0 : W1 m ρ c (Proc.devRef .tc main_arg0) = m ((c.tc : Thread nD τ).loc main_arg0) :=
  h0_keep (W0 m ρ c) main_arg0 (by decide)
theorem W1_arg1 : W1 m ρ c (Proc.devRef .tc main_arg1) = m ((c.tc : Thread nD τ).loc main_arg1) :=
  h0_keep (W0 m ρ c) main_arg1 (by decide)
/-- the source words -/
theorem W1_v1 (e : Fin 1600000) : W1 m ρ c (Proc.devRef .tc main_v1) (ix1 e) = swK m c e :=
  h0_src (W0 m ρ c) e
/-- the target words -/
theorem W1_v3 (e : Fin 1600000) : W1 m ρ c (Proc.devRef .tc main_v3) (ix1 e) = dwK m c e :=
  h0_dst (W0 m ρ c) e
/-- `deg^(-1/2)`, the degree counted over the target words -/
theorem W1_v11 (n : Fin 100000) : W1 m ρ c (Proc.devRef .tc main_v11) (ix2 n (0 : Fin 1)) = Gcn.disK (dwK m c) n :=
  h0_dis (W0 m ρ c) n
theorem W1_v12 (f : Fin 64) : W1 m ρ c (Proc.devRef .tc main_v12) (ix2 (0 : Fin 1) f) = b1K m c f :=
  h0_b1 (W0 m ρ c) f
theorem W1_v13 (g : Fin 32) : W1 m ρ c (Proc.devRef .tc main_v13) (ix2 (0 : Fin 1) g) = b2K m c g :=
  h0_b2 (W0 m ρ c) g

/-! ## After region 0 -/

/-- `deg^(-1/2)` is an input array of region 0: it leaves as entered -/
theorem W2_v11 : W2 m ρ c (Proc.devRef .tc main_v11) = W1 m ρ c (Proc.devRef .tc main_v11) :=
  (W2_arr m ρ c 2).trans (((dat0 (V1 m ρ) c).arrAt_in 2 rfl _).trans (A_eq0 (V1 m ρ) c 2))
theorem W2_v1 (e : Fin 1600000) : W2 m ρ c (Proc.devRef .tc main_v1) (ix1 e) = swK m c e :=
  (congrFun (W2_of_ne m ρ c main_v1 (by decide)) (ix1 e)).trans (W1_v1 m ρ c e)
theorem W2_v3 (e : Fin 1600000) : W2 m ρ c (Proc.devRef .tc main_v3) (ix1 e) = dwK m c e :=
  (congrFun (W2_of_ne m ρ c main_v3 (by decide)) (ix1 e)).trans (W1_v3 m ρ c e)

/-- output 0: the first layer's rows scaled by `deg^(-1/2)` -/
theorem W2_v14_0 (n : Fin 100000) (f : Fin 64) :
    W2 m ρ c (Proc.devRef .tc main_v14_0) (ix2 n f) = Gcn.scK1 (xK m c) (w1K m c) (dwK m c) n f := by
  refine (congrFun (W2_arr m ρ c 3) (ix2 n f)).trans ((arrAt0_3 (V1 m ρ) c n f).trans ?_)
  show _ = (∑ k : Fin 2, xK m c n k * w1K m c k f) * Gcn.disK (dwK m c) n
  refine congrArg₂ (fun a b : EReal => a * b) (Finset.sum_congr rfl fun k _ => ?_) ?_
  · refine congrArg₂ (fun a b : EReal => a * b) ?_ ?_
    · exact congrFun (W1_arg0 m ρ c) (ix2 n k)
    · exact congrFun (W1_arg1 m ρ c) (ix2 k f)
  · exact W1_v11 m ρ c n

/-- output 1: the same rows scaled twice -/
theorem W2_v14_1 (n : Fin 100000) (f : Fin 64) :
    W2 m ρ c (Proc.devRef .tc main_v14_1) (ix2 n f) = Gcn.sfK1 (xK m c) (w1K m c) (dwK m c) n f := by
  refine (congrFun (W2_arr m ρ c 4) (ix2 n f)).trans ((arrAt0_4 (V1 m ρ) c n f).trans ?_)
  show _ = ((∑ k : Fin 2, xK m c n k * w1K m c k f) * Gcn.disK (dwK m c) n) * Gcn.disK (dwK m c) n
  refine congrArg₂ (fun a b : EReal => a * b) (congrArg₂ (fun a b : EReal => a * b) (Finset.sum_congr rfl fun k _ => ?_) ?_) ?_
  · refine congrArg₂ (fun a b : EReal => a * b) ?_ ?_
    · exact congrFun (W1_arg0 m ρ c) (ix2 n k)
    · exact congrFun (W1_arg1 m ρ c) (ix2 k f)
  · exact W1_v11 m ρ c n
  · exact W1_v11 m ρ c n

/-! ## After stretch 1 -/

/-- the scaled rows summed over the edges whose target word lands on `n`, each read at its source word's node -/
theorem W3_v24 (n : Fin 100000) (f : Fin 64) :
    W3 m ρ c (Proc.devRef .tc main_v24) (ix2 n f) = Gcn.agK1 (xK m c) (w1K m c) (swK m c) (dwK m c) n f := by
  refine (h1_agg (W2 m ρ c) n f).trans ?_
  show _ = 0 + ∑ e ∈ Finset.univ.filter (fun e => Gcn.lands (dwK m c e) n),
    Gcn.scK1 (xK m c) (w1K m c) (dwK m c) (Gcn.gnode (swK m c e)) f
  refine congrArg (fun t : EReal => 0 + t) (Finset.sum_congr
    (Finset.filter_congr fun e _ => iff_of_eq (congrArg (fun w => Gcn.lands w n) (W2_v3 m ρ c e))) fun e _ => ?_)
  exact (congrArg (fun w => W2 m ρ c (Proc.devRef .tc main_v14_0) (ix2 (Gcn.gnode w) f)) (W2_v1 m ρ c e)).trans
    (W2_v14_0 m ρ c (Gcn.gnode (swK m c e)) f)

theorem W3_v11 : W3 m ρ c (Proc.devRef .tc main_v11) = W1 m ρ c (Proc.devRef .tc main_v11) :=
  (h1_keep (W2 m ρ c) main_v11 (by decide)).trans (W2_v11 m ρ c)
theorem W3_v11_at (n : Fin 100000) : W3 m ρ c (Proc.devRef .tc main_v11) (ix2 n (0 : Fin 1)) = Gcn.disK (dwK m c) n :=
  (congrFun (W3_v11 m ρ c) (ix2 n (0 : Fin 1))).trans (W1_v11 m ρ c n)
theorem W3_v14_1 (n : Fin 100000) (f : Fin 64) :
    W3 m ρ c (Proc.devRef .tc main_v14_1) (ix2 n f) = Gcn.sfK1 (xK m c) (w1K m c) (dwK m c) n f :=
  (congrFun (h1_keep (W2 m ρ c) main_v14_1 (by decide)) (ix2 n f)).trans (W2_v14_1 m ρ c n f)
theorem W3_v12 (f : Fin 64) : W3 m ρ c (Proc.devRef .tc main_v12) (ix2 (0 : Fin 1) f) = b1K m c f :=
  (congrFun ((h1_keep (W2 m ρ c) main_v12 (by decide)).trans (W2_of_ne m ρ c main_v12 (by decide))) (ix2 (0 : Fin 1) f)).trans
    (W1_v12 m ρ c f)
theorem W3_arg3 : W3 m ρ c (Proc.devRef .tc main_arg3) = m ((c.tc : Thread nD τ).loc main_arg3) :=
  (h1_keep (W2 m ρ c) main_arg3 (by decide)).trans
    ((W2_of_ne m ρ c main_arg3 (by decide)).trans (h0_keep (W0 m ρ c) main_arg3 (by decide)))

/-- the hidden row: the first layer's output through the relu -/
theorem W3_hK (n : Fin 100000) (f : Fin 64) :
    max (asR (W3 m ρ c (Proc.devRef .tc main_v11) (ix2 n (0 : Fin 1))) * asR (W3 m ρ c (Proc.devRef .tc main_v24) (ix2 n f))
        + asR (W3 m ρ c (Proc.devRef .tc main_v14_1) (ix2 n f))
        + asR (W3 m ρ c (Proc.devRef .tc main_v12) (ix2 (0 : Fin 1) f))) 0
      = Gcn.hK (xK m c) (w1K m c) (b1K m c) (swK m c) (dwK m c) n f := by
  show _ = max (Gcn.disK (dwK m c) n * Gcn.agK1 (xK m c) (w1K m c) (swK m c) (dwK m c) n f
    + Gcn.sfK1 (xK m c) (w1K m c) (dwK m c) n f + b1K m c f) 0
  refine congrArg (fun t : EReal => max t 0) (congrArg₂ (fun a b : EReal => a + b)
    (congrArg₂ (fun a b : EReal => a + b) (congrArg₂ (fun a b : EReal => a * b) ?_ ?_) ?_) ?_)
  · exact W3_v11_at m ρ c n
  · exact W3_v24 m ρ c n f
  · exact W3_v14_1 m ρ c n f
  · exact W3_v12 m ρ c f

/-- the second layer's row scaled by `deg^(-1/2)`, from the buffers region 1 reads -/
theorem W3_scK2 (n : Fin 100000) (g : Fin 32) :
    (∑ f : Fin 64, max (asR (W3 m ρ c (Proc.devRef .tc main_v11) (ix2 n (0 : Fin 1))) * asR (W3 m ρ c (Proc.devRef .tc main_v24) (ix2 n f))
        + asR (W3 m ρ c (Proc.devRef .tc main_v14_1) (ix2 n f))
        + asR (W3 m ρ c (Proc.devRef .tc main_v12) (ix2 (0 : Fin 1) f))) 0
          * asR (W3 m ρ c (Proc.devRef .tc main_arg3) (ix2 f g)))
        * asR (W3 m ρ c (Proc.devRef .tc main_v11) (ix2 n (0 : Fin 1)))
      = Gcn.scK2 (xK m c) (w1K m c) (b1K m c) (w2K m c) (swK m c) (dwK m c) n g := by
  show _ = (∑ f : Fin 64, Gcn.hK (xK m c) (w1K m c) (b1K m c) (swK m c) (dwK m c) n f * w2K m c f g) * Gcn.disK (dwK m c) n
  refine congrArg₂ (fun a b : EReal => a * b) (Finset.sum_congr rfl fun f _ => ?_) ?_
  · refine congrArg₂ (fun a b : EReal => a * b) ?_ ?_
    · exact W3_hK m ρ c n f
    · exact congrFun (W3_arg3 m ρ c) (ix2 f g)
  · exact W3_v11_at m ρ c n

/-! ## After region 1 -/

/-- output 0: the second layer's rows scaled by `deg^(-1/2)` -/
theorem W4_v25_0 (n : Fin 100000) (g : Fin 32) :
    W4 m ρ c (Proc.devRef .tc main_v25_0) (ix2 n g)
      = Gcn.scK2 (xK m c) (w1K m c) (b1K m c) (w2K m c) (swK m c) (dwK m c) n g :=
  (congrFun (W4_arr m ρ c 5) (ix2 n g)).trans ((arrAt1_5 (V3 m ρ) c n g).trans (W3_scK2 m ρ c n g))

/-- output 1: the same rows scaled twice -/
theorem W4_v25_1 (n : Fin 100000) (g : Fin 32) :
    W4 m ρ c (Proc.devRef .tc main_v25_1) (ix2 n g)
      = Gcn.sfK2 (xK m c) (w1K m c) (b1K m c) (w2K m c) (swK m c) (dwK m c) n g := by
  refine (congrFun (W4_arr m ρ c 6) (ix2 n g)).trans ((arrAt1_6 (V3 m ρ) c n g).trans ?_)
  show _ = Gcn.scK2 (xK m c) (w1K m c) (b1K m c) (w2K m c) (swK m c) (dwK m c) n g * Gcn.disK (dwK m c) n
  exact congrArg₂ (fun a b : EReal => a * b) (W3_scK2 m ρ c n g) (W3_v11_at m ρ c n)

/-- `deg^(-1/2)` is an input array of region 1: it leaves as entered -/
theorem W4_v11 : W4 m ρ c (Proc.devRef .tc main_v11) = W1 m ρ c (Proc.devRef .tc main_v11) :=
  (W4_arr m ρ c 2).trans (((dat1 (V3 m ρ) c).arrAt_in 2 rfl _).trans ((A_eq1 (V3 m ρ) c 2).trans (W3_v11 m ρ c)))
theorem W4_v1 (e : Fin 1600000) : W4 m ρ c (Proc.devRef .tc main_v1) (ix1 e) = swK m c e :=
  (congrFun ((W4_of_ne m ρ c main_v1 (by decide)).trans (h1_keep (W2 m ρ c) main_v1 (by decide))) (ix1 e)).trans
    (W2_v1 m ρ c e)
theorem W4_v3 (e : Fin 1600000) : W4 m ρ c (Proc.devRef .tc main_v3) (ix1 e) = dwK m c e :=
  (congrFun ((W4_of_ne m ρ c main_v3 (by decide)).trans (h1_keep (W2 m ρ c) main_v3 (by decide))) (ix1 e)).trans
    (W2_v3 m ρ c e)
theorem W4_arg6 : W4 m ρ c (Proc.devRef .tc main_arg6) = m ((c.tc : Thread nD τ).loc main_arg6) :=
  (W4_of_ne m ρ c main_arg6 (by decide)).trans ((h1_keep (W2 m ρ c) main_arg6 (by decide)).trans
    ((W2_of_ne m ρ c main_arg6 (by decide)).trans (h0_keep (W0 m ρ c) main_arg6 (by decide))))
theorem W4_v13 (g : Fin 32) : W4 m ρ c (Proc.devRef .tc main_v13) (ix2 (0 : Fin 1) g) = b2K m c g :=
  (congrFun ((W4_of_ne m ρ c main_v13 (by decide)).trans ((h1_keep (W2 m ρ c) main_v13 (by decide)).trans
    (W2_of_ne m ρ c main_v13 (by decide)))) (ix2 (0 : Fin 1) g)).trans (W1_v13 m ρ c g)

/-! ## After stretch 2 -/

/-- the second layer's scaled rows summed over the edges whose target word lands on `n` -/
theorem W5_v35 (n : Fin 100000) (g : Fin 32) :
    W5 m ρ c (Proc.devRef .tc main_v35) (ix2 n g)
      = Gcn.agK2 (xK m c) (w1K m c) (b1K m c) (w2K m c) (swK m c) (dwK m c) n g := by
  refine (h2_agg (W4 m ρ c) n g).trans ?_
  show _ = 0 + ∑ e ∈ Finset.univ.filter (fun e => Gcn.lands (dwK m c e) n),
    Gcn.scK2 (xK m c) (w1K m c) (b1K m c) (w2K m c) (swK m c) (dwK m c) (Gcn.gnode (swK m c e)) g
  refine congrArg (fun t : EReal => 0 + t) (Finset.sum_congr
    (Finset.filter_congr fun e _ => iff_of_eq (congrArg (fun w => Gcn.lands w n) (W4_v3 m ρ c e))) fun e _ => ?_)
  exact (congrArg (fun w => W4 m ρ c (Proc.devRef .tc main_v25_0) (ix2 (Gcn.gnode w) g)) (W4_v1 m ρ c e)).trans
    (W4_v25_0 m ρ c (Gcn.gnode (swK m c e)) g)

/-- the graph ids as a column -/
theorem W5_v36 (n : Fin 100000) : W5 m ρ c (Proc.devRef .tc main_v36) (ix2 n (0 : Fin 1)) = btK m c n :=
  (h2_ids (W4 m ρ c) n).trans (congrFun (W4_arg6 m ρ c) (ix1 n))
theorem W5_v11_at (n : Fin 100000) : W5 m ρ c (Proc.devRef .tc main_v11) (ix2 n (0 : Fin 1)) = Gcn.disK (dwK m c) n :=
  (congrFun ((h2_keep (W4 m ρ c) main_v11 (by decide)).trans (W4_v11 m ρ c)) (ix2 n (0 : Fin 1))).trans (W1_v11 m ρ c n)
theorem W5_v25_1 (n : Fin 100000) (g : Fin 32) :
    W5 m ρ c (Proc.devRef .tc main_v25_1) (ix2 n g)
      = Gcn.sfK2 (xK m c) (w1K m c) (b1K m c) (w2K m c) (swK m c) (dwK m c) n g :=
  (congrFun (h2_keep (W4 m ρ c) main_v25_1 (by decide)) (ix2 n g)).trans (W4_v25_1 m ρ c n g)
theorem W5_v13 (g : Fin 32) : W5 m ρ c (Proc.devRef .tc main_v13) (ix2 (0 : Fin 1) g) = b2K m c g :=
  (congrFun (h2_keep (W4 m ρ c) main_v13 (by decide)) (ix2 (0 : Fin 1) g)).trans (W4_v13 m ρ c g)

/-! ## After region 2 -/

/-- the output: the one-hot weighted sums of the second layer's output rows -/
theorem W6_v37 (g : Fin 64) (d : Fin 32) :
    W6 m ρ c (Proc.devRef .tc main_v37) (ix2 g d)
      = Gcn.sumsK (xK m c) (w1K m c) (b1K m c) (w2K m c) (b2K m c) (swK m c) (dwK m c) (btK m c) g d := by
  refine (congrFun (W6_arr m ρ c 5) (ix2 g d)).trans ((arrAt2_5 (V5 m ρ) c g d).trans ?_)
  show _ = ∑ n : Fin 100000, Gcn.oh (btK m c n) g
    * (Gcn.disK (dwK m c) n * Gcn.agK2 (xK m c) (w1K m c) (b1K m c) (w2K m c) (swK m c) (dwK m c) n d
        + Gcn.sfK2 (xK m c) (w1K m c) (b1K m c) (w2K m c) (swK m c) (dwK m c) n d + b2K m c d)
  refine Finset.sum_congr rfl fun n _ => ?_
  refine congrArg₂ (fun a b : EReal => a * b) (congrArg (fun w => Gcn.oh w g) ?_)
    (congrArg₂ (fun a b : EReal => a + b) (congrArg₂ (fun a b : EReal => a + b)
      (congrArg₂ (fun a b : EReal => a * b) ?_ ?_) ?_) ?_)
  · exact W5_v36 m ρ c n
  · exact W5_v11_at m ρ c n
  · exact W5_v35 m ρ c n d
  · exact W5_v25_1 m ρ c n d
  · exact W5_v13 m ρ c d

theorem W6_arg6 : W6 m ρ c (Proc.devRef .tc main_arg6) = m ((c.tc : Thread nD τ).loc main_arg6) :=
  (W6_of_ne m ρ c main_arg6 (by decide)).trans ((h2_keep (W4 m ρ c) main_arg6 (by decide)).trans (W4_arg6 m ρ c))

/-! ## After stretch 3: the result -/

/-- the kernel program's result is the factored arrangement of the launch contents -/
theorem kernel_value (m : (ℓ : Loc nD τ sig) → Buf (Elt Ideal) ℓ) (ρ : Dev nD → PrngReg) (c : Dev nD) (g : Fin 64) (d : Fin 32) :
    W7 (F := Ideal) m ρ c (Proc.devRef .tc main_v46) (ix2 g d)
      = Gcn.outK (fun n k => m ((c.tc : Thread nD τ).loc main_arg0) (ix2 n k)) (fun k f => m ((c.tc : Thread nD τ).loc main_arg1) (ix2 k f)) (fun f => m ((c.tc : Thread nD τ).loc main_arg2) (ix1 f))
          (fun f g => m ((c.tc : Thread nD τ).loc main_arg3) (ix2 f g)) (fun g => m ((c.tc : Thread nD τ).loc main_arg4) (ix1 g))
          (fun e => m ((c.tc : Thread nD τ).loc main_arg5) (ix2 0 e)) (fun e => m ((c.tc : Thread nD τ).loc main_arg5) (ix2 1 e)) (fun n => m ((c.tc : Thread nD τ).loc main_arg6) (ix1 n)) g d := by
  refine (h3_out (W6 m ρ c) g d).trans ?_
  show _ = Ideal.div (Gcn.sumsK (xK m c) (w1K m c) (b1K m c) (w2K m c) (b2K m c) (swK m c) (dwK m c) (btK m c) g d)
    (max (Gcn.cnt (btK m c) g) 1)
  refine congrArg₂ Ideal.div (W6_v37 m ρ c g d) (congrArg (fun t : EReal => max t 1) (congrArg (fun bt => Gcn.cnt bt g) ?_))
  exact funext fun n => congrFun (W6_arg6 m ρ c) (ix1 n)

end Cert.KernelIdeal.Val

end
-- ==== Proof.RefVal1.lean ====
/-
  THE REFERENCE'S FIRST LAYER, READ AT AN INDEX.

  The reference lists the self-loops as extra edges: the source and target words of the extended edge list are the listed
  words followed by the node numbers (`srcf_ref`, `dstf_ref`). The degree of a node is the number of extended edges whose
  target word lands on it (`deg_ref`), its normaliser the reciprocal square root of the degree where the degree is
  positive and zero elsewhere (`dis_ref`), an edge's weight the product of the normalisers of the nodes its two words
  gather (`norm_ref`). The first layer's output at a node is the sum, over the extended edges landing on it, of the
  linear image of the gathered source row times the edge's weight, plus the bias, clipped below at zero (`h_ref`).
-/
import proofs.«419793_j38981123178585_3_alg».proof.Proof.RefRead
import proofs.«419793_j38981123178585_3_alg».proof.Proof.Spec
import proofs.«419793_j38981123178585_3_alg».proof.Proof.LibScatterGather
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.RefVal

open Cert.ReferenceIdeal Cert.ReferenceIdeal.ReadP
open Cert.ReferenceIdeal.Gen Idealize.ShloMosaic Idealize.ShloMosaic.TcCoe Idealize.SL.Sem Idealize.ShloMosaic.StableHlo
open Idealize.ShloMosaic.ValueIdx Finset

/-- The one float word of the program that is not zero: the real number one. -/
theorem ofBits_one_f32 : Ideal.ofBits .f32 0x3F800000#32 = 1 := by
  simp [Ideal.ofBits, Ideal.ieee]
  rw [← EReal.coe_mul, ← EReal.coe_one]
  congr 1
  norm_num

/-! ## The extended edge list -/

/-- The source words of the extended edge list: the listed edges' first row, then the node numbers. -/
theorem srcf_ref (x5 : (⟨S2x1600000, .i32⟩ : BufTy).Contents (Elt Ideal)) (j : Fin 1700000) :
    val_main_v6 (F := Ideal) x5 (ix1 j) = Gcn.swf (fun e => x5 (ix2 0 e)) j := by
  unfold val_main_v6
  refine (IndexOps.concat2_apply (val_main_v1 (F := Ideal) x5) (val_main_v5 (F := Ideal)) _ j).trans ?_
  unfold Gcn.swf
  by_cases hj : j.val < 1600000
  · rw [dif_pos hj, dif_pos hj, val_main_v1_apply, val_main_v0_apply]
    exact congrArg x5 (funext fun a => Fin.ext (by
      match a with
      | ⟨0, _⟩ => rfl
      | ⟨1, _⟩ => exact Nat.mod_eq_of_lt hj))
  · rw [dif_neg hj, dif_neg hj]
    rfl

/-- The target words of the extended edge list: the listed edges' second row, then the node numbers. -/
theorem dstf_ref (x5 : (⟨S2x1600000, .i32⟩ : BufTy).Contents (Elt Ideal)) (j : Fin 1700000) :
    val_main_v7 (F := Ideal) x5 (ix1 j) = Gcn.dwf (fun e => x5 (ix2 1 e)) j := by
  unfold val_main_v7
  refine (IndexOps.concat2_apply (val_main_v3 (F := Ideal) x5) (val_main_v5 (F := Ideal)) _ j).trans ?_
  unfold Gcn.dwf
  by_cases hj : j.val < 1600000
  · rw [dif_pos hj, dif_pos hj, val_main_v3_apply, val_main_v2_apply]
    exact congrArg x5 (funext fun a => Fin.ext (by
      match a with
      | ⟨0, _⟩ => rfl
      | ⟨1, _⟩ => exact Nat.mod_eq_of_lt hj))
  · rw [dif_neg hj, dif_neg hj]
    rfl

/-! ## A column of index words read at its one column: the vector it was made from, at the row -/

private theorem col_v10 (e : Fin 1700000) : idx_main_v10 (ix2 e (0 : Fin 1)) = ix1 e :=
  funext fun a => Fin.ext (by match a with | ⟨0, _⟩ => rfl)
private theorem col_v21 (e : Fin 1700000) : idx_main_v21 (ix2 e (0 : Fin 1)) = ix1 e :=
  funext fun a => Fin.ext (by match a with | ⟨0, _⟩ => rfl)
private theorem col_v28 (e : Fin 1700000) : idx_main_v28 (ix2 e (0 : Fin 1)) = ix1 e :=
  funext fun a => Fin.ext (by match a with | ⟨0, _⟩ => rfl)
private theorem col_v36 (e : Fin 1700000) : idx_main_v36 (ix2 e (0 : Fin 1)) = ix1 e :=
  funext fun a => Fin.ext (by match a with | ⟨0, _⟩ => rfl)
private theorem col_v42 (e : Fin 1700000) : idx_main_v42 (ix2 e (0 : Fin 1)) = ix1 e :=
  funext fun a => Fin.ext (by match a with | ⟨0, _⟩ => rfl)
/-- The edge weights spread along the feature axis: every column of row `e` reads the weight of edge `e`. -/
private theorem col_v39 (e : Fin 1700000) (f : Fin 64) : idx_main_v38 (idx_main_v39 (ix2 e f)) = ix1 e :=
  funext fun a => Fin.ext (by match a with | ⟨0, _⟩ => rfl)
/-- The bias spread along the node axis: every row reads the bias at the column. -/
private theorem col_v45 (n : Fin 100000) (f : Fin 64) : idx_main_v44 (idx_main_v45 (ix2 n f)) = ix1 f :=
  funext fun a => Fin.ext (by match a with | ⟨0, _⟩ => rfl)

/-! ## Degree and normaliser -/

/-- The degree: a one for every extended edge whose target word lands on the node. -/
theorem deg_ref (x5 : (⟨S2x1600000, .i32⟩ : BufTy).Contents (Elt Ideal)) (n : Fin 100000) :
    val_main_v11 (F := Ideal) x5 (ix1 n) = Gcn.degR (fun e => x5 (ix2 1 e)) n := by
  unfold val_main_v11
  refine (IndexOps.vecScatterAdd_apply (N := 100000) (M := 1700000) _ (val_main_v9 (F := Ideal))
    (val_main_v10 (F := Ideal) x5) (val_main_v8 (F := Ideal)) n).trans ?_
  unfold Gcn.degR
  have h0 : val_main_v9 (F := Ideal) (ix1 n) = 0 := by
    rw [val_main_v9_apply, val_main_cst_0_apply, Ideal.ofBits_def, Ideal.ofBits_zero_f32]
  have h1 : ∀ e : Fin 1700000, val_main_v8 (F := Ideal) (ix1 e) = 1 := fun e => by
    rw [val_main_v8_apply, val_main_cst_apply, Ideal.ofBits_def, ofBits_one_f32]
  have hw : ∀ e : Fin 1700000, val_main_v10 (F := Ideal) x5 (ix2 e 0) = Gcn.dwf (fun e => x5 (ix2 1 e)) e := fun e => by
    rw [val_main_v10_apply, col_v10, dstf_ref]
  rw [h0]
  refine congrArg (0 + ·) (Finset.sum_congr ?_ (fun e _ => h1 e))
  ext e
  simp only [Finset.mem_filter, Finset.mem_univ, true_and, hw e]
  exact Iff.rfl

/-- The normaliser: the reciprocal square root of a positive degree, zero otherwise. -/
theorem dis_ref (x5 : (⟨S2x1600000, .i32⟩ : BufTy).Contents (Elt Ideal)) (n : Fin 100000) :
    val_main_v15 (F := Ideal) x5 (ix1 n) = Gcn.disR (fun e => x5 (ix2 1 e)) n := by
  rw [val_main_v15_apply, val_main_v13_apply, val_main_v14_apply, val_main_call0_v1_apply, val_main_call0_v0_apply,
    val_main_cst_2_apply, val_main_v12_apply, val_main_cst_1_apply, deg_ref]
  simp only [Ideal.ofBits_def, Ideal.ofBits_zero_f32, Ideal.hostUnary_rsqrt_def, Ideal.cmpf_def, Ideal.cmp, Scalar.select]
  unfold Gcn.disR
  by_cases h : 0 < Gcn.degR (fun e => x5 (ix2 1 e)) n
  · simp [h]
  · simp [h]

/-! ## The index words a gather reads, a negative word wrapped by the node count -/

theorem wrap_v21 (x5 : (⟨S2x1600000, .i32⟩ : BufTy).Contents (Elt Ideal)) (e : Fin 1700000) :
    val_main_v21 (F := Ideal) x5 (ix2 e 0) = Gcn.wrap (Gcn.swf (fun e => x5 (ix2 0 e)) e) := by
  rw [val_main_v21_apply, col_v21, val_main_v20_apply, val_main_v17_apply, val_main_v19_apply, val_main_v16_apply,
    val_main_v18_apply, val_main_c_apply, val_main_c_3_apply, srcf_ref]
  rfl

theorem wrap_v28 (x5 : (⟨S2x1600000, .i32⟩ : BufTy).Contents (Elt Ideal)) (e : Fin 1700000) :
    val_main_v28 (F := Ideal) x5 (ix2 e 0) = Gcn.wrap (Gcn.dwf (fun e => x5 (ix2 1 e)) e) := by
  rw [val_main_v28_apply, col_v28, val_main_v27_apply, val_main_v24_apply, val_main_v26_apply, val_main_v23_apply,
    val_main_v25_apply, val_main_c_4_apply, val_main_c_5_apply, dstf_ref]
  rfl

theorem wrap_v36 (x5 : (⟨S2x1600000, .i32⟩ : BufTy).Contents (Elt Ideal)) (e : Fin 1700000) :
    val_main_v36 (F := Ideal) x5 (ix2 e 0) = Gcn.wrap (Gcn.swf (fun e => x5 (ix2 0 e)) e) := by
  rw [val_main_v36_apply, col_v36, val_main_v35_apply, val_main_v32_apply, val_main_v34_apply, val_main_v31_apply,
    val_main_v33_apply, val_main_c_6_apply, val_main_c_7_apply, srcf_ref]
  rfl

/-- The node a gather reads (its index word read signed and clamped into range) when the word is a wrapped word. -/
theorem gnode_of_wrap {w w' : BitVec 32} (h : w = Gcn.wrap w') (hlt : min w.toInt.toNat (100000 - 1) < 100000) :
    (⟨min w.toInt.toNat (100000 - 1), hlt⟩ : Fin 100000) = Gcn.gnode w' := by
  subst h
  rfl

/-! ## The edge weights -/

/-- An extended edge's weight: the product of the normalisers of the two nodes its words gather. -/
theorem norm_ref (x5 : (⟨S2x1600000, .i32⟩ : BufTy).Contents (Elt Ideal)) (j : Fin 1700000) :
    val_main_v30 (F := Ideal) x5 (ix1 j) = Gcn.normR (fun e => x5 (ix2 0 e)) (fun e => x5 (ix2 1 e)) j := by
  have h22 : val_main_v22 (F := Ideal) x5 (ix1 j)
      = Gcn.disR (fun e => x5 (ix2 1 e)) (Gcn.gnode (Gcn.swf (fun e => x5 (ix2 0 e)) j)) := by
    unfold val_main_v22
    refine (IndexOps.vecGather_apply (N := 100000) (M := 1700000) (by omega) _ (val_main_v15 (F := Ideal) x5)
      (val_main_v21 (F := Ideal) x5) j).trans ?_
    rw [gnode_of_wrap (wrap_v21 x5 j)]
    exact dis_ref x5 (Gcn.gnode (Gcn.swf (fun e => x5 (ix2 0 e)) j))
  have h29 : val_main_v29 (F := Ideal) x5 (ix1 j)
      = Gcn.disR (fun e => x5 (ix2 1 e)) (Gcn.gnode (Gcn.dwf (fun e => x5 (ix2 1 e)) j)) := by
    unfold val_main_v29
    refine (IndexOps.vecGather_apply (N := 100000) (M := 1700000) (by omega) _ (val_main_v15 (F := Ideal) x5)
      (val_main_v28 (F := Ideal) x5) j).trans ?_
    rw [gnode_of_wrap (wrap_v28 x5 j)]
    exact dis_ref x5 (Gcn.gnode (Gcn.dwf (fun e => x5 (ix2 1 e)) j))
  rw [val_main_v30_apply, h22, h29]
  rfl

/-! ## The first layer -/

/-- The linear image of the features, at a node and an output feature. -/
theorem lin1_ref (x0 : (⟨S100000x2, .f32⟩ : BufTy).Contents (Elt Ideal)) (x1 : (⟨S2x64, .f32⟩ : BufTy).Contents (Elt Ideal))
    (m : Fin 100000) (f : Fin 64) :
    val_main_v4 (F := Ideal) x0 x1 (ix2 m f) = Gcn.lin1 (fun n k => x0 (ix2 n k)) (fun k f => x1 (ix2 k f)) m f := by
  rw [val_main_v4_apply]
  unfold Gcn.lin1
  refine Finset.sum_congr rfl fun k _ => ?_
  exact congrArg₂ (· * ·)
    (congrArg x0 (funext fun a => Fin.ext (by match a with | ⟨0, _⟩ => rfl | ⟨1, _⟩ => rfl)))
    (congrArg x1 (funext fun a => Fin.ext (by match a with | ⟨0, _⟩ => rfl | ⟨1, _⟩ => rfl)))

/-- A message: the linear image of the gathered source row times the edge's weight. -/
theorem msg1_ref (x0 : (⟨S100000x2, .f32⟩ : BufTy).Contents (Elt Ideal)) (x1 : (⟨S2x64, .f32⟩ : BufTy).Contents (Elt Ideal))
    (x5 : (⟨S2x1600000, .i32⟩ : BufTy).Contents (Elt Ideal)) (e : Fin 1700000) (f : Fin 64) :
    val_main_v40 (F := Ideal) x0 x1 x5 (ix2 e f)
      = Gcn.lin1 (fun n k => x0 (ix2 n k)) (fun k f => x1 (ix2 k f)) (Gcn.gnode (Gcn.swf (fun e => x5 (ix2 0 e)) e)) f
        * Gcn.normR (fun e => x5 (ix2 0 e)) (fun e => x5 (ix2 1 e)) e := by
  have h37 : val_main_v37 (F := Ideal) x0 x1 x5 (ix2 e f)
      = Gcn.lin1 (fun n k => x0 (ix2 n k)) (fun k f => x1 (ix2 k f)) (Gcn.gnode (Gcn.swf (fun e => x5 (ix2 0 e)) e)) f := by
    unfold val_main_v37
    refine (IndexOps.rowGather_apply (N := 100000) (M := 1700000) (D := 64) (by omega) _ (val_main_v4 (F := Ideal) x0 x1)
      (val_main_v36 (F := Ideal) x5) e f).trans ?_
    rw [gnode_of_wrap (wrap_v36 x5 e)]
    exact lin1_ref x0 x1 (Gcn.gnode (Gcn.swf (fun e => x5 (ix2 0 e)) e)) f
  rw [val_main_v40_apply, h37, val_main_v39_apply, val_main_v38_apply, col_v39, norm_ref]
  rfl

/-- The first layer's output, clipped below at zero. -/
theorem h_ref (x0 : (⟨S100000x2, .f32⟩ : BufTy).Contents (Elt Ideal)) (x1 : (⟨S2x64, .f32⟩ : BufTy).Contents (Elt Ideal))
    (x2 : (⟨S64, .f32⟩ : BufTy).Contents (Elt Ideal)) (x5 : (⟨S2x1600000, .i32⟩ : BufTy).Contents (Elt Ideal))
    (n : Fin 100000) (f : Fin 64) :
    val_main_v47 (F := Ideal) x0 x1 x2 x5 (ix2 n f)
      = Gcn.hR (fun n k => x0 (ix2 n k)) (fun k f => x1 (ix2 k f)) (fun f => x2 (ix1 f))
          (fun e => x5 (ix2 0 e)) (fun e => x5 (ix2 1 e)) n f := by
  have h43 : val_main_v43 (F := Ideal) x0 x1 x5 (ix2 n f)
      = 0 + ∑ j ∈ univ.filter (fun j => Gcn.lands (Gcn.dwf (fun e => x5 (ix2 1 e)) j) n),
          Gcn.lin1 (fun n k => x0 (ix2 n k)) (fun k f => x1 (ix2 k f)) (Gcn.gnode (Gcn.swf (fun e => x5 (ix2 0 e)) j)) f
            * Gcn.normR (fun e => x5 (ix2 0 e)) (fun e => x5 (ix2 1 e)) j := by
    unfold val_main_v43
    refine (IndexOps.rowScatterAdd_apply (N := 100000) (M := 1700000) (D := 64) _ (val_main_v41 (F := Ideal))
      (val_main_v42 (F := Ideal) x5) (val_main_v40 (F := Ideal) x0 x1 x5) n f).trans ?_
    have h0 : val_main_v41 (F := Ideal) (ix2 n f) = 0 := by
      rw [val_main_v41_apply, val_main_cst_8_apply, Ideal.ofBits_def, Ideal.ofBits_zero_f32]
    have hw : ∀ e : Fin 1700000, val_main_v42 (F := Ideal) x5 (ix2 e 0) = Gcn.dwf (fun e => x5 (ix2 1 e)) e := fun e => by
      rw [val_main_v42_apply, col_v42, dstf_ref]
    rw [h0]
    refine congrArg (0 + ·) (Finset.sum_congr ?_ (fun e _ => msg1_ref x0 x1 x5 e f))
    ext e
    simp only [Finset.mem_filter, Finset.mem_univ, true_and, hw e]
    exact Iff.rfl
  rw [val_main_v47_apply, val_main_v46_apply, h43, val_main_v45_apply, val_main_v44_apply, col_v45,
    val_main_call1_v0_apply, val_main_call1_cst_apply, Ideal.ofBits_def, Ideal.ofBits_zero_f32]
  rfl

end Cert.ReferenceIdeal.RefVal

end
-- ==== Proof.RefVal2.lean ====
/-
  THE REFERENCE'S SECOND LAYER, READ AT AN INDEX.

  The second layer recomputes the extended edge list, the degree, the normaliser and the edge weights from the edge
  array exactly as the first layer did (`srcf2_ref`, `dstf2_ref`, `deg2_ref`, `dis2_ref`, `norm2_ref`). Its input is the
  first layer's clipped output times the second weight matrix (`lin2_ref`). A message is the row of that product at the
  node the edge's source word gathers, times the edge's weight (`msg2_ref`); the layer's output at a node is the sum of
  the messages over the extended edges whose target word lands on the node, plus the bias (`z_ref`).
-/
import proofs.«419793_j38981123178585_3_alg».proof.Proof.RefVal1

noncomputable section

open scoped BigOperators

namespace Cert.ReferenceIdeal.RefVal

open Cert.ReferenceIdeal Cert.ReferenceIdeal.ReadP
open Cert.ReferenceIdeal.Gen Idealize.ShloMosaic Idealize.ShloMosaic.TcCoe Idealize.SL.Sem Idealize.ShloMosaic.StableHlo
open Idealize.ShloMosaic.ValueIdx Finset

/-! ## Indices and the zero matrix -/

/-- Two indices of a vector with the same coordinate are equal. -/
private theorem ext1 {n : Nat} {p q : (⟨1, ![n]⟩ : Shape).Idx} (h : p 0 = q 0) : p = q :=
  funext fun a => by match a with | ⟨0, _⟩ => exact h

/-- Two indices of a matrix with the same two coordinates are equal. -/
private theorem ext2 {n0 n1 : Nat} {p q : (⟨2, ![n0, n1]⟩ : Shape).Idx} (h0 : p 0 = q 0) (h1 : p 1 = q 1) : p = q :=
  funext fun a => by match a with | ⟨0, _⟩ => exact h0 | ⟨1, _⟩ => exact h1

/-- The second layer's scatter starts from the zero matrix. -/
private theorem zero85 (i : S100000x32.Idx) : val_main_v85 (F := Ideal) i = 0 := by
  rw [val_main_v85_apply, val_main_cst_19_apply]; exact Ideal.ofBits_zero_f32

/-! ## The second layer's copies of the extended edge list, the degree, the normaliser and the edge weights

The second layer recomputes them by the same operations on the same argument: each stage is, as a function of the
edge array, the first layer's stage, so each fact is the first layer's. -/

/-- The source words of the extended edge list. -/
theorem srcf2_ref (x5 : (⟨S2x1600000, .i32⟩ : BufTy).Contents (Elt Ideal)) (j : Fin 1700000) :
    val_main_v50 (F := Ideal) x5 (ix1 j) = Gcn.swf (fun e => x5 (ix2 0 e)) j := srcf_ref x5 j

/-- The target words of the extended edge list. -/
theorem dstf2_ref (x5 : (⟨S2x1600000, .i32⟩ : BufTy).Contents (Elt Ideal)) (j : Fin 1700000) :
    val_main_v51 (F := Ideal) x5 (ix1 j) = Gcn.dwf (fun e => x5 (ix2 1 e)) j := dstf_ref x5 j

/-- The degree: a one for every extended edge whose target word lands on the node. -/
theorem deg2_ref (x5 : (⟨S2x1600000, .i32⟩ : BufTy).Contents (Elt Ideal)) (n : Fin 100000) :
    val_main_v55 (F := Ideal) x5 (ix1 n) = Gcn.degR (fun e => x5 (ix2 1 e)) n := deg_ref x5 n

/-- The normaliser: the reciprocal square root of a positive degree, zero otherwise. -/
theorem dis2_ref (x5 : (⟨S2x1600000, .i32⟩ : BufTy).Contents (Elt Ideal)) (n : Fin 100000) :
    val_main_v59 (F := Ideal) x5 (ix1 n) = Gcn.disR (fun e => x5 (ix2 1 e)) n := dis_ref x5 n

/-- An extended edge's weight: the product of the normalisers of the two nodes its words gather. -/
theorem norm2_ref (x5 : (⟨S2x1600000, .i32⟩ : BufTy).Contents (Elt Ideal)) (j : Fin 1700000) :
    val_main_v74 (F := Ideal) x5 (ix1 j) = Gcn.normR (fun e => x5 (ix2 0 e)) (fun e => x5 (ix2 1 e)) j := norm_ref x5 j

/-! ## The second layer -/

/-- The linear image of the first layer's output: its row at a node times the second weight matrix. -/
theorem lin2_ref (x0 : (⟨S100000x2, .f32⟩ : BufTy).Contents (Elt Ideal)) (x1 : (⟨S2x64, .f32⟩ : BufTy).Contents (Elt Ideal))
    (x2 : (⟨S64, .f32⟩ : BufTy).Contents (Elt Ideal)) (x3 : (⟨S64x32, .f32⟩ : BufTy).Contents (Elt Ideal))
    (x5 : (⟨S2x1600000, .i32⟩ : BufTy).Contents (Elt Ideal)) (n : Fin 100000) (g : Fin 32) :
    val_main_v48 (F := Ideal) x0 x1 x2 x3 x5 (ix2 n g)
      = Gcn.lin2R (fun n k => x0 (ix2 n k)) (fun k f => x1 (ix2 k f)) (fun f => x2 (ix1 f)) (fun f g => x3 (ix2 f g))
          (fun e => x5 (ix2 0 e)) (fun e => x5 (ix2 1 e)) n g := by
  rw [val_main_v48_apply]
  unfold Gcn.lin2R
  refine Finset.sum_congr rfl fun k _ => ?_
  rw [show lidx_main_v48 (ix2 n g) k = ix2 n k from ext2 rfl rfl,
    show ridx_main_v48 (ix2 n g) k = ix2 k g from ext2 rfl rfl, h_ref]

/-- The index word the second layer's row gather reads for an extended edge: its source word, a negative word wrapped
    by the node count. -/
theorem wrap_v80 (x5 : (⟨S2x1600000, .i32⟩ : BufTy).Contents (Elt Ideal)) (e : Fin 1700000) :
    val_main_v80 (F := Ideal) x5 (ix2 e 0) = Gcn.wrap (Gcn.swf (fun e => x5 (ix2 0 e)) e) := by
  rw [val_main_v80_apply, show idx_main_v80 (ix2 e 0) = ix1 e from ext1 rfl, val_main_v79_apply, val_main_v76_apply,
    val_main_v78_apply, val_main_v75_apply, val_main_v77_apply, val_main_c_17_apply, val_main_c_18_apply, srcf2_ref]
  rfl

/-- A message of the second layer: the linear image at the node the edge's source word gathers, times the edge's
    weight (the weight is spread along the row, so every column of row `e` reads the weight of edge `e`). -/
theorem msg2_ref (x0 : (⟨S100000x2, .f32⟩ : BufTy).Contents (Elt Ideal)) (x1 : (⟨S2x64, .f32⟩ : BufTy).Contents (Elt Ideal))
    (x2 : (⟨S64, .f32⟩ : BufTy).Contents (Elt Ideal)) (x3 : (⟨S64x32, .f32⟩ : BufTy).Contents (Elt Ideal))
    (x5 : (⟨S2x1600000, .i32⟩ : BufTy).Contents (Elt Ideal)) (e : Fin 1700000) (g : Fin 32) :
    val_main_v84 (F := Ideal) x0 x1 x2 x3 x5 (ix2 e g)
      = Gcn.lin2R (fun n k => x0 (ix2 n k)) (fun k f => x1 (ix2 k f)) (fun f => x2 (ix1 f)) (fun f g => x3 (ix2 f g))
          (fun e => x5 (ix2 0 e)) (fun e => x5 (ix2 1 e)) (Gcn.gnode (Gcn.swf (fun e => x5 (ix2 0 e)) e)) g
        * Gcn.normR (fun e => x5 (ix2 0 e)) (fun e => x5 (ix2 1 e)) e := by
  have h81 : val_main_v81 (F := Ideal) x0 x1 x2 x3 x5 (ix2 e g)
      = Gcn.lin2R (fun n k => x0 (ix2 n k)) (fun k f => x1 (ix2 k f)) (fun f => x2 (ix1 f)) (fun f g => x3 (ix2 f g))
          (fun e => x5 (ix2 0 e)) (fun e => x5 (ix2 1 e)) (Gcn.gnode (Gcn.swf (fun e => x5 (ix2 0 e)) e)) g := by
    unfold val_main_v81
    refine (IndexOps.rowGather_apply (N := 100000) (M := 1700000) (D := 32) (by omega) _
      (val_main_v48 (F := Ideal) x0 x1 x2 x3 x5) (val_main_v80 (F := Ideal) x5) e g).trans ?_
    rw [gnode_of_wrap (wrap_v80 x5 e)]
    exact lin2_ref x0 x1 x2 x3 x5 (Gcn.gnode (Gcn.swf (fun e => x5 (ix2 0 e)) e)) g
  rw [val_main_v84_apply, h81, val_main_v83_apply, val_main_v82_apply,
    show idx_main_v82 (idx_main_v83 (ix2 e g)) = ix1 e from ext1 rfl, norm2_ref]
  rfl

/-- THE SECOND LAYER'S OUTPUT at a node: the sum, over the extended edges whose target word lands on it, of the
    messages, plus the bias (spread along the node axis: every row reads the bias at the column). -/
theorem z_ref (x0 : (⟨S100000x2, .f32⟩ : BufTy).Contents (Elt Ideal)) (x1 : (⟨S2x64, .f32⟩ : BufTy).Contents (Elt Ideal))
    (x2 : (⟨S64, .f32⟩ : BufTy).Contents (Elt Ideal)) (x3 : (⟨S64x32, .f32⟩ : BufTy).Contents (Elt Ideal))
    (x4 : (⟨S32, .f32⟩ : BufTy).Contents (Elt Ideal)) (x5 : (⟨S2x1600000, .i32⟩ : BufTy).Contents (Elt Ideal))
    (n : Fin 100000) (g : Fin 32) :
    val_main_v90 (F := Ideal) x0 x1 x2 x3 x4 x5 (ix2 n g)
      = Gcn.zR (fun n k => x0 (ix2 n k)) (fun k f => x1 (ix2 k f)) (fun f => x2 (ix1 f)) (fun f g => x3 (ix2 f g)) (fun g => x4 (ix1 g)) (fun e => x5 (ix2 0 e)) (fun e => x5 (ix2 1 e)) n g := by
  have h87 : val_main_v87 (F := Ideal) x0 x1 x2 x3 x5 (ix2 n g)
      = 0 + ∑ j ∈ univ.filter (fun j => Gcn.lands (Gcn.dwf (fun e => x5 (ix2 1 e)) j) n),
          Gcn.lin2R (fun n k => x0 (ix2 n k)) (fun k f => x1 (ix2 k f)) (fun f => x2 (ix1 f)) (fun f g => x3 (ix2 f g))
              (fun e => x5 (ix2 0 e)) (fun e => x5 (ix2 1 e)) (Gcn.gnode (Gcn.swf (fun e => x5 (ix2 0 e)) j)) g
            * Gcn.normR (fun e => x5 (ix2 0 e)) (fun e => x5 (ix2 1 e)) j := by
    unfold val_main_v87
    refine (IndexOps.rowScatterAdd_apply (N := 100000) (M := 1700000) (D := 32) _ (val_main_v85 (F := Ideal))
      (val_main_v86 (F := Ideal) x5) (val_main_v84 (F := Ideal) x0 x1 x2 x3 x5) n g).trans ?_
    refine congrArg₂ (· + ·) (zero85 _)
      (Finset.sum_congr (Finset.filter_congr fun e _ => ?_) fun e _ => msg2_ref x0 x1 x2 x3 x5 e g)
    rw [val_main_v86_apply, show idx_main_v86 (ix2 e 0) = ix1 e from ext1 rfl, dstf2_ref]
    exact Iff.rfl
  rw [val_main_v90_apply, h87, val_main_v89_apply, val_main_v88_apply,
    show idx_main_v88 (idx_main_v89 (ix2 n g)) = ix1 g from ext1 rfl]
  rfl

end Cert.ReferenceIdeal.RefVal

end
-- ==== Proof.RefVal3.lean ====
/-
  THE END OF THE REFERENCE'S VALUE: THE POOL AND THE MEAN, READ AT AN INDEX.

  The per-graph sums add the second layer's rows over the nodes whose graph-id word lands on the graph (`sums_ref`); the
  node count of a graph is a one for every such node (`cnt_ref`); the result divides each graph's sums by its count
  clipped below at one, the count spread along the feature axis (`ref_value`).
-/
import proofs.«419793_j38981123178585_3_alg».proof.Proof.RefRead
import proofs.«419793_j38981123178585_3_alg».proof.Proof.Spec
import proofs.«419793_j38981123178585_3_alg».proof.Proof.LibScatterGather
import proofs.«419793_j38981123178585_3_alg».proof.Proof.RefVal1
import proofs.«419793_j38981123178585_3_alg».proof.Proof.RefVal2
import Idealize.ShloMosaic.Lib.ValueIdx
import Idealize.ShloMosaic.Lib.Pipeline.Value
import Idealize.ShloMosaic.PureOps.Ideal.Laws

noncomputable section

open scoped BigOperators

namespace Cert.ReferenceIdeal.RefVal

open Cert.ReferenceIdeal Cert.ReferenceIdeal.ReadP Idealize.ShloMosaic Idealize.ShloMosaic.ValueIdx

/-! ## A column read at its one column, a row-constant array read at a row -/

/-- The graph-id column read at row `e` is the graph-id vector at `e`. -/
private theorem col_v92 (e : Fin 100000) : idx_main_v92 (ix2 e (0 : Fin 1)) = ix1 e :=
  funext fun a => Fin.ext (by match a with | ⟨0, _⟩ => rfl)
private theorem col_v96 (e : Fin 100000) : idx_main_v96 (ix2 e (0 : Fin 1)) = ix1 e :=
  funext fun a => Fin.ext (by match a with | ⟨0, _⟩ => rfl)
/-- The clipped counts spread along the feature axis: every column of row `g` reads the count of graph `g`. -/
private theorem col_v101 (g : Fin 64) (d : Fin 32) : idx_main_v100 (idx_main_v101 (ix2 g d)) = ix1 g :=
  funext fun a => Fin.ext (by match a with | ⟨0, _⟩ => rfl)

/-! ## The pool -/

/-- The per-graph sums: the second layer's rows added over the nodes whose graph-id word lands on the graph. -/
theorem sums_ref (x0 : (⟨S100000x2, .f32⟩ : BufTy).Contents (Elt Ideal)) (x1 : (⟨S2x64, .f32⟩ : BufTy).Contents (Elt Ideal)) (x2 : (⟨S64, .f32⟩ : BufTy).Contents (Elt Ideal)) (x3 : (⟨S64x32, .f32⟩ : BufTy).Contents (Elt Ideal)) (x4 : (⟨S32, .f32⟩ : BufTy).Contents (Elt Ideal)) (x5 : (⟨S2x1600000, .i32⟩ : BufTy).Contents (Elt Ideal)) (x6 : (⟨S100000, .i32⟩ : BufTy).Contents (Elt Ideal)) (g : Fin 64) (d : Fin 32) :
    val_main_v93 (F := Ideal) x0 x1 x2 x3 x4 x5 x6 (ix2 g d)
      = Gcn.sumsR (fun n k => x0 (ix2 n k)) (fun k f => x1 (ix2 k f)) (fun f => x2 (ix1 f)) (fun f g => x3 (ix2 f g)) (fun g => x4 (ix1 g)) (fun e => x5 (ix2 0 e)) (fun e => x5 (ix2 1 e)) (fun n => x6 (ix1 n)) g d := by
  unfold val_main_v93
  refine (IndexOps.rowScatterAdd_apply (N := 64) (M := 100000) (D := 32) _ (val_main_v91 (F := Ideal))
    (val_main_v92 (F := Ideal) x6) (val_main_v90 (F := Ideal) x0 x1 x2 x3 x4 x5) g d).trans ?_
  unfold Gcn.sumsR
  have h0 : val_main_v91 (F := Ideal) (ix2 g d) = 0 := by
    rw [val_main_v91_apply, val_main_cst_20_apply, Ideal.ofBits_def, Ideal.ofBits_zero_f32]
  have hw : ∀ e : Fin 100000, val_main_v92 (F := Ideal) x6 (ix2 e 0) = x6 (ix1 e) := fun e => by
    rw [val_main_v92_apply, col_v92]
  rw [h0]
  refine congrArg (0 + ·) (Finset.sum_congr ?_ (fun e _ => z_ref x0 x1 x2 x3 x4 x5 e d))
  ext e
  simp only [Finset.mem_filter, Finset.mem_univ, true_and, hw e]
  exact Iff.rfl

/-- The node counts: a one for every node whose graph-id word lands on the graph. -/
theorem cnt_ref (x6 : (⟨S100000, .i32⟩ : BufTy).Contents (Elt Ideal)) (g : Fin 64) :
    val_main_v97 (F := Ideal) x6 (ix1 g) = Gcn.cnt (fun n => x6 (ix1 n)) g := by
  unfold val_main_v97
  refine (IndexOps.vecScatterAdd_apply (N := 64) (M := 100000) _ (val_main_v95 (F := Ideal))
    (val_main_v96 (F := Ideal) x6) (val_main_v94 (F := Ideal)) g).trans ?_
  unfold Gcn.cnt
  have h0 : val_main_v95 (F := Ideal) (ix1 g) = 0 := by
    rw [val_main_v95_apply, val_main_cst_22_apply, Ideal.ofBits_def, Ideal.ofBits_zero_f32]
  have h1 : ∀ e : Fin 100000, val_main_v94 (F := Ideal) (ix1 e) = 1 := fun e => by
    rw [val_main_v94_apply, val_main_cst_21_apply, Ideal.ofBits_def, ofBits_one_f32]
  have hw : ∀ e : Fin 100000, val_main_v96 (F := Ideal) x6 (ix2 e 0) = x6 (ix1 e) := fun e => by
    rw [val_main_v96_apply, col_v96]
  rw [h0]
  refine congrArg (0 + ·) (Finset.sum_congr ?_ (fun e _ => h1 e))
  ext e
  simp only [Finset.mem_filter, Finset.mem_univ, true_and, hw e]
  exact Iff.rfl

/-! ## The mean -/

/-- The reference's result: each graph's sums divided by its node count clipped below at one. -/
theorem ref_value (x0 : (⟨S100000x2, .f32⟩ : BufTy).Contents (Elt Ideal)) (x1 : (⟨S2x64, .f32⟩ : BufTy).Contents (Elt Ideal)) (x2 : (⟨S64, .f32⟩ : BufTy).Contents (Elt Ideal)) (x3 : (⟨S64x32, .f32⟩ : BufTy).Contents (Elt Ideal)) (x4 : (⟨S32, .f32⟩ : BufTy).Contents (Elt Ideal)) (x5 : (⟨S2x1600000, .i32⟩ : BufTy).Contents (Elt Ideal)) (x6 : (⟨S100000, .i32⟩ : BufTy).Contents (Elt Ideal)) (g : Fin 64) (d : Fin 32) :
    val_main_v102 (F := Ideal) x0 x1 x2 x3 x4 x5 x6 (ix2 g d)
      = Gcn.outR (fun n k => x0 (ix2 n k)) (fun k f => x1 (ix2 k f)) (fun f => x2 (ix1 f)) (fun f g => x3 (ix2 f g)) (fun g => x4 (ix1 g)) (fun e => x5 (ix2 0 e)) (fun e => x5 (ix2 1 e)) (fun n => x6 (ix1 n)) g d := by
  rw [val_main_v102_apply, sums_ref, val_main_v101_apply, val_main_v100_apply, col_v101, val_main_v99_apply, cnt_ref,
    val_main_v98_apply, val_main_cst_23_apply, Ideal.ofBits_def, ofBits_one_f32]
  rfl

end Cert.ReferenceIdeal.RefVal

end
-- ==== Proof.MathIdx.lean ====
/-
  The combinatorics of the index words: the extended edge list splits into the listed edges and the self-loops,
  a word that lands on a node is the word a row gather reads back as that node, the in-degree with the self-loop
  is a positive natural number (so `deg^(-1/2)` is a real), and the one-hot weighted sum is the sum over the
  nodes whose graph-id word lands on the graph.
-/
import proofs.«419793_j38981123178585_3_alg».proof.Proof.Spec
import Mathlib.Algebra.BigOperators.Fin
import Mathlib.Analysis.Real.Sqrt
import Mathlib.Data.EReal.Basic

noncomputable section

open scoped BigOperators

namespace Gcn

open Idealize.ShloMosaic Finset

/-- the extended edge list's index for a listed edge, and for node n's self-loop -/
def castE (e : Fin 1600000) : Fin 1700000 := ⟨e.val, by omega⟩
def loopJ (n : Fin 100000) : Fin 1700000 := ⟨1600000 + n.val, by omega⟩

theorem swf_castE (sw : Fin 1600000 → BitVec 32) (e) : swf sw (castE e) = sw e := by
  have h : (castE e).val < 1600000 := e.isLt
  unfold swf
  rw [dif_pos h]
  rfl

theorem dwf_castE (dw : Fin 1600000 → BitVec 32) (e) : dwf dw (castE e) = dw e := by
  have h : (castE e).val < 1600000 := e.isLt
  unfold dwf
  rw [dif_pos h]
  rfl

theorem swf_loopJ (sw) (n : Fin 100000) : swf sw (loopJ n) = BitVec.ofNat 32 n.val := by
  have h : ¬ (loopJ n).val < 1600000 := by
    show ¬ (1600000 + n.val < 1600000)
    omega
  have hs : (loopJ n).val - 1600000 = n.val := by
    show 1600000 + n.val - 1600000 = n.val
    omega
  unfold swf
  rw [dif_neg h, hs]

theorem dwf_loopJ (dw) (n : Fin 100000) : dwf dw (loopJ n) = BitVec.ofNat 32 n.val := by
  have h : ¬ (loopJ n).val < 1600000 := by
    show ¬ (1600000 + n.val < 1600000)
    omega
  have hs : (loopJ n).val - 1600000 = n.val := by
    show 1600000 + n.val - 1600000 = n.val
    omega
  unfold dwf
  rw [dif_neg h, hs]

/-- a natural number below 2^31, as a 32-bit word read signed, is itself -/
private theorem toInt_ofNat_small {k : Nat} (h : k < 2147483648) : (BitVec.ofNat 32 k).toInt = (k : Int) := by
  have hk : (BitVec.ofNat 32 k).toNat = k := by
    rw [BitVec.toNat_ofNat]
    exact Nat.mod_eq_of_lt (by omega)
  rw [BitVec.toInt_eq_toNat_of_lt (by rw [hk]; omega), hk]

theorem lands_ofNat (n n' : Fin 100000) : lands (BitVec.ofNat 32 n.val) n' ↔ n = n' := by
  unfold lands
  rw [toInt_ofNat_small (by have := n.isLt; omega)]
  constructor
  · intro h
    exact Fin.ext (by exact_mod_cast h)
  · intro h
    rw [h]

/-- a word whose signed value is not negative is left alone by the wrap -/
private theorem wrap_of_nonneg {w : BitVec 32} (h : 0 ≤ w.toInt) : wrap w = w := by
  have hs : w.slt 0#32 = false := by
    rw [BitVec.slt_eq_decide, BitVec.toInt_zero]
    exact decide_eq_false (by omega)
  have hc : Scalar.cmpi .slt w 0#32 = 0#1 := by
    show BitVec.ofBool (w.slt 0#32) = 0#1
    rw [hs]
    rfl
  unfold wrap
  rw [hc]
  exact ValueIdx.select_zero _ _

/-- a word that lands on a node is read back as that node by a row gather -/
theorem gnode_of_lands {w : BitVec 32} {n : Fin 100000} (h : lands w n) : gnode w = n := by
  unfold lands at h
  have h0 : 0 ≤ w.toInt := by rw [h]; exact Int.natCast_nonneg _
  have hw : (wrap w).toInt = (n.val : Int) := by rw [wrap_of_nonneg h0, h]
  apply Fin.ext
  show min (wrap w).toInt.toNat 99999 = n.val
  rw [hw]
  have := n.isLt
  omega

theorem gnode_ofNat (n : Fin 100000) : gnode (BitVec.ofNat 32 n.val) = n :=
  gnode_of_lands ((lands_ofNat n n).2 rfl)

/-- a sum over the extended edges landing on n: the listed edges landing on n, plus the self-loop of n -/
theorem sum_landsF {M : Type*} [AddCommMonoid M] (dw : Fin 1600000 → BitVec 32) (n : Fin 100000) (G : Fin 1700000 → M) :
    ∑ j ∈ univ.filter (fun j => lands (dwf dw j) n), G j = ∑ e ∈ univ.filter (fun e => lands (dw e) n), G (castE e) + G (loopJ n) := by
  rw [Finset.sum_filter, Finset.sum_filter]
  -- a listed edge's place in the extended list carries the listed word
  have h1 : ∀ e : Fin 1600000,
      (if lands (dwf dw (Fin.castAdd 100000 e)) n then G (Fin.castAdd 100000 e) else 0)
        = (if lands (dw e) n then G (castE e) else 0) := by
    intro e
    have he : (Fin.castAdd 100000 e : Fin (1600000 + 100000)) = castE e := rfl
    rw [he, dwf_castE]
  -- the self-loops landing on n are exactly the loop of n
  have h2 : ∀ i : Fin 100000,
      (if lands (dwf dw (Fin.natAdd 1600000 i)) n then G (Fin.natAdd 1600000 i) else 0)
        = (if i = n then G (loopJ i) else 0) := by
    intro i
    have hi : (Fin.natAdd 1600000 i : Fin (1600000 + 100000)) = loopJ i := rfl
    rw [hi, dwf_loopJ]
    exact if_congr (lands_ofNat i n) rfl rfl
  -- the extended list is the listed edges followed by the self-loops
  calc (∑ j : Fin 1700000, if lands (dwf dw j) n then G j else 0)
      = (∑ e : Fin 1600000, if lands (dwf dw (Fin.castAdd 100000 e)) n then G (Fin.castAdd 100000 e) else 0)
        + ∑ i : Fin 100000, if lands (dwf dw (Fin.natAdd 1600000 i)) n then G (Fin.natAdd 1600000 i) else 0 :=
        Fin.sum_univ_add (M := M) (a := 1600000) (b := 100000)
          (fun j : Fin (1600000 + 100000) => if lands (dwf dw j) n then G j else 0)
    _ = (∑ e : Fin 1600000, if lands (dw e) n then G (castE e) else 0)
        + ∑ i : Fin 100000, if i = n then G (loopJ i) else 0 :=
        congrArg₂ (· + ·) (Finset.sum_congr rfl fun e _ => h1 e) (Finset.sum_congr rfl fun i _ => h2 i)
    _ = (∑ e : Fin 1600000, if lands (dw e) n then G (castE e) else 0) + G (loopJ n) := by
        rw [Finset.sum_ite_eq' univ n (fun i => G (loopJ i)), if_pos (Finset.mem_univ n)]

/-- the in-degree with the self-loop is a positive real: the number of listed edges landing on n, plus one -/
def degN (dw : Fin 1600000 → BitVec 32) (n : Fin 100000) : ℕ := (univ.filter (fun e => lands (dw e) n)).card + 1

theorem degK_eq (dw) (n) : degK dw n = ((degN dw n : ℝ) : EReal) := by
  unfold degK degN
  rw [Finset.sum_const, nsmul_one, zero_add, Nat.cast_add, Nat.cast_one, EReal.coe_add, EReal.coe_one,
    EReal.coe_natCast]

theorem degR_eq (dw) (n) : degR dw n = ((degN dw n : ℝ) : EReal) := by
  rw [← degK_eq]
  unfold degR degK
  rw [sum_landsF dw n (fun _ => (1 : EReal)), zero_add, zero_add]

/-- the in-degree with the self-loop is positive -/
theorem degN_pos (dw : Fin 1600000 → BitVec 32) (n : Fin 100000) : (0 : ℝ) < (degN dw n : ℝ) :=
  Nat.cast_pos.mpr (Nat.succ_pos _)

/-- deg^(-1/2) as a real -/
def disN (dw : Fin 1600000 → BitVec 32) (n : Fin 100000) : ℝ := (Real.sqrt (degN dw n))⁻¹

theorem disK_eq (dw) (n) : disK dw n = ((disN dw n : ℝ) : EReal) := by
  have hpos := degN_pos dw n
  unfold disK disN
  rw [degK_eq, Ideal.rsqrt_coe, if_neg (not_lt.mpr hpos.le), if_neg hpos.ne']

theorem disR_eq (dw) (n) : disR dw n = ((disN dw n : ℝ) : EReal) := by
  have hpos := degN_pos dw n
  unfold disR
  rw [degR_eq, if_pos (EReal.coe_pos.mpr hpos), ← degK_eq]
  exact disK_eq dw n

/-- a word lands on graph g exactly when it is the word of g's number -/
private theorem lands_iff_eq_ofNat (w : BitVec 32) (g : Fin 64) : lands w g ↔ w = BitVec.ofNat 32 g.val := by
  unfold lands
  rw [← toInt_ofNat_small (k := g.val) (by have := g.isLt; omega)]
  exact BitVec.toInt_inj

/-- the one-hot weighted sum over all nodes is the sum over the nodes whose graph-id word lands on g -/
theorem sum_oh (bt : Fin 100000 → BitVec 32) (g : Fin 64) (z : Fin 100000 → EReal) :
    ∑ n : Fin 100000, oh (bt n) g * z n = 0 + ∑ n ∈ univ.filter (fun n => lands (bt n) g), z n := by
  rw [zero_add, Finset.sum_filter]
  refine Finset.sum_congr rfl (fun n _ => ?_)
  unfold oh
  by_cases h : lands (bt n) g
  · rw [if_pos h, if_pos ((lands_iff_eq_ofNat (bt n) g).1 h), one_mul]
  · rw [if_neg h, if_neg (mt (lands_iff_eq_ofNat (bt n) g).2 h), zero_mul]

end Gcn

end
-- ==== Proof.Math.lean ====
/-
  The algebra of the certificate: with real inputs, the factored arrangement of the two-layer graph convolution
  (`outK`) and the arrangement with the self-loops listed as edges (`outR`) are one function.

  Every quantity is the coercion of one real number. A layer of the factored arrangement at node `n`, feature `f`
  is `d n · (Σ_e h (s e) f · d (s e)) + (h n f · d n) · d n + b f`; a layer of the listed arrangement is
  `(Σ_e h (s e) f · (d (s e) · d n) + h n f · (d n · d n)) + b f`, after the sum over the extended edges is split
  into the listed edges landing on `n` and the self-loop of `n`. The two agree in ℝ: a factor moves across a
  finite sum, and products commute and associate.
-/
import proofs.«419793_j38981123178585_3_alg».proof.Proof.MathIdx
import Mathlib.Data.EReal.Basic
import Mathlib.Tactic.Ring

noncomputable section

open scoped BigOperators

namespace Gcn
open Idealize.ShloMosaic Finset

/-! ### Coercions -/

/-- the coercion of a finite sum of reals is the sum of the coercions -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- the coercion commutes with the maximum against zero -/
theorem coe_max_zero (a : ℝ) : max (a : EReal) 0 = ((max a 0 : ℝ) : EReal) := by
  rw [← EReal.coe_zero]
  exact (EReal.coe_strictMono.monotone.map_max (a := a) (b := 0)).symm

/-! ### One layer, abstractly -/

/-- the real value of one layer at node `n`, feature `f`: rows `h`, scales `d`, bias `b`, incoming edges `T`
with sources `s` -/
def layV {ε ν φ : Type*} (T : Finset ε) (s : ε → ν) (h : ν → φ → ℝ) (d : ν → ℝ) (b : φ → ℝ) (n : ν) (f : φ) : ℝ :=
  d n * ∑ e ∈ T, h (s e) f * d (s e) + h n f * d n * d n + b f

/-- the factored arrangement of a layer is the coercion of `layV` -/
theorem layK_eq {ε ν φ : Type*} (T : Finset ε) (s : ε → ν) (h : ν → φ → ℝ) (d : ν → ℝ) (b : φ → ℝ) (n : ν) (f : φ) :
    (d n : EReal) * (0 + ∑ e ∈ T, (h (s e) f : EReal) * (d (s e) : EReal))
        + ((h n f : EReal) * (d n : EReal)) * (d n : EReal) + (b f : EReal)
      = ((layV T s h d b n f : ℝ) : EReal) := by
  unfold layV
  simp only [zero_add, ← EReal.coe_mul, ← coe_sum, ← EReal.coe_add]

/-- the arrangement weighting each message by the product of the two scales is the coercion of the same real -/
theorem layR_eq {ε ν φ : Type*} (T : Finset ε) (s : ε → ν) (h : ν → φ → ℝ) (d : ν → ℝ) (b : φ → ℝ) (n : ν) (f : φ) :
    (0 + (∑ e ∈ T, (h (s e) f : EReal) * ((d (s e) : EReal) * (d n : EReal))
        + (h n f : EReal) * ((d n : EReal) * (d n : EReal)))) + (b f : EReal)
      = ((layV T s h d b n f : ℝ) : EReal) := by
  unfold layV
  simp only [zero_add, ← EReal.coe_mul, ← coe_sum, ← EReal.coe_add]
  congr 1
  rw [Finset.mul_sum]
  congr 1
  congr 1
  · exact Finset.sum_congr rfl (fun e _ => by ring)
  · ring

/-! ### The sum over the extended edges -/

/-- a weighted sum over the extended edges landing on `n`: the listed edges landing on `n`, whose target reads
back as `n`, and the self-loop of `n`, both of whose ends read back as `n` -/
theorem sumR_split (sw dw : Fin 1600000 → BitVec 32) (n : Fin 100000) (L : Fin 100000 → EReal) :
    ∑ j ∈ univ.filter (fun j => lands (dwf dw j) n), L (gnode (swf sw j)) * normR sw dw j
      = ∑ e ∈ univ.filter (fun e => lands (dw e) n),
            L (gnode (sw e)) * ((disN dw (gnode (sw e)) : EReal) * (disN dw n : EReal))
          + L n * ((disN dw n : EReal) * (disN dw n : EReal)) := by
  rw [sum_landsF dw n (fun j => L (gnode (swf sw j)) * normR sw dw j)]
  refine congrArg₂ (· + ·) ?_ ?_
  · refine Finset.sum_congr rfl (fun e he => ?_)
    have hl : lands (dw e) n := (Finset.mem_filter.mp he).2
    simp only [normR, swf_castE, dwf_castE, disR_eq, gnode_of_lands hl]
  · simp only [normR, swf_loopJ, dwf_loopJ, gnode_ofNat, disR_eq]

section Real

variable (xr : Fin 100000 → Fin 2 → ℝ) (w1r : Fin 2 → Fin 64 → ℝ) (b1r : Fin 64 → ℝ)
  (w2r : Fin 64 → Fin 32 → ℝ) (b2r : Fin 32 → ℝ)
  (sw dw : Fin 1600000 → BitVec 32) (bt : Fin 100000 → BitVec 32)

/-! ### Layer 1 -/

/-- the first linear map on real inputs -/
def lin1r (n : Fin 100000) (f : Fin 64) : ℝ := ∑ k : Fin 2, xr n k * w1r k f

theorem lin1_coe (n : Fin 100000) (f : Fin 64) :
    lin1 (fun n k => (xr n k : EReal)) (fun k f => (w1r k f : EReal)) n f = ((lin1r xr w1r n f : ℝ) : EReal) := by
  unfold lin1 lin1r
  rw [coe_sum]
  exact Finset.sum_congr rfl (fun k _ => (EReal.coe_mul _ _).symm)

/-- the hidden row as a real -/
def h1r (n : Fin 100000) (f : Fin 64) : ℝ :=
  max (layV (univ.filter (fun e => lands (dw e) n)) (fun e => gnode (sw e)) (lin1r xr w1r) (disN dw) b1r n f) 0

theorem hK_coe (n : Fin 100000) (f : Fin 64) :
    hK (fun n k => (xr n k : EReal)) (fun k f => (w1r k f : EReal)) (fun f => (b1r f : EReal)) sw dw n f
      = ((h1r xr w1r b1r sw dw n f : ℝ) : EReal) := by
  unfold hK h1r
  rw [← coe_max_zero]
  refine congrArg (fun t => max t 0) ?_
  simp only [agK1, sfK1, scK1, disK_eq, lin1_coe]
  exact layK_eq (univ.filter (fun e => lands (dw e) n)) (fun e => gnode (sw e)) (lin1r xr w1r) (disN dw) b1r n f

theorem hR_coe (n : Fin 100000) (f : Fin 64) :
    hR (fun n k => (xr n k : EReal)) (fun k f => (w1r k f : EReal)) (fun f => (b1r f : EReal)) sw dw n f
      = ((h1r xr w1r b1r sw dw n f : ℝ) : EReal) := by
  unfold hR h1r
  rw [← coe_max_zero]
  refine congrArg (fun t => max t 0) ?_
  unfold o1R
  rw [sumR_split sw dw n (fun m => lin1 (fun n k => (xr n k : EReal)) (fun k f => (w1r k f : EReal)) m f)]
  simp only [lin1_coe]
  exact layR_eq (univ.filter (fun e => lands (dw e) n)) (fun e => gnode (sw e)) (lin1r xr w1r) (disN dw) b1r n f

/-- the hidden rows of the two arrangements are one function -/
theorem hK_eq_hR :
    hK (fun n k => (xr n k : EReal)) (fun k f => (w1r k f : EReal)) (fun f => (b1r f : EReal)) sw dw
      = hR (fun n k => (xr n k : EReal)) (fun k f => (w1r k f : EReal)) (fun f => (b1r f : EReal)) sw dw := by
  funext n f
  rw [hK_coe, hR_coe]

/-! ### Layer 2 -/

/-- the second linear map on the real hidden rows -/
def lin2r (n : Fin 100000) (g : Fin 32) : ℝ := ∑ f : Fin 64, h1r xr w1r b1r sw dw n f * w2r f g

theorem lin2K_coe (n : Fin 100000) (g : Fin 32) :
    lin2K (fun n k => (xr n k : EReal)) (fun k f => (w1r k f : EReal)) (fun f => (b1r f : EReal))
        (fun f g => (w2r f g : EReal)) sw dw n g
      = ((lin2r xr w1r b1r w2r sw dw n g : ℝ) : EReal) := by
  unfold lin2K lin2r
  rw [coe_sum]
  refine Finset.sum_congr rfl (fun f _ => ?_)
  rw [hK_coe, EReal.coe_mul]

theorem lin2R_coe (n : Fin 100000) (g : Fin 32) :
    lin2R (fun n k => (xr n k : EReal)) (fun k f => (w1r k f : EReal)) (fun f => (b1r f : EReal))
        (fun f g => (w2r f g : EReal)) sw dw n g
      = ((lin2r xr w1r b1r w2r sw dw n g : ℝ) : EReal) := by
  unfold lin2R lin2r
  rw [coe_sum]
  refine Finset.sum_congr rfl (fun f _ => ?_)
  rw [hR_coe, EReal.coe_mul]

/-- the output row before the pool as a real -/
def zr (n : Fin 100000) (g : Fin 32) : ℝ :=
  layV (univ.filter (fun e => lands (dw e) n)) (fun e => gnode (sw e)) (lin2r xr w1r b1r w2r sw dw) (disN dw) b2r n g

theorem zK_coe (n : Fin 100000) (g : Fin 32) :
    zK (fun n k => (xr n k : EReal)) (fun k f => (w1r k f : EReal)) (fun f => (b1r f : EReal))
        (fun f g => (w2r f g : EReal)) (fun g => (b2r g : EReal)) sw dw n g
      = ((zr xr w1r b1r w2r b2r sw dw n g : ℝ) : EReal) := by
  unfold zK zr
  simp only [agK2, sfK2, scK2, disK_eq, lin2K_coe]
  exact layK_eq (univ.filter (fun e => lands (dw e) n)) (fun e => gnode (sw e)) (lin2r xr w1r b1r w2r sw dw)
    (disN dw) b2r n g

theorem zR_coe (n : Fin 100000) (g : Fin 32) :
    zR (fun n k => (xr n k : EReal)) (fun k f => (w1r k f : EReal)) (fun f => (b1r f : EReal))
        (fun f g => (w2r f g : EReal)) (fun g => (b2r g : EReal)) sw dw n g
      = ((zr xr w1r b1r w2r b2r sw dw n g : ℝ) : EReal) := by
  unfold zR zr
  rw [sumR_split sw dw n (fun m => lin2R (fun n k => (xr n k : EReal)) (fun k f => (w1r k f : EReal))
    (fun f => (b1r f : EReal)) (fun f g => (w2r f g : EReal)) sw dw m g)]
  simp only [lin2R_coe]
  exact layR_eq (univ.filter (fun e => lands (dw e) n)) (fun e => gnode (sw e)) (lin2r xr w1r b1r w2r sw dw)
    (disN dw) b2r n g

/-- the rows before the pool of the two arrangements are one function -/
theorem zK_eq_zR :
    zK (fun n k => (xr n k : EReal)) (fun k f => (w1r k f : EReal)) (fun f => (b1r f : EReal))
        (fun f g => (w2r f g : EReal)) (fun g => (b2r g : EReal)) sw dw
      = zR (fun n k => (xr n k : EReal)) (fun k f => (w1r k f : EReal)) (fun f => (b1r f : EReal))
        (fun f g => (w2r f g : EReal)) (fun g => (b2r g : EReal)) sw dw := by
  funext n g
  rw [zK_coe, zR_coe]

/-! ### The pool -/

/-- the one-hot weighted sum over all nodes is the sum over the nodes of the graph; the summands agree -/
theorem sumsK_eq_sumsR :
    sumsK (fun n k => (xr n k : EReal)) (fun k f => (w1r k f : EReal)) (fun f => (b1r f : EReal))
        (fun f g => (w2r f g : EReal)) (fun g => (b2r g : EReal)) sw dw bt
      = sumsR (fun n k => (xr n k : EReal)) (fun k f => (w1r k f : EReal)) (fun f => (b1r f : EReal))
        (fun f g => (w2r f g : EReal)) (fun g => (b2r g : EReal)) sw dw bt := by
  funext g d
  unfold sumsK sumsR
  rw [sum_oh bt g, zK_eq_zR]

end Real

/-- with real inputs the factored arrangement and the arrangement with the self-loops listed are one function: a real factor moves across a finite sum of reals, products of reals commute and associate -/
theorem outK_eq_outR (xr : Fin 100000 → Fin 2 → ℝ) (w1r : Fin 2 → Fin 64 → ℝ) (b1r : Fin 64 → ℝ) (w2r : Fin 64 → Fin 32 → ℝ) (b2r : Fin 32 → ℝ)
    (sw dw : Fin 1600000 → BitVec 32) (bt : Fin 100000 → BitVec 32) :
    outK (fun n k => (xr n k : EReal)) (fun k f => (w1r k f : EReal)) (fun f => (b1r f : EReal)) (fun f g => (w2r f g : EReal)) (fun g => (b2r g : EReal)) sw dw bt
      = outR (fun n k => (xr n k : EReal)) (fun k f => (w1r k f : EReal)) (fun f => (b1r f : EReal)) (fun f g => (w2r f g : EReal)) (fun g => (b2r g : EReal)) sw dw bt := by
  funext g d
  unfold outK outR
  rw [sumsK_eq_sumsR]

end Gcn

end
-- ==== Proof.LibERealRows.lean ====
/-
  General facts about rows of real numbers inside the extended reals, as float programs read at exact arithmetic
  meet them.

  * The patterns of `-∞`, `+∞` and `1.0` denote `⊥`, `⊤` and `1`.
  * An extended real whose absolute value `max x (−x)` compares below `+∞` is a real.
  * A finite sum of coerced reals is the coerced sum; a finite sum of products of reals is a real.
  * The maximum of a nonempty row of reals, folded from `-∞`, is a real.
  * A softmax does not see a common shift: for a real row `s` and a real `M`,
    `exp (s j − M) / Σ exp (s i − M) = exp (s j) · (1 / Σ exp (s i))`, the quotient and the product with the reciprocal
    being the same because both sums are positive reals.
-/
import Idealize.ShloMosaic.PureOps.Ideal
import Idealize.ShloMosaic.PureOps.Ideal.Laws
import Mathlib.Analysis.SpecialFunctions.Exp

noncomputable section

namespace Cert.ERealRows

open Idealize.ShloMosaic

/-! ## Float literals as extended reals -/

/-- The pattern of `-∞` denotes the bottom element. -/
theorem ofBits_negInf : Ideal.ofBits .f32 0xFF800000#32 = ⊥ := by
  simp [Ideal.ofBits, Ideal.ieee]

/-- The pattern of `+∞` denotes the top element. -/
theorem ofBits_posInf : Ideal.ofBits .f32 0x7F800000#32 = ⊤ := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- An extended real whose absolute value compares below `+∞` is a real: `max x (−x)` is `+∞` at both infinities. -/
theorem real_of_abs_lt_inf (x : EReal) (h : Ideal.cmp .olt (max x (-x)) (Ideal.ofBits .f32 0x7F800000#32) = 1#1) :
    ∃ r : ℝ, x = (r : EReal) := by
  rw [ofBits_posInf] at h
  have hlt : max x (-x) < ⊤ := by
    by_contra hn
    simp [Ideal.cmp, hn] at h
  induction x using EReal.rec with
  | bot => simp at hlt
  | coe r => exact ⟨r, rfl⟩
  | top => simp at hlt

/-! ## Sums and maxima of real rows -/

section Rows

variable {ι : Type*} [Fintype ι]

/-- A finite sum of coerced reals is the coerced sum. -/
theorem coe_sum (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite sum of products of coerced reals is a real. -/
theorem sum_mul_real {κ : Type*} [Fintype κ] (u v : κ → ℝ) : ∃ r : ℝ, ∑ k, (u k : EReal) * (v k : EReal) = (r : EReal) :=
  ⟨∑ k, u k * v k, by rw [← coe_sum]; exact Finset.sum_congr rfl fun k _ => (EReal.coe_mul _ _).symm⟩

/-- The maximum of a nonempty row of reals, folded from `-∞`, is a real: it is below `+∞` because every entry is,
    and above `-∞` because some entry is. -/
theorem fold_max_real [Nonempty ι] (f : ι → ℝ) :
    ∃ M : ℝ, (Finset.univ : Finset ι).fold max (⊥ : EReal) (fun j => (f j : EReal)) = (M : EReal) := by
  have h1 : (Finset.univ : Finset ι).fold max (⊥ : EReal) (fun j => (f j : EReal)) ≠ ⊤ := by
    refine ne_of_lt ?_
    rw [Finset.fold_max_lt]
    exact ⟨bot_lt_top, fun x _ => EReal.coe_lt_top _⟩
  have h2 : (Finset.univ : Finset ι).fold max (⊥ : EReal) (fun j => (f j : EReal)) ≠ ⊥ := by
    obtain ⟨j0⟩ := ‹Nonempty ι›
    refine ne_of_gt (lt_of_lt_of_le (EReal.bot_lt_coe (f j0)) ?_)
    rw [Finset.le_fold_max]
    exact Or.inr ⟨j0, Finset.mem_univ _, le_rfl⟩
  exact ⟨_, (EReal.coe_toReal h1 h2).symm⟩

/-- A softmax does not see a common shift, and its quotient is the product with the reciprocal of the unshifted sum:
    `exp (s j − M) = exp (s j) / exp M` with `exp M` a positive real common to numerator and denominator. -/
theorem softmax_shift [Nonempty ι] (s : ι → ℝ) (M : ℝ) (j : ι) :
    Ideal.div (Ideal.exp ((s j : EReal) - (M : EReal))) (∑ i, Ideal.exp ((s i : EReal) - (M : EReal)))
      = Ideal.exp (s j : EReal) * Ideal.div 1 (∑ i, Ideal.exp (s i : EReal)) := by
  have h1 : ∀ i, Ideal.exp ((s i : EReal) - (M : EReal)) = ((Real.exp (s i - M) : ℝ) : EReal) := fun i => by
    rw [← EReal.coe_sub]; rfl
  have h2 : ∀ i, Ideal.exp (s i : EReal) = ((Real.exp (s i) : ℝ) : EReal) := fun i => rfl
  have hS1 : 0 < ∑ i, Real.exp (s i - M) := Finset.sum_pos (fun i _ => Real.exp_pos _) Finset.univ_nonempty
  have hS2 : 0 < ∑ i, Real.exp (s i) := Finset.sum_pos (fun i _ => Real.exp_pos _) Finset.univ_nonempty
  simp only [h1, h2, coe_sum]
  rw [Ideal.div_coe hS1.ne', Ideal.div_coe hS2.ne', one_mul, ← EReal.coe_mul, ← EReal.coe_mul]
  congr 1
  have hsub : ∀ i, Real.exp (s i - M) = Real.exp (s i) / Real.exp M := fun i => Real.exp_sub _ _
  have hM0 : Real.exp M ≠ 0 := (Real.exp_pos M).ne'
  have hS20 : (∑ i, Real.exp (s i)) ≠ 0 := hS2.ne'
  simp only [hsub, ← Finset.sum_div]
  field_simp

end Rows

end Cert.ERealRows

end
-- ==== Proof.Finite.lean ====
/-
  From the precondition to real numbers: the printed predicate is the conjunction of five statements
  "every entry's absolute value is below +∞", one per float argument; an extended real whose absolute value is below
  +∞ is a real. So under the precondition every entry of the five float arrays is (the coercion of) a real.
-/
import proofs.«419793_j38981123178585_3_alg».proof.Pre_finite_inputs
import proofs.«419793_j38981123178585_3_alg».proof.Proof.Gen.Pre_finite_inputs
import proofs.«419793_j38981123178585_3_alg».proof.Proof.LibERealRows
import Idealize.ShloMosaic.Lib.ReduceAll
import Idealize.ShloMosaic.Lib.Affine
import Idealize.ShloMosaic.Lib.ValueIdx

noncomputable section

namespace Cert.Proof.Finite

open Idealize.ShloMosaic Cert.Pre_finite_inputs

instance : Subsingleton S_.Idx := ⟨fun a b => funext fun d => d.elim0⟩

variable [hP : Cert.Pre_finite_inputs.Facts]

/-- Under the precondition every entry of every float argument is a real. -/
theorem real_of_pre (a0 : FVec Ideal S100000x2 .f32) (a1 : FVec Ideal S2x64 .f32) (a2 : FVec Ideal S64 .f32)
    (a3 : FVec Ideal S64x32 .f32) (a4 : FVec Ideal S32 .f32) (a5 : IVec S2x1600000 32) (a6 : IVec S100000 32)
    (h : fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [fn, fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  refine ⟨fun i => ?_, fun i => ?_, fun i => ?_, fun i => ?_, fun i => ?_⟩
  · exact Cert.ERealRows.real_of_abs_lt_inf _ (Host.reduce_andi_all _ _ _ _ _ h0' i)
  · exact Cert.ERealRows.real_of_abs_lt_inf _ (Host.reduce_andi_all _ _ _ _ _ h1 i)
  · exact Cert.ERealRows.real_of_abs_lt_inf _ (Host.reduce_andi_all _ _ _ _ _ h2 i)
  · exact Cert.ERealRows.real_of_abs_lt_inf _ (Host.reduce_andi_all _ _ _ _ _ h3 i)
  · exact Cert.ERealRows.real_of_abs_lt_inf _ (Host.reduce_andi_all _ _ _ _ _ h4 i)

end Cert.Proof.Finite

end
-- ==== Proof.lean ====
/-
  The certificate's five claims.

  The kernel program is a two-layer graph convolution and a mean pool in three grid kernels among host stretches; the
  reference is the same network written edge by edge with the self-loops listed as edges. Each program's run is read
  back: every execution ends with every buffer at a closed form of the arguments (`run_all` for the kernel program,
  the reference's run for the reference), which gives the three frames. At exact arithmetic the kernel program's result
  is `Gcn.outK` and the reference's is `Gcn.outR` of the same arguments; under the precondition every float entry is a
  real, and for real inputs the two arrangements are one function: a real factor moves across a finite sum of reals.
-/
import proofs.«419793_j38981123178585_3_alg».proof.Defs
import proofs.«419793_j38981123178585_3_alg».proof.Proof.Gen.Kernel
import proofs.«419793_j38981123178585_3_alg».proof.Proof.Gen.KernelIdeal
import proofs.«419793_j38981123178585_3_alg».proof.Proof.Gen.ReferenceIdeal
import proofs.«419793_j38981123178585_3_alg».proof.Proof.Gen.Pre_finite_inputs
import proofs.«419793_j38981123178585_3_alg».proof.Proof.K.Run
import proofs.«419793_j38981123178585_3_alg».proof.Proof.KI.KVal
import proofs.«419793_j38981123178585_3_alg».proof.Proof.RefVal3
import proofs.«419793_j38981123178585_3_alg».proof.Proof.Math
import proofs.«419793_j38981123178585_3_alg».proof.Proof.Finite

noncomputable section

namespace Cert.Proof

open Idealize.ShloMosaic Idealize.ShloMosaic.TcCoe Idealize.SL.Sem Idealize.ShloMosaic.ValueIdx

/-- The word-level kernel program runs and leaves its arguments as launched: its run read at the arguments. -/
theorem frame_k : Cert.frame_Kernel := fun m ρ _ =>
  (θ_run (Cert.Kernel.defs (F := Bits)) _ _).mono (fun r h c =>
    ⟨(h c _ (Cert.Kernel.Fr.mem_uc Cert.Kernel.main_arg0 (by decide))).trans (Cert.Kernel.Fr.W7_main_arg0 m ρ c),
      (h c _ (Cert.Kernel.Fr.mem_uc Cert.Kernel.main_arg1 (by decide))).trans (Cert.Kernel.Fr.W7_main_arg1 m ρ c),
      (h c _ (Cert.Kernel.Fr.mem_uc Cert.Kernel.main_arg2 (by decide))).trans (Cert.Kernel.Fr.W7_main_arg2 m ρ c),
      (h c _ (Cert.Kernel.Fr.mem_uc Cert.Kernel.main_arg3 (by decide))).trans (Cert.Kernel.Fr.W7_main_arg3 m ρ c),
      (h c _ (Cert.Kernel.Fr.mem_uc Cert.Kernel.main_arg4 (by decide))).trans (Cert.Kernel.Fr.W7_main_arg4 m ρ c),
      (h c _ (Cert.Kernel.Fr.mem_uc Cert.Kernel.main_arg5 (by decide))).trans (Cert.Kernel.Fr.W7_main_arg5 m ρ c),
      (h c _ (Cert.Kernel.Fr.mem_uc Cert.Kernel.main_arg6 (by decide))).trans (Cert.Kernel.Fr.W7_main_arg6 m ρ c)⟩)
    (Cert.Kernel.Fr.run_all (F := Bits) m ρ)

/-- The same for the program read at exact arithmetic. -/
theorem frame_ki : Cert.frame_KernelIdeal := fun m ρ _ =>
  (θ_run (Cert.KernelIdeal.defs (F := Ideal)) _ _).mono (fun r h c =>
    ⟨(h c _ (Cert.KernelIdeal.Fr.mem_uc Cert.KernelIdeal.main_arg0 (by decide))).trans (Cert.KernelIdeal.Fr.W7_main_arg0 m ρ c),
      (h c _ (Cert.KernelIdeal.Fr.mem_uc Cert.KernelIdeal.main_arg1 (by decide))).trans (Cert.KernelIdeal.Fr.W7_main_arg1 m ρ c),
      (h c _ (Cert.KernelIdeal.Fr.mem_uc Cert.KernelIdeal.main_arg2 (by decide))).trans (Cert.KernelIdeal.Fr.W7_main_arg2 m ρ c),
      (h c _ (Cert.KernelIdeal.Fr.mem_uc Cert.KernelIdeal.main_arg3 (by decide))).trans (Cert.KernelIdeal.Fr.W7_main_arg3 m ρ c),
      (h c _ (Cert.KernelIdeal.Fr.mem_uc Cert.KernelIdeal.main_arg4 (by decide))).trans (Cert.KernelIdeal.Fr.W7_main_arg4 m ρ c),
      (h c _ (Cert.KernelIdeal.Fr.mem_uc Cert.KernelIdeal.main_arg5 (by decide))).trans (Cert.KernelIdeal.Fr.W7_main_arg5 m ρ c),
      (h c _ (Cert.KernelIdeal.Fr.mem_uc Cert.KernelIdeal.main_arg6 (by decide))).trans (Cert.KernelIdeal.Fr.W7_main_arg6 m ρ c)⟩)
    (Cert.KernelIdeal.Fr.run_all (F := Ideal) m ρ)

/-- The reference is host operations only: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both programs end at one array: the kernel program's result is the factored arrangement of the network, the
    reference's the arrangement with the self-loops listed, and on real inputs these agree. -/
theorem algebraic : Cert.algebraic_KernelIdeal_ReferenceIdeal := by
  intro m ρ m' ρ' hpre hagree
  refine ⟨fun c => Cert.KernelIdeal.Fr.W7 (F := Ideal) m ρ c (Proc.devRef .tc Cert.KernelIdeal.main_v46), ?_, ?_⟩
  · exact (θ_run (Cert.KernelIdeal.defs (F := Ideal)) _ _).mono (fun r h c =>
      ⟨h c _ (Cert.KernelIdeal.Fr.mem_uc Cert.KernelIdeal.main_v46 (by decide)),
      (h c _ (Cert.KernelIdeal.Fr.mem_uc Cert.KernelIdeal.main_arg0 (by decide))).trans (Cert.KernelIdeal.Fr.W7_main_arg0 m ρ c),
      (h c _ (Cert.KernelIdeal.Fr.mem_uc Cert.KernelIdeal.main_arg1 (by decide))).trans (Cert.KernelIdeal.Fr.W7_main_arg1 m ρ c),
      (h c _ (Cert.KernelIdeal.Fr.mem_uc Cert.KernelIdeal.main_arg2 (by decide))).trans (Cert.KernelIdeal.Fr.W7_main_arg2 m ρ c),
      (h c _ (Cert.KernelIdeal.Fr.mem_uc Cert.KernelIdeal.main_arg3 (by decide))).trans (Cert.KernelIdeal.Fr.W7_main_arg3 m ρ c),
      (h c _ (Cert.KernelIdeal.Fr.mem_uc Cert.KernelIdeal.main_arg4 (by decide))).trans (Cert.KernelIdeal.Fr.W7_main_arg4 m ρ c),
      (h c _ (Cert.KernelIdeal.Fr.mem_uc Cert.KernelIdeal.main_arg5 (by decide))).trans (Cert.KernelIdeal.Fr.W7_main_arg5 m ρ c),
      (h c _ (Cert.KernelIdeal.Fr.mem_uc Cert.KernelIdeal.main_arg6 (by decide))).trans (Cert.KernelIdeal.Fr.W7_main_arg6 m ρ c)⟩)
      (Cert.KernelIdeal.Fr.run_all (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6⟩ := hagree c
    obtain ⟨r0, r1, r2, r3, r4⟩ := Cert.Proof.Finite.real_of_pre _ _ _ _ _ _ _ (hpre c)
    choose y0 hy0 using r0
    choose y1 hy1 using r1
    choose y2 hy2 using r2
    choose y3 hy3 using r3
    choose y4 hy4 using r4
    rw [Cert.ReferenceIdeal.ReadP.val_main_v102_eq, e0, e1, e2, e3, e4, e5, e6]
    funext i
    obtain ⟨g, d, rfl⟩ : ∃ (g : Fin 64) (d : Fin 32), i = ix2 g d := ⟨i 0, i 1, eq_ix2 i⟩
    refine (Cert.ReferenceIdeal.RefVal.ref_value _ _ _ _ _ _ _ g d).trans ?_
    refine Eq.trans ?_ (Cert.KernelIdeal.Val.kernel_value m ρ c g d).symm
    have q0 : (fun n k => m ((c.tc : Thread Cert.KernelIdeal.nD Cert.KernelIdeal.τ).loc Cert.KernelIdeal.main_arg0) (ix2 n k))
        = fun (n : Fin 100000) (k : Fin 2) => ((y0 (ix2 n k) : ℝ) : EReal) := funext fun n => funext fun k => hy0 _
    have q1 : (fun k f => m ((c.tc : Thread Cert.KernelIdeal.nD Cert.KernelIdeal.τ).loc Cert.KernelIdeal.main_arg1) (ix2 k f))
        = fun (k : Fin 2) (f : Fin 64) => ((y1 (ix2 k f) : ℝ) : EReal) := funext fun k => funext fun f => hy1 _
    have q2 : (fun f => m ((c.tc : Thread Cert.KernelIdeal.nD Cert.KernelIdeal.τ).loc Cert.KernelIdeal.main_arg2) (ix1 f))
        = fun (f : Fin 64) => ((y2 (ix1 f) : ℝ) : EReal) := funext fun f => hy2 _
    have q3 : (fun f g => m ((c.tc : Thread Cert.KernelIdeal.nD Cert.KernelIdeal.τ).loc Cert.KernelIdeal.main_arg3) (ix2 f g))
        = fun (f : Fin 64) (g : Fin 32) => ((y3 (ix2 f g) : ℝ) : EReal) := funext fun f => funext fun g => hy3 _
    have q4 : (fun g => m ((c.tc : Thread Cert.KernelIdeal.nD Cert.KernelIdeal.τ).loc Cert.KernelIdeal.main_arg4) (ix1 g))
        = fun (g : Fin 32) => ((y4 (ix1 g) : ℝ) : EReal) := funext fun g => hy4 _
    rw [q0, q1, q2, q3, q4]
    exact (congrFun (congrFun (Gcn.outK_eq_outR _ _ _ _ _ _ _ _) g) d).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
